-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x1024 : Shape := ⟨2, ![1024, 1024]⟩
abbrev S2048x512 : Shape := ⟨2, ![2048, 512]⟩
abbrev S512x512 : Shape := ⟨2, ![512, 512]⟩
abbrev S16 : Shape := ⟨1, ![16]⟩
abbrev S_ : Shape := ⟨0, ![]⟩
abbrev S32x512 : Shape := ⟨2, ![32, 512]⟩
abbrev S1 : Shape := ⟨1, ![1]⟩
abbrev S1024x512 : Shape := ⟨2, ![1024, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S2048x512, .bf16⟩
  | .local _ .vmem, ⟨0, _⟩ => ⟨S1024x1024, .f32⟩
  | .local _ .vmem, ⟨1, _⟩ => ⟨S2048x512, .bf16⟩
  | .local _ .vmem, ⟨2, _⟩ => ⟨S512x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_13 : BitVec 32 := 0#32
  let v19 : BitVec 1 := Scalar.cmpi .eq v5 c0_i32_13
  let v20 : BitVec 32 := Scalar.extui v19
  let c0_i32_14 : BitVec 32 := 0#32
  let v21 : BitVec 1 := Scalar.cmpi .ne v20 c0_i32_14
  v21

def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c0_i32_12 : BitVec 32 := 0#32
  let v18 : BitVec 32 := Scalar.addi v17 c0_i32_12
  let v936 : Index := Scalar.indexCast v18
  let c512 : Index := 512#32
  ![v936.toNat, 512]
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v22 : BitVec 1 := Scalar.cmpi .eq v5 c1_i32_15
  let v23 : BitVec 32 := Scalar.extui v22
  let c0_i32_16 : BitVec 32 := 0#32
  let v24 : BitVec 1 := Scalar.cmpi .ne v23 c0_i32_16
  v24

def k0_off2 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c0_i32_12 : BitVec 32 := 0#32
  let v18 : BitVec 32 := Scalar.addi v17 c0_i32_12
  let v936 : Index := Scalar.indexCast v18
  let c0 : Index := 0#32
  ![v936.toNat, 0]
def k0_off3 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v25 : BitVec 32 := Scalar.muli v5 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v18 : BitVec 32 := Scalar.addi v17 c0_i32_12
  let v26 : BitVec 32 := Scalar.addi v25 v18
  let c0_i32_22 : BitVec 32 := 0#32
  ![v26.toNat, 0]
def k0_dev3 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v27 : BitVec 32 := Scalar.muli v2 c2_i32_19
  let v28 : BitVec 32 := Scalar.addi c0_i32_20 v27
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v29 : BitVec 32 := Scalar.muli v6 c1_i32_21
  let v30 : BitVec 32 := Scalar.addi v28 v29
  v30.toNat
def k0_cond3 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_25 : BitVec 32 := 0#32
  let v38 : BitVec 1 := Scalar.cmpi .eq v5 c0_i32_25
  let v39 : BitVec 32 := Scalar.extui v38
  let c0_i32_26 : BitVec 32 := 0#32
  let v40 : BitVec 1 := Scalar.cmpi .ne v39 c0_i32_26
  v40

def k0_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c32_i32 : BitVec 32 := 32#32
  let v37 : BitVec 32 := Scalar.addi v17 c32_i32
  let v936 : Index := Scalar.indexCast v37
  let c512 : Index := 512#32
  ![v936.toNat, 512]
def k0_cond4 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v41 : BitVec 1 := Scalar.cmpi .eq v5 c1_i32_27
  let v42 : BitVec 32 := Scalar.extui v41
  let c0_i32_28 : BitVec 32 := 0#32
  let v43 : BitVec 1 := Scalar.cmpi .ne v42 c0_i32_28
  v43

def k0_off5 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c32_i32 : BitVec 32 := 32#32
  let v37 : BitVec 32 := Scalar.addi v17 c32_i32
  let v936 : Index := Scalar.indexCast v37
  let c0 : Index := 0#32
  ![v936.toNat, 0]
def k0_dev4 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v46 : BitVec 32 := Scalar.muli v2 c2_i32_32
  let v47 : BitVec 32 := Scalar.addi c0_i32_33 v46
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_34 : BitVec 32 := 1#32
  let v48 : BitVec 32 := Scalar.muli v6 c1_i32_34
  let v49 : BitVec 32 := Scalar.addi v47 v48
  v49.toNat
def k0_cond5 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_38 : BitVec 32 := 0#32
  let v57 : BitVec 1 := Scalar.cmpi .eq v5 c0_i32_38
  let v58 : BitVec 32 := Scalar.extui v57
  let c0_i32_39 : BitVec 32 := 0#32
  let v59 : BitVec 1 := Scalar.cmpi .ne v58 c0_i32_39
  v59

def k0_off6 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c64_i32 : BitVec 32 := 64#32
  let v56 : BitVec 32 := Scalar.addi v17 c64_i32
  let v936 : Index := Scalar.indexCast v56
  let c512 : Index := 512#32
  ![v936.toNat, 512]
def k0_cond6 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v60 : BitVec 1 := Scalar.cmpi .eq v5 c1_i32_40
  let v61 : BitVec 32 := Scalar.extui v60
  let c0_i32_41 : BitVec 32 := 0#32
  let v62 : BitVec 1 := Scalar.cmpi .ne v61 c0_i32_41
  v62

def k0_off7 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c64_i32 : BitVec 32 := 64#32
  let v56 : BitVec 32 := Scalar.addi v17 c64_i32
  let v936 : Index := Scalar.indexCast v56
  let c0 : Index := 0#32
  ![v936.toNat, 0]
def k0_dev5 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v65 : BitVec 32 := Scalar.muli v2 c2_i32_45
  let v66 : BitVec 32 := Scalar.addi c0_i32_46 v65
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v67 : BitVec 32 := Scalar.muli v6 c1_i32_47
  let v68 : BitVec 32 := Scalar.addi v66 v67
  v68.toNat
def k0_cond7 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_51 : BitVec 32 := 0#32
  let v76 : BitVec 1 := Scalar.cmpi .eq v5 c0_i32_51
  let v77 : BitVec 32 := Scalar.extui v76
  let c0_i32_52 : BitVec 32 := 0#32
  let v78 : BitVec 1 := Scalar.cmpi .ne v77 c0_i32_52
  v78

def k0_off8 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c96_i32 : BitVec 32 := 96#32
  let v75 : BitVec 32 := Scalar.addi v17 c96_i32
  let v936 : Index := Scalar.indexCast v75
  let c512 : Index := 512#32
  ![v936.toNat, 512]
def k0_cond8 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v79 : BitVec 1 := Scalar.cmpi .eq v5 c1_i32_53
  let v80 : BitVec 32 := Scalar.extui v79
  let c0_i32_54 : BitVec 32 := 0#32
  let v81 : BitVec 1 := Scalar.cmpi .ne v80 c0_i32_54
  v81

def k0_off9 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c96_i32 : BitVec 32 := 96#32
  let v75 : BitVec 32 := Scalar.addi v17 c96_i32
  let v936 : Index := Scalar.indexCast v75
  let c0 : Index := 0#32
  ![v936.toNat, 0]
def k0_dev6 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v84 : BitVec 32 := Scalar.muli v2 c2_i32_57
  let v85 : BitVec 32 := Scalar.addi c0_i32_58 v84
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_59 : BitVec 32 := 1#32
  let v86 : BitVec 32 := Scalar.muli v6 c1_i32_59
  let v87 : BitVec 32 := Scalar.addi v85 v86
  v87.toNat
def k0_cond9 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_63 : BitVec 32 := 0#32
  let v95 : BitVec 1 := Scalar.cmpi .eq v5 c0_i32_63
  let v96 : BitVec 32 := Scalar.extui v95
  let c0_i32_64 : BitVec 32 := 0#32
  let v97 : BitVec 1 := Scalar.cmpi .ne v96 c0_i32_64
  v97

def k0_off10 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c128_i32 : BitVec 32 := 128#32
  let v94 : BitVec 32 := Scalar.addi v17 c128_i32
  let v936 : Index := Scalar.indexCast v94
  let c512 : Index := 512#32
  ![v936.toNat, 512]
def k0_cond10 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v98 : BitVec 1 := Scalar.cmpi .eq v5 c1_i32_65
  let v99 : BitVec 32 := Scalar.extui v98
  let c0_i32_66 : BitVec 32 := 0#32
  let v100 : BitVec 1 := Scalar.cmpi .ne v99 c0_i32_66
  v100

def k0_off11 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c128_i32 : BitVec 32 := 128#32
  let v94 : BitVec 32 := Scalar.addi v17 c128_i32
  let v936 : Index := Scalar.indexCast v94
  let c0 : Index := 0#32
  ![v936.toNat, 0]
def k0_dev7 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_69 : BitVec 32 := 2#32
  let v103 : BitVec 32 := Scalar.muli v2 c2_i32_69
  let v104 : BitVec 32 := Scalar.addi c0_i32_70 v103
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_71 : BitVec 32 := 1#32
  let v105 : BitVec 32 := Scalar.muli v6 c1_i32_71
  let v106 : BitVec 32 := Scalar.addi v104 v105
  v106.toNat
def k0_cond11 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_75 : BitVec 32 := 0#32
  let v114 : BitVec 1 := Scalar.cmpi .eq v5 c0_i32_75
  let v115 : BitVec 32 := Scalar.extui v114
  let c0_i32_76 : BitVec 32 := 0#32
  let v116 : BitVec 1 := Scalar.cmpi .ne v115 c0_i32_76
  v116

def k0_off12 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c160_i32 : BitVec 32 := 160#32
  let v113 : BitVec 32 := Scalar.addi v17 c160_i32
  let v936 : Index := Scalar.indexCast v113
  let c512 : Index := 512#32
  ![v936.toNat, 512]
def k0_cond12 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v117 : BitVec 1 := Scalar.cmpi .eq v5 c1_i32_77
  let v118 : BitVec 32 := Scalar.extui v117
  let c0_i32_78 : BitVec 32 := 0#32
  let v119 : BitVec 1 := Scalar.cmpi .ne v118 c0_i32_78
  v119

def k0_off13 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c160_i32 : BitVec 32 := 160#32
  let v113 : BitVec 32 := Scalar.addi v17 c160_i32
  let v936 : Index := Scalar.indexCast v113
  let c0 : Index := 0#32
  ![v936.toNat, 0]
def k0_dev8 (d0 : Dev nD) : Nat :=
  let c0_i32_82 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_81 : BitVec 32 := 2#32
  let v122 : BitVec 32 := Scalar.muli v2 c2_i32_81
  let v123 : BitVec 32 := Scalar.addi c0_i32_82 v122
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_83 : BitVec 32 := 1#32
  let v124 : BitVec 32 := Scalar.muli v6 c1_i32_83
  let v125 : BitVec 32 := Scalar.addi v123 v124
  v125.toNat
def k0_cond13 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_87 : BitVec 32 := 0#32
  let v133 : BitVec 1 := Scalar.cmpi .eq v5 c0_i32_87
  let v134 : BitVec 32 := Scalar.extui v133
  let c0_i32_88 : BitVec 32 := 0#32
  let v135 : BitVec 1 := Scalar.cmpi .ne v134 c0_i32_88
  v135

def k0_off14 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c192_i32 : BitVec 32 := 192#32
  let v132 : BitVec 32 := Scalar.addi v17 c192_i32
  let v936 : Index := Scalar.indexCast v132
  let c512 : Index := 512#32
  ![v936.toNat, 512]
def k0_cond14 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v136 : BitVec 1 := Scalar.cmpi .eq v5 c1_i32_89
  let v137 : BitVec 32 := Scalar.extui v136
  let c0_i32_90 : BitVec 32 := 0#32
  let v138 : BitVec 1 := Scalar.cmpi .ne v137 c0_i32_90
  v138

def k0_off15 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c192_i32 : BitVec 32 := 192#32
  let v132 : BitVec 32 := Scalar.addi v17 c192_i32
  let v936 : Index := Scalar.indexCast v132
  let c0 : Index := 0#32
  ![v936.toNat, 0]
def k0_dev9 (d0 : Dev nD) : Nat :=
  let c0_i32_94 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_93 : BitVec 32 := 2#32
  let v141 : BitVec 32 := Scalar.muli v2 c2_i32_93
  let v142 : BitVec 32 := Scalar.addi c0_i32_94 v141
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_95 : BitVec 32 := 1#32
  let v143 : BitVec 32 := Scalar.muli v6 c1_i32_95
  let v144 : BitVec 32 := Scalar.addi v142 v143
  v144.toNat
def k0_cond15 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_99 : BitVec 32 := 0#32
  let v152 : BitVec 1 := Scalar.cmpi .eq v5 c0_i32_99
  let v153 : BitVec 32 := Scalar.extui v152
  let c0_i32_100 : BitVec 32 := 0#32
  let v154 : BitVec 1 := Scalar.cmpi .ne v153 c0_i32_100
  v154

def k0_off16 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c224_i32 : BitVec 32 := 224#32
  let v151 : BitVec 32 := Scalar.addi v17 c224_i32
  let v936 : Index := Scalar.indexCast v151
  let c512 : Index := 512#32
  ![v936.toNat, 512]
def k0_cond16 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v155 : BitVec 1 := Scalar.cmpi .eq v5 c1_i32_101
  let v156 : BitVec 32 := Scalar.extui v155
  let c0_i32_102 : BitVec 32 := 0#32
  let v157 : BitVec 1 := Scalar.cmpi .ne v156 c0_i32_102
  v157

def k0_off17 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c224_i32 : BitVec 32 := 224#32
  let v151 : BitVec 32 := Scalar.addi v17 c224_i32
  let v936 : Index := Scalar.indexCast v151
  let c0 : Index := 0#32
  ![v936.toNat, 0]
def k0_dev10 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v160 : BitVec 32 := Scalar.muli v2 c2_i32_105
  let v161 : BitVec 32 := Scalar.addi c0_i32_106 v160
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_107 : BitVec 32 := 1#32
  let v162 : BitVec 32 := Scalar.muli v6 c1_i32_107
  let v163 : BitVec 32 := Scalar.addi v161 v162
  v163.toNat
def k0_cond17 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_111 : BitVec 32 := 0#32
  let v171 : BitVec 1 := Scalar.cmpi .eq v5 c0_i32_111
  let v172 : BitVec 32 := Scalar.extui v171
  let c0_i32_112 : BitVec 32 := 0#32
  let v173 : BitVec 1 := Scalar.cmpi .ne v172 c0_i32_112
  v173

def k0_off18 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c256_i32 : BitVec 32 := 256#32
  let v170 : BitVec 32 := Scalar.addi v17 c256_i32
  let v936 : Index := Scalar.indexCast v170
  let c512 : Index := 512#32
  ![v936.toNat, 512]
def k0_cond18 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v174 : BitVec 1 := Scalar.cmpi .eq v5 c1_i32_113
  let v175 : BitVec 32 := Scalar.extui v174
  let c0_i32_114 : BitVec 32 := 0#32
  let v176 : BitVec 1 := Scalar.cmpi .ne v175 c0_i32_114
  v176

def k0_off19 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c256_i32 : BitVec 32 := 256#32
  let v170 : BitVec 32 := Scalar.addi v17 c256_i32
  let v936 : Index := Scalar.indexCast v170
  let c0 : Index := 0#32
  ![v936.toNat, 0]
def k0_dev11 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v179 : BitVec 32 := Scalar.muli v2 c2_i32_117
  let v180 : BitVec 32 := Scalar.addi c0_i32_118 v179
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_119 : BitVec 32 := 1#32
  let v181 : BitVec 32 := Scalar.muli v6 c1_i32_119
  let v182 : BitVec 32 := Scalar.addi v180 v181
  v182.toNat
def k0_cond19 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_123 : BitVec 32 := 0#32
  let v190 : BitVec 1 := Scalar.cmpi .eq v5 c0_i32_123
  let v191 : BitVec 32 := Scalar.extui v190
  let c0_i32_124 : BitVec 32 := 0#32
  let v192 : BitVec 1 := Scalar.cmpi .ne v191 c0_i32_124
  v192

def k0_off20 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c288_i32 : BitVec 32 := 288#32
  let v189 : BitVec 32 := Scalar.addi v17 c288_i32
  let v936 : Index := Scalar.indexCast v189
  let c512 : Index := 512#32
  ![v936.toNat, 512]
def k0_cond20 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_125 : BitVec 32 := 1#32
  let v193 : BitVec 1 := Scalar.cmpi .eq v5 c1_i32_125
  let v194 : BitVec 32 := Scalar.extui v193
  let c0_i32_126 : BitVec 32 := 0#32
  let v195 : BitVec 1 := Scalar.cmpi .ne v194 c0_i32_126
  v195

def k0_off21 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c288_i32 : BitVec 32 := 288#32
  let v189 : BitVec 32 := Scalar.addi v17 c288_i32
  let v936 : Index := Scalar.indexCast v189
  let c0 : Index := 0#32
  ![v936.toNat, 0]
def k0_dev12 (d0 : Dev nD) : Nat :=
  let c0_i32_130 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_129 : BitVec 32 := 2#32
  let v198 : BitVec 32 := Scalar.muli v2 c2_i32_129
  let v199 : BitVec 32 := Scalar.addi c0_i32_130 v198
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_131 : BitVec 32 := 1#32
  let v200 : BitVec 32 := Scalar.muli v6 c1_i32_131
  let v201 : BitVec 32 := Scalar.addi v199 v200
  v201.toNat
def k0_cond21 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_135 : BitVec 32 := 0#32
  let v209 : BitVec 1 := Scalar.cmpi .eq v5 c0_i32_135
  let v210 : BitVec 32 := Scalar.extui v209
  let c0_i32_136 : BitVec 32 := 0#32
  let v211 : BitVec 1 := Scalar.cmpi .ne v210 c0_i32_136
  v211

def k0_off22 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c320_i32 : BitVec 32 := 320#32
  let v208 : BitVec 32 := Scalar.addi v17 c320_i32
  let v936 : Index := Scalar.indexCast v208
  let c512 : Index := 512#32
  ![v936.toNat, 512]
def k0_cond22 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_137 : BitVec 32 := 1#32
  let v212 : BitVec 1 := Scalar.cmpi .eq v5 c1_i32_137
  let v213 : BitVec 32 := Scalar.extui v212
  let c0_i32_138 : BitVec 32 := 0#32
  let v214 : BitVec 1 := Scalar.cmpi .ne v213 c0_i32_138
  v214

def k0_off23 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c320_i32 : BitVec 32 := 320#32
  let v208 : BitVec 32 := Scalar.addi v17 c320_i32
  let v936 : Index := Scalar.indexCast v208
  let c0 : Index := 0#32
  ![v936.toNat, 0]
def k0_dev13 (d0 : Dev nD) : Nat :=
  let c0_i32_142 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_141 : BitVec 32 := 2#32
  let v217 : BitVec 32 := Scalar.muli v2 c2_i32_141
  let v218 : BitVec 32 := Scalar.addi c0_i32_142 v217
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_143 : BitVec 32 := 1#32
  let v219 : BitVec 32 := Scalar.muli v6 c1_i32_143
  let v220 : BitVec 32 := Scalar.addi v218 v219
  v220.toNat
def k0_cond23 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_147 : BitVec 32 := 0#32
  let v228 : BitVec 1 := Scalar.cmpi .eq v5 c0_i32_147
  let v229 : BitVec 32 := Scalar.extui v228
  let c0_i32_148 : BitVec 32 := 0#32
  let v230 : BitVec 1 := Scalar.cmpi .ne v229 c0_i32_148
  v230

def k0_off24 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c352_i32 : BitVec 32 := 352#32
  let v227 : BitVec 32 := Scalar.addi v17 c352_i32
  let v936 : Index := Scalar.indexCast v227
  let c512 : Index := 512#32
  ![v936.toNat, 512]
def k0_cond24 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_149 : BitVec 32 := 1#32
  let v231 : BitVec 1 := Scalar.cmpi .eq v5 c1_i32_149
  let v232 : BitVec 32 := Scalar.extui v231
  let c0_i32_150 : BitVec 32 := 0#32
  let v233 : BitVec 1 := Scalar.cmpi .ne v232 c0_i32_150
  v233

def k0_off25 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c352_i32 : BitVec 32 := 352#32
  let v227 : BitVec 32 := Scalar.addi v17 c352_i32
  let v936 : Index := Scalar.indexCast v227
  let c0 : Index := 0#32
  ![v936.toNat, 0]
def k0_dev14 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v236 : BitVec 32 := Scalar.muli v2 c2_i32_153
  let v237 : BitVec 32 := Scalar.addi c0_i32_154 v236
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_155 : BitVec 32 := 1#32
  let v238 : BitVec 32 := Scalar.muli v6 c1_i32_155
  let v239 : BitVec 32 := Scalar.addi v237 v238
  v239.toNat
def k0_cond25 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_159 : BitVec 32 := 0#32
  let v247 : BitVec 1 := Scalar.cmpi .eq v5 c0_i32_159
  let v248 : BitVec 32 := Scalar.extui v247
  let c0_i32_160 : BitVec 32 := 0#32
  let v249 : BitVec 1 := Scalar.cmpi .ne v248 c0_i32_160
  v249

def k0_off26 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c384_i32 : BitVec 32 := 384#32
  let v246 : BitVec 32 := Scalar.addi v17 c384_i32
  let v936 : Index := Scalar.indexCast v246
  let c512 : Index := 512#32
  ![v936.toNat, 512]
def k0_cond26 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_161 : BitVec 32 := 1#32
  let v250 : BitVec 1 := Scalar.cmpi .eq v5 c1_i32_161
  let v251 : BitVec 32 := Scalar.extui v250
  let c0_i32_162 : BitVec 32 := 0#32
  let v252 : BitVec 1 := Scalar.cmpi .ne v251 c0_i32_162
  v252

def k0_off27 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c384_i32 : BitVec 32 := 384#32
  let v246 : BitVec 32 := Scalar.addi v17 c384_i32
  let v936 : Index := Scalar.indexCast v246
  let c0 : Index := 0#32
  ![v936.toNat, 0]
def k0_dev15 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v255 : BitVec 32 := Scalar.muli v2 c2_i32_165
  let v256 : BitVec 32 := Scalar.addi c0_i32_166 v255
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_167 : BitVec 32 := 1#32
  let v257 : BitVec 32 := Scalar.muli v6 c1_i32_167
  let v258 : BitVec 32 := Scalar.addi v256 v257
  v258.toNat
def k0_cond27 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_171 : BitVec 32 := 0#32
  let v266 : BitVec 1 := Scalar.cmpi .eq v5 c0_i32_171
  let v267 : BitVec 32 := Scalar.extui v266
  let c0_i32_172 : BitVec 32 := 0#32
  let v268 : BitVec 1 := Scalar.cmpi .ne v267 c0_i32_172
  v268

def k0_off28 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c416_i32 : BitVec 32 := 416#32
  let v265 : BitVec 32 := Scalar.addi v17 c416_i32
  let v936 : Index := Scalar.indexCast v265
  let c512 : Index := 512#32
  ![v936.toNat, 512]
def k0_cond28 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v269 : BitVec 1 := Scalar.cmpi .eq v5 c1_i32_173
  let v270 : BitVec 32 := Scalar.extui v269
  let c0_i32_174 : BitVec 32 := 0#32
  let v271 : BitVec 1 := Scalar.cmpi .ne v270 c0_i32_174
  v271

def k0_off29 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c416_i32 : BitVec 32 := 416#32
  let v265 : BitVec 32 := Scalar.addi v17 c416_i32
  let v936 : Index := Scalar.indexCast v265
  let c0 : Index := 0#32
  ![v936.toNat, 0]
def k0_dev16 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v274 : BitVec 32 := Scalar.muli v2 c2_i32_177
  let v275 : BitVec 32 := Scalar.addi c0_i32_178 v274
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_179 : BitVec 32 := 1#32
  let v276 : BitVec 32 := Scalar.muli v6 c1_i32_179
  let v277 : BitVec 32 := Scalar.addi v275 v276
  v277.toNat
def k0_cond29 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_183 : BitVec 32 := 0#32
  let v285 : BitVec 1 := Scalar.cmpi .eq v5 c0_i32_183
  let v286 : BitVec 32 := Scalar.extui v285
  let c0_i32_184 : BitVec 32 := 0#32
  let v287 : BitVec 1 := Scalar.cmpi .ne v286 c0_i32_184
  v287

def k0_off30 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c448_i32 : BitVec 32 := 448#32
  let v284 : BitVec 32 := Scalar.addi v17 c448_i32
  let v936 : Index := Scalar.indexCast v284
  let c512 : Index := 512#32
  ![v936.toNat, 512]
def k0_cond30 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_185 : BitVec 32 := 1#32
  let v288 : BitVec 1 := Scalar.cmpi .eq v5 c1_i32_185
  let v289 : BitVec 32 := Scalar.extui v288
  let c0_i32_186 : BitVec 32 := 0#32
  let v290 : BitVec 1 := Scalar.cmpi .ne v289 c0_i32_186
  v290

def k0_off31 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c448_i32 : BitVec 32 := 448#32
  let v284 : BitVec 32 := Scalar.addi v17 c448_i32
  let v936 : Index := Scalar.indexCast v284
  let c0 : Index := 0#32
  ![v936.toNat, 0]
def k0_dev17 (d0 : Dev nD) : Nat :=
  let c0_i32_190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_189 : BitVec 32 := 2#32
  let v293 : BitVec 32 := Scalar.muli v2 c2_i32_189
  let v294 : BitVec 32 := Scalar.addi c0_i32_190 v293
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_191 : BitVec 32 := 1#32
  let v295 : BitVec 32 := Scalar.muli v6 c1_i32_191
  let v296 : BitVec 32 := Scalar.addi v294 v295
  v296.toNat
def k0_cond31 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_195 : BitVec 32 := 0#32
  let v304 : BitVec 1 := Scalar.cmpi .eq v5 c0_i32_195
  let v305 : BitVec 32 := Scalar.extui v304
  let c0_i32_196 : BitVec 32 := 0#32
  let v306 : BitVec 1 := Scalar.cmpi .ne v305 c0_i32_196
  v306

def k0_off32 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c480_i32 : BitVec 32 := 480#32
  let v303 : BitVec 32 := Scalar.addi v17 c480_i32
  let v936 : Index := Scalar.indexCast v303
  let c512 : Index := 512#32
  ![v936.toNat, 512]
def k0_cond32 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_197 : BitVec 32 := 1#32
  let v307 : BitVec 1 := Scalar.cmpi .eq v5 c1_i32_197
  let v308 : BitVec 32 := Scalar.extui v307
  let c0_i32_198 : BitVec 32 := 0#32
  let v309 : BitVec 1 := Scalar.cmpi .ne v308 c0_i32_198
  v309

def k0_off33 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let c480_i32 : BitVec 32 := 480#32
  let v303 : BitVec 32 := Scalar.addi v17 c480_i32
  let v936 : Index := Scalar.indexCast v303
  let c0 : Index := 0#32
  ![v936.toNat, 0]
def k0_dev18 (d0 : Dev nD) : Nat :=
  let c0_i32_202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_201 : BitVec 32 := 2#32
  let v312 : BitVec 32 := Scalar.muli v2 c2_i32_201
  let v313 : BitVec 32 := Scalar.addi c0_i32_202 v312
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_203 : BitVec 32 := 1#32
  let v314 : BitVec 32 := Scalar.muli v6 c1_i32_203
  let v315 : BitVec 32 := Scalar.addi v313 v314
  v315.toNat
def k0_off34 (d0 : Dev nD) (c0_i32_221 : BitVec 32) : Fin 2 → Nat :=
  let c1_i32_219 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v336 : BitVec 32 := Scalar.subi c1_i32_219 v5
  let c1024_i32_220 : BitVec 32 := 1024#32
  let v337 : BitVec 32 := Scalar.muli v336 c1024_i32_220
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v17 : BitVec 32 := Scalar.muli v2 c512_i32
  let v338 : BitVec 32 := Scalar.addi v337 v17
  let v339 : BitVec 32 := Scalar.addi v338 c0_i32_221
  let c0_i32_227 : BitVec 32 := 0#32
  ![v339.toNat, 0]
def k0_dev19 (d0 : Dev nD) : Nat :=
  let c0_i32_225 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_224 : BitVec 32 := 2#32
  let v340 : BitVec 32 := Scalar.muli v7 c2_i32_224
  let v341 : BitVec 32 := Scalar.addi c0_i32_225 v340
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_226 : BitVec 32 := 1#32
  let v342 : BitVec 32 := Scalar.muli v5 c1_i32_226
  let v343 : BitVec 32 := Scalar.addi v341 v342
  v343.toNat
def k0_dev20 (d0 : Dev nD) : Nat :=
  let c0_i32_243 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_242 : BitVec 32 := 2#32
  let v362 : BitVec 32 := Scalar.muli v7 c2_i32_242
  let v363 : BitVec 32 := Scalar.addi c0_i32_243 v362
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v364 : BitVec 32 := Scalar.muli v5 c1_i32_244
  let v365 : BitVec 32 := Scalar.addi v363 v364
  v365.toNat
def k0_dev21 (d0 : Dev nD) : Nat :=
  let c0_i32_261 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_260 : BitVec 32 := 2#32
  let v384 : BitVec 32 := Scalar.muli v7 c2_i32_260
  let v385 : BitVec 32 := Scalar.addi c0_i32_261 v384
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_262 : BitVec 32 := 1#32
  let v386 : BitVec 32 := Scalar.muli v5 c1_i32_262
  let v387 : BitVec 32 := Scalar.addi v385 v386
  v387.toNat
def k0_dev22 (d0 : Dev nD) : Nat :=
  let c0_i32_279 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_278 : BitVec 32 := 2#32
  let v406 : BitVec 32 := Scalar.muli v7 c2_i32_278
  let v407 : BitVec 32 := Scalar.addi c0_i32_279 v406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_280 : BitVec 32 := 1#32
  let v408 : BitVec 32 := Scalar.muli v5 c1_i32_280
  let v409 : BitVec 32 := Scalar.addi v407 v408
  v409.toNat
def k0_dev23 (d0 : Dev nD) : Nat :=
  let c0_i32_297 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_296 : BitVec 32 := 2#32
  let v428 : BitVec 32 := Scalar.muli v7 c2_i32_296
  let v429 : BitVec 32 := Scalar.addi c0_i32_297 v428
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v430 : BitVec 32 := Scalar.muli v5 c1_i32_298
  let v431 : BitVec 32 := Scalar.addi v429 v430
  v431.toNat
def k0_dev24 (d0 : Dev nD) : Nat :=
  let c0_i32_315 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_314 : BitVec 32 := 2#32
  let v450 : BitVec 32 := Scalar.muli v7 c2_i32_314
  let v451 : BitVec 32 := Scalar.addi c0_i32_315 v450
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_316 : BitVec 32 := 1#32
  let v452 : BitVec 32 := Scalar.muli v5 c1_i32_316
  let v453 : BitVec 32 := Scalar.addi v451 v452
  v453.toNat
def k0_dev25 (d0 : Dev nD) : Nat :=
  let c0_i32_333 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_332 : BitVec 32 := 2#32
  let v472 : BitVec 32 := Scalar.muli v7 c2_i32_332
  let v473 : BitVec 32 := Scalar.addi c0_i32_333 v472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_334 : BitVec 32 := 1#32
  let v474 : BitVec 32 := Scalar.muli v5 c1_i32_334
  let v475 : BitVec 32 := Scalar.addi v473 v474
  v475.toNat
def k0_dev26 (d0 : Dev nD) : Nat :=
  let c0_i32_351 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_350 : BitVec 32 := 2#32
  let v494 : BitVec 32 := Scalar.muli v7 c2_i32_350
  let v495 : BitVec 32 := Scalar.addi c0_i32_351 v494
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_352 : BitVec 32 := 1#32
  let v496 : BitVec 32 := Scalar.muli v5 c1_i32_352
  let v497 : BitVec 32 := Scalar.addi v495 v496
  v497.toNat
def k0_dev27 (d0 : Dev nD) : Nat :=
  let c0_i32_369 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_368 : BitVec 32 := 2#32
  let v516 : BitVec 32 := Scalar.muli v7 c2_i32_368
  let v517 : BitVec 32 := Scalar.addi c0_i32_369 v516
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_370 : BitVec 32 := 1#32
  let v518 : BitVec 32 := Scalar.muli v5 c1_i32_370
  let v519 : BitVec 32 := Scalar.addi v517 v518
  v519.toNat
def k0_dev28 (d0 : Dev nD) : Nat :=
  let c0_i32_387 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_386 : BitVec 32 := 2#32
  let v538 : BitVec 32 := Scalar.muli v7 c2_i32_386
  let v539 : BitVec 32 := Scalar.addi c0_i32_387 v538
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_388 : BitVec 32 := 1#32
  let v540 : BitVec 32 := Scalar.muli v5 c1_i32_388
  let v541 : BitVec 32 := Scalar.addi v539 v540
  v541.toNat
def k0_dev29 (d0 : Dev nD) : Nat :=
  let c0_i32_405 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_404 : BitVec 32 := 2#32
  let v560 : BitVec 32 := Scalar.muli v7 c2_i32_404
  let v561 : BitVec 32 := Scalar.addi c0_i32_405 v560
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_406 : BitVec 32 := 1#32
  let v562 : BitVec 32 := Scalar.muli v5 c1_i32_406
  let v563 : BitVec 32 := Scalar.addi v561 v562
  v563.toNat
def k0_dev30 (d0 : Dev nD) : Nat :=
  let c0_i32_423 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_422 : BitVec 32 := 2#32
  let v582 : BitVec 32 := Scalar.muli v7 c2_i32_422
  let v583 : BitVec 32 := Scalar.addi c0_i32_423 v582
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_424 : BitVec 32 := 1#32
  let v584 : BitVec 32 := Scalar.muli v5 c1_i32_424
  let v585 : BitVec 32 := Scalar.addi v583 v584
  v585.toNat
def k0_dev31 (d0 : Dev nD) : Nat :=
  let c0_i32_441 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_440 : BitVec 32 := 2#32
  let v604 : BitVec 32 := Scalar.muli v7 c2_i32_440
  let v605 : BitVec 32 := Scalar.addi c0_i32_441 v604
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_442 : BitVec 32 := 1#32
  let v606 : BitVec 32 := Scalar.muli v5 c1_i32_442
  let v607 : BitVec 32 := Scalar.addi v605 v606
  v607.toNat
def k0_dev32 (d0 : Dev nD) : Nat :=
  let c0_i32_459 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_458 : BitVec 32 := 2#32
  let v626 : BitVec 32 := Scalar.muli v7 c2_i32_458
  let v627 : BitVec 32 := Scalar.addi c0_i32_459 v626
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_460 : BitVec 32 := 1#32
  let v628 : BitVec 32 := Scalar.muli v5 c1_i32_460
  let v629 : BitVec 32 := Scalar.addi v627 v628
  v629.toNat
def k0_dev33 (d0 : Dev nD) : Nat :=
  let c0_i32_477 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_476 : BitVec 32 := 2#32
  let v648 : BitVec 32 := Scalar.muli v7 c2_i32_476
  let v649 : BitVec 32 := Scalar.addi c0_i32_477 v648
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_478 : BitVec 32 := 1#32
  let v650 : BitVec 32 := Scalar.muli v5 c1_i32_478
  let v651 : BitVec 32 := Scalar.addi v649 v650
  v651.toNat
def k0_dev34 (d0 : Dev nD) : Nat :=
  let c0_i32_495 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_494 : BitVec 32 := 2#32
  let v670 : BitVec 32 := Scalar.muli v7 c2_i32_494
  let v671 : BitVec 32 := Scalar.addi c0_i32_495 v670
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_496 : BitVec 32 := 1#32
  let v672 : BitVec 32 := Scalar.muli v5 c1_i32_496
  let v673 : BitVec 32 := Scalar.addi v671 v672
  v673.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S32x512 : 0 < S32x512.numel
  shapeCasts_S32x512_S32x512 : S32x512.ShapeCasts S32x512
  bitsLt_bf16_f32 : FTy.bits .bf16 < FTy.bits .f32
  inb_S512x512_S32x512_0_0 : ∀ a, (![0, 0] : Fin 2 → Nat) a + S32x512.size a ≤ S512x512.size a
  packedbf16_S512x512_S32x512_0_0 : (Rect.unit (s := S512x512) ![0, 0] S32x512.size inb_S512x512_S32x512_0_0).PackedRows (EltTy.packing .bf16)
  inb_S16_S1_0 : ∀ a, (![0] : Fin 1 → Nat) a + S1.size a ≤ S16.size a
  squeezes_S1_S_ : S1.Squeezes S_
  wordsbf16_S512x512_S32x512_0_0 : (Rect.unit (s := S512x512) ![0, 0] S32x512.size inb_S512x512_S32x512_0_0).WholeWords (EltTy.packing .bf16)
  inb_S512x512_S32x512_32_0 : ∀ a, (![32, 0] : Fin 2 → Nat) a + S32x512.size a ≤ S512x512.size a
  packedbf16_S512x512_S32x512_32_0 : (Rect.unit (s := S512x512) ![32, 0] S32x512.size inb_S512x512_S32x512_32_0).PackedRows (EltTy.packing .bf16)
  inb_S16_S1_1 : ∀ a, (![1] : Fin 1 → Nat) a + S1.size a ≤ S16.size a
  wordsbf16_S512x512_S32x512_32_0 : (Rect.unit (s := S512x512) ![32, 0] S32x512.size inb_S512x512_S32x512_32_0).WholeWords (EltTy.packing .bf16)
  inb_S512x512_S32x512_64_0 : ∀ a, (![64, 0] : Fin 2 → Nat) a + S32x512.size a ≤ S512x512.size a
  packedbf16_S512x512_S32x512_64_0 : (Rect.unit (s := S512x512) ![64, 0] S32x512.size inb_S512x512_S32x512_64_0).PackedRows (EltTy.packing .bf16)
  inb_S16_S1_2 : ∀ a, (![2] : Fin 1 → Nat) a + S1.size a ≤ S16.size a
  wordsbf16_S512x512_S32x512_64_0 : (Rect.unit (s := S512x512) ![64, 0] S32x512.size inb_S512x512_S32x512_64_0).WholeWords (EltTy.packing .bf16)
  inb_S512x512_S32x512_96_0 : ∀ a, (![96, 0] : Fin 2 → Nat) a + S32x512.size a ≤ S512x512.size a
  packedbf16_S512x512_S32x512_96_0 : (Rect.unit (s := S512x512) ![96, 0] S32x512.size inb_S512x512_S32x512_96_0).PackedRows (EltTy.packing .bf16)
  inb_S16_S1_3 : ∀ a, (![3] : Fin 1 → Nat) a + S1.size a ≤ S16.size a
  wordsbf16_S512x512_S32x512_96_0 : (Rect.unit (s := S512x512) ![96, 0] S32x512.size inb_S512x512_S32x512_96_0).WholeWords (EltTy.packing .bf16)
  inb_S512x512_S32x512_128_0 : ∀ a, (![128, 0] : Fin 2 → Nat) a + S32x512.size a ≤ S512x512.size a
  packedbf16_S512x512_S32x512_128_0 : (Rect.unit (s := S512x512) ![128, 0] S32x512.size inb_S512x512_S32x512_128_0).PackedRows (EltTy.packing .bf16)
  inb_S16_S1_4 : ∀ a, (![4] : Fin 1 → Nat) a + S1.size a ≤ S16.size a
  wordsbf16_S512x512_S32x512_128_0 : (Rect.unit (s := S512x512) ![128, 0] S32x512.size inb_S512x512_S32x512_128_0).WholeWords (EltTy.packing .bf16)
  inb_S512x512_S32x512_160_0 : ∀ a, (![160, 0] : Fin 2 → Nat) a + S32x512.size a ≤ S512x512.size a
  packedbf16_S512x512_S32x512_160_0 : (Rect.unit (s := S512x512) ![160, 0] S32x512.size inb_S512x512_S32x512_160_0).PackedRows (EltTy.packing .bf16)
  inb_S16_S1_5 : ∀ a, (![5] : Fin 1 → Nat) a + S1.size a ≤ S16.size a
  wordsbf16_S512x512_S32x512_160_0 : (Rect.unit (s := S512x512) ![160, 0] S32x512.size inb_S512x512_S32x512_160_0).WholeWords (EltTy.packing .bf16)
  inb_S512x512_S32x512_192_0 : ∀ a, (![192, 0] : Fin 2 → Nat) a + S32x512.size a ≤ S512x512.size a
  packedbf16_S512x512_S32x512_192_0 : (Rect.unit (s := S512x512) ![192, 0] S32x512.size inb_S512x512_S32x512_192_0).PackedRows (EltTy.packing .bf16)
  inb_S16_S1_6 : ∀ a, (![6] : Fin 1 → Nat) a + S1.size a ≤ S16.size a
  wordsbf16_S512x512_S32x512_192_0 : (Rect.unit (s := S512x512) ![192, 0] S32x512.size inb_S512x512_S32x512_192_0).WholeWords (EltTy.packing .bf16)
  inb_S512x512_S32x512_224_0 : ∀ a, (![224, 0] : Fin 2 → Nat) a + S32x512.size a ≤ S512x512.size a
  packedbf16_S512x512_S32x512_224_0 : (Rect.unit (s := S512x512) ![224, 0] S32x512.size inb_S512x512_S32x512_224_0).PackedRows (EltTy.packing .bf16)
  inb_S16_S1_7 : ∀ a, (![7] : Fin 1 → Nat) a + S1.size a ≤ S16.size a
  wordsbf16_S512x512_S32x512_224_0 : (Rect.unit (s := S512x512) ![224, 0] S32x512.size inb_S512x512_S32x512_224_0).WholeWords (EltTy.packing .bf16)
  inb_S512x512_S32x512_256_0 : ∀ a, (![256, 0] : Fin 2 → Nat) a + S32x512.size a ≤ S512x512.size a
  packedbf16_S512x512_S32x512_256_0 : (Rect.unit (s := S512x512) ![256, 0] S32x512.size inb_S512x512_S32x512_256_0).PackedRows (EltTy.packing .bf16)
  inb_S16_S1_8 : ∀ a, (![8] : Fin 1 → Nat) a + S1.size a ≤ S16.size a
  wordsbf16_S512x512_S32x512_256_0 : (Rect.unit (s := S512x512) ![256, 0] S32x512.size inb_S512x512_S32x512_256_0).WholeWords (EltTy.packing .bf16)
  inb_S512x512_S32x512_288_0 : ∀ a, (![288, 0] : Fin 2 → Nat) a + S32x512.size a ≤ S512x512.size a
  packedbf16_S512x512_S32x512_288_0 : (Rect.unit (s := S512x512) ![288, 0] S32x512.size inb_S512x512_S32x512_288_0).PackedRows (EltTy.packing .bf16)
  inb_S16_S1_9 : ∀ a, (![9] : Fin 1 → Nat) a + S1.size a ≤ S16.size a
  wordsbf16_S512x512_S32x512_288_0 : (Rect.unit (s := S512x512) ![288, 0] S32x512.size inb_S512x512_S32x512_288_0).WholeWords (EltTy.packing .bf16)
  inb_S512x512_S32x512_320_0 : ∀ a, (![320, 0] : Fin 2 → Nat) a + S32x512.size a ≤ S512x512.size a
  packedbf16_S512x512_S32x512_320_0 : (Rect.unit (s := S512x512) ![320, 0] S32x512.size inb_S512x512_S32x512_320_0).PackedRows (EltTy.packing .bf16)
  inb_S16_S1_10 : ∀ a, (![10] : Fin 1 → Nat) a + S1.size a ≤ S16.size a
  wordsbf16_S512x512_S32x512_320_0 : (Rect.unit (s := S512x512) ![320, 0] S32x512.size inb_S512x512_S32x512_320_0).WholeWords (EltTy.packing .bf16)
  inb_S512x512_S32x512_352_0 : ∀ a, (![352, 0] : Fin 2 → Nat) a + S32x512.size a ≤ S512x512.size a
  packedbf16_S512x512_S32x512_352_0 : (Rect.unit (s := S512x512) ![352, 0] S32x512.size inb_S512x512_S32x512_352_0).PackedRows (EltTy.packing .bf16)
  inb_S16_S1_11 : ∀ a, (![11] : Fin 1 → Nat) a + S1.size a ≤ S16.size a
  wordsbf16_S512x512_S32x512_352_0 : (Rect.unit (s := S512x512) ![352, 0] S32x512.size inb_S512x512_S32x512_352_0).WholeWords (EltTy.packing .bf16)
  inb_S512x512_S32x512_384_0 : ∀ a, (![384, 0] : Fin 2 → Nat) a + S32x512.size a ≤ S512x512.size a
  packedbf16_S512x512_S32x512_384_0 : (Rect.unit (s := S512x512) ![384, 0] S32x512.size inb_S512x512_S32x512_384_0).PackedRows (EltTy.packing .bf16)
  inb_S16_S1_12 : ∀ a, (![12] : Fin 1 → Nat) a + S1.size a ≤ S16.size a
  wordsbf16_S512x512_S32x512_384_0 : (Rect.unit (s := S512x512) ![384, 0] S32x512.size inb_S512x512_S32x512_384_0).WholeWords (EltTy.packing .bf16)
  inb_S512x512_S32x512_416_0 : ∀ a, (![416, 0] : Fin 2 → Nat) a + S32x512.size a ≤ S512x512.size a
  packedbf16_S512x512_S32x512_416_0 : (Rect.unit (s := S512x512) ![416, 0] S32x512.size inb_S512x512_S32x512_416_0).PackedRows (EltTy.packing .bf16)
  inb_S16_S1_13 : ∀ a, (![13] : Fin 1 → Nat) a + S1.size a ≤ S16.size a
  wordsbf16_S512x512_S32x512_416_0 : (Rect.unit (s := S512x512) ![416, 0] S32x512.size inb_S512x512_S32x512_416_0).WholeWords (EltTy.packing .bf16)
  inb_S512x512_S32x512_448_0 : ∀ a, (![448, 0] : Fin 2 → Nat) a + S32x512.size a ≤ S512x512.size a
  packedbf16_S512x512_S32x512_448_0 : (Rect.unit (s := S512x512) ![448, 0] S32x512.size inb_S512x512_S32x512_448_0).PackedRows (EltTy.packing .bf16)
  inb_S16_S1_14 : ∀ a, (![14] : Fin 1 → Nat) a + S1.size a ≤ S16.size a
  wordsbf16_S512x512_S32x512_448_0 : (Rect.unit (s := S512x512) ![448, 0] S32x512.size inb_S512x512_S32x512_448_0).WholeWords (EltTy.packing .bf16)
  inb_S512x512_S32x512_480_0 : ∀ a, (![480, 0] : Fin 2 → Nat) a + S32x512.size a ≤ S512x512.size a
  packedbf16_S512x512_S32x512_480_0 : (Rect.unit (s := S512x512) ![480, 0] S32x512.size inb_S512x512_S32x512_480_0).PackedRows (EltTy.packing .bf16)
  inb_S16_S1_15 : ∀ a, (![15] : Fin 1 → Nat) a + S1.size a ≤ S16.size a
  wordsbf16_S512x512_S32x512_480_0 : (Rect.unit (s := S512x512) ![480, 0] S32x512.size inb_S512x512_S32x512_480_0).WholeWords (EltTy.packing .bf16)
  inb_S1024x1024_S1024x512_0_0 : ∀ a, (![0, 0] : Fin 2 → Nat) a + S1024x512.size a ≤ S1024x1024.size a
  h_S1024x512 : 0 < S1024x512.numel
  shapeCasts_S1024x512_S1024x512 : S1024x512.ShapeCasts S1024x512
  inb_S2048x512_S1024x512_0_0 : ∀ a, (![0, 0] : Fin 2 → Nat) a + S1024x512.size a ≤ S2048x512.size a
  packedbf16_S2048x512_S1024x512_0_0 : (Rect.unit (s := S2048x512) ![0, 0] S1024x512.size inb_S2048x512_S1024x512_0_0).PackedRows (EltTy.packing .bf16)
  inb_S1024x1024_S1024x512_0_512 : ∀ a, (![0, 512] : Fin 2 → Nat) a + S1024x512.size a ≤ S1024x1024.size a
  inb_S2048x512_S1024x512_1024_0 : ∀ a, (![1024, 0] : Fin 2 → Nat) a + S1024x512.size a ≤ S2048x512.size a
  packedbf16_S2048x512_S1024x512_1024_0 : (Rect.unit (s := S2048x512) ![1024, 0] S1024x512.size inb_S2048x512_S1024x512_1024_0).PackedRows (EltTy.packing .bf16)
  hcc0_scratch1 : 2 + S16.numel ≤ 66
  hcc0_scratch2 : 18 + S16.numel ≤ 66
  hcc0_scratch3 : 34 + S16.numel ≤ 66
  hcc0_scratch4 : 50 + S16.numel ≤ 66
  k0_dev1_lt : ∀ d0 : Dev nD, (k0_dev1 d0) < nD
  k0_dev2_lt : ∀ d0 : Dev nD, (k0_dev2 d0) < nD
  k0_off1_inb : ∀ d0 : Dev nD, ∀ (k0_h1 : k0_cond1 d0 = 1#1), ∀ a, (k0_off1 d0) a + S32x512.size a ≤ S1024x1024.size a
  k0_off2_inb : ∀ d0 : Dev nD, ∀ (k0_h2 : k0_cond2 d0 = 1#1), ∀ a, (k0_off2 d0) a + S32x512.size a ≤ S1024x1024.size a
  k0_off3_inb : ∀ d0 : Dev nD, ∀ (r : Fin 16), ∀ a, (k0_off3 d0 (BitVec.ofNat 32 (32 * r.val))) a + S32x512.size a ≤ S2048x512.size a
  k0_off3_wordsbf16 : ∀ d0 : Dev nD, ∀ (r : Fin 16), (Rect.unit (s := S2048x512) (k0_off3 d0 (BitVec.ofNat 32 (32 * r.val))) S32x512.size (k0_off3_inb d0 r)).WholeWords (EltTy.packing .bf16)
  k0_dev3_lt : ∀ d0 : Dev nD, (k0_dev3 d0) < nD
  k0_off4_inb : ∀ d0 : Dev nD, ∀ (k0_h3 : k0_cond3 d0 = 1#1), ∀ a, (k0_off4 d0) a + S32x512.size a ≤ S1024x1024.size a
  k0_off5_inb : ∀ d0 : Dev nD, ∀ (k0_h4 : k0_cond4 d0 = 1#1), ∀ a, (k0_off5 d0) a + S32x512.size a ≤ S1024x1024.size a
  k0_dev4_lt : ∀ d0 : Dev nD, (k0_dev4 d0) < nD
  k0_off6_inb : ∀ d0 : Dev nD, ∀ (k0_h5 : k0_cond5 d0 = 1#1), ∀ a, (k0_off6 d0) a + S32x512.size a ≤ S1024x1024.size a
  k0_off7_inb : ∀ d0 : Dev nD, ∀ (k0_h6 : k0_cond6 d0 = 1#1), ∀ a, (k0_off7 d0) a + S32x512.size a ≤ S1024x1024.size a
  k0_dev5_lt : ∀ d0 : Dev nD, (k0_dev5 d0) < nD
  k0_off8_inb : ∀ d0 : Dev nD, ∀ (k0_h7 : k0_cond7 d0 = 1#1), ∀ a, (k0_off8 d0) a + S32x512.size a ≤ S1024x1024.size a
  k0_off9_inb : ∀ d0 : Dev nD, ∀ (k0_h8 : k0_cond8 d0 = 1#1), ∀ a, (k0_off9 d0) a + S32x512.size a ≤ S1024x1024.size a
  k0_dev6_lt : ∀ d0 : Dev nD, (k0_dev6 d0) < nD
  k0_off10_inb : ∀ d0 : Dev nD, ∀ (k0_h9 : k0_cond9 d0 = 1#1), ∀ a, (k0_off10 d0) a + S32x512.size a ≤ S1024x1024.size a
  k0_off11_inb : ∀ d0 : Dev nD, ∀ (k0_h10 : k0_cond10 d0 = 1#1), ∀ a, (k0_off11 d0) a + S32x512.size a ≤ S1024x1024.size a
  k0_dev7_lt : ∀ d0 : Dev nD, (k0_dev7 d0) < nD
  k0_off12_inb : ∀ d0 : Dev nD, ∀ (k0_h11 : k0_cond11 d0 = 1#1), ∀ a, (k0_off12 d0) a + S32x512.size a ≤ S1024x1024.size a
  k0_off13_inb : ∀ d0 : Dev nD, ∀ (k0_h12 : k0_cond12 d0 = 1#1), ∀ a, (k0_off13 d0) a + S32x512.size a ≤ S1024x1024.size a
  k0_dev8_lt : ∀ d0 : Dev nD, (k0_dev8 d0) < nD
  k0_off14_inb : ∀ d0 : Dev nD, ∀ (k0_h13 : k0_cond13 d0 = 1#1), ∀ a, (k0_off14 d0) a + S32x512.size a ≤ S1024x1024.size a
  k0_off15_inb : ∀ d0 : Dev nD, ∀ (k0_h14 : k0_cond14 d0 = 1#1), ∀ a, (k0_off15 d0) a + S32x512.size a ≤ S1024x1024.size a
  k0_dev9_lt : ∀ d0 : Dev nD, (k0_dev9 d0) < nD
  k0_off16_inb : ∀ d0 : Dev nD, ∀ (k0_h15 : k0_cond15 d0 = 1#1), ∀ a, (k0_off16 d0) a + S32x512.size a ≤ S1024x1024.size a
  k0_off17_inb : ∀ d0 : Dev nD, ∀ (k0_h16 : k0_cond16 d0 = 1#1), ∀ a, (k0_off17 d0) a + S32x512.size a ≤ S1024x1024.size a
  k0_dev10_lt : ∀ d0 : Dev nD, (k0_dev10 d0) < nD
  k0_off18_inb : ∀ d0 : Dev nD, ∀ (k0_h17 : k0_cond17 d0 = 1#1), ∀ a, (k0_off18 d0) a + S32x512.size a ≤ S1024x1024.size a
  k0_off19_inb : ∀ d0 : Dev nD, ∀ (k0_h18 : k0_cond18 d0 = 1#1), ∀ a, (k0_off19 d0) a + S32x512.size a ≤ S1024x1024.size a
  k0_dev11_lt : ∀ d0 : Dev nD, (k0_dev11 d0) < nD
  k0_off20_inb : ∀ d0 : Dev nD, ∀ (k0_h19 : k0_cond19 d0 = 1#1), ∀ a, (k0_off20 d0) a + S32x512.size a ≤ S1024x1024.size a
  k0_off21_inb : ∀ d0 : Dev nD, ∀ (k0_h20 : k0_cond20 d0 = 1#1), ∀ a, (k0_off21 d0) a + S32x512.size a ≤ S1024x1024.size a
  k0_dev12_lt : ∀ d0 : Dev nD, (k0_dev12 d0) < nD
  k0_off22_inb : ∀ d0 : Dev nD, ∀ (k0_h21 : k0_cond21 d0 = 1#1), ∀ a, (k0_off22 d0) a + S32x512.size a ≤ S1024x1024.size a
  k0_off23_inb : ∀ d0 : Dev nD, ∀ (k0_h22 : k0_cond22 d0 = 1#1), ∀ a, (k0_off23 d0) a + S32x512.size a ≤ S1024x1024.size a
  k0_dev13_lt : ∀ d0 : Dev nD, (k0_dev13 d0) < nD
  k0_off24_inb : ∀ d0 : Dev nD, ∀ (k0_h23 : k0_cond23 d0 = 1#1), ∀ a, (k0_off24 d0) a + S32x512.size a ≤ S1024x1024.size a
  k0_off25_inb : ∀ d0 : Dev nD, ∀ (k0_h24 : k0_cond24 d0 = 1#1), ∀ a, (k0_off25 d0) a + S32x512.size a ≤ S1024x1024.size a
  k0_dev14_lt : ∀ d0 : Dev nD, (k0_dev14 d0) < nD
  k0_off26_inb : ∀ d0 : Dev nD, ∀ (k0_h25 : k0_cond25 d0 = 1#1), ∀ a, (k0_off26 d0) a + S32x512.size a ≤ S1024x1024.size a
  k0_off27_inb : ∀ d0 : Dev nD, ∀ (k0_h26 : k0_cond26 d0 = 1#1), ∀ a, (k0_off27 d0) a + S32x512.size a ≤ S1024x1024.size a
  k0_dev15_lt : ∀ d0 : Dev nD, (k0_dev15 d0) < nD
  k0_off28_inb : ∀ d0 : Dev nD, ∀ (k0_h27 : k0_cond27 d0 = 1#1), ∀ a, (k0_off28 d0) a + S32x512.size a ≤ S1024x1024.size a
  k0_off29_inb : ∀ d0 : Dev nD, ∀ (k0_h28 : k0_cond28 d0 = 1#1), ∀ a, (k0_off29 d0) a + S32x512.size a ≤ S1024x1024.size a
  k0_dev16_lt : ∀ d0 : Dev nD, (k0_dev16 d0) < nD
  k0_off30_inb : ∀ d0 : Dev nD, ∀ (k0_h29 : k0_cond29 d0 = 1#1), ∀ a, (k0_off30 d0) a + S32x512.size a ≤ S1024x1024.size a
  k0_off31_inb : ∀ d0 : Dev nD, ∀ (k0_h30 : k0_cond30 d0 = 1#1), ∀ a, (k0_off31 d0) a + S32x512.size a ≤ S1024x1024.size a
  k0_dev17_lt : ∀ d0 : Dev nD, (k0_dev17 d0) < nD
  k0_off32_inb : ∀ d0 : Dev nD, ∀ (k0_h31 : k0_cond31 d0 = 1#1), ∀ a, (k0_off32 d0) a + S32x512.size a ≤ S1024x1024.size a
  k0_off33_inb : ∀ d0 : Dev nD, ∀ (k0_h32 : k0_cond32 d0 = 1#1), ∀ a, (k0_off33 d0) a + S32x512.size a ≤ S1024x1024.size a
  k0_dev18_lt : ∀ d0 : Dev nD, (k0_dev18 d0) < nD
  k0_off34_inb : ∀ d0 : Dev nD, ∀ (r : Fin 16), ∀ a, (k0_off34 d0 (BitVec.ofNat 32 (32 * r.val))) a + S32x512.size a ≤ S2048x512.size a
  k0_off34_wordsbf16 : ∀ d0 : Dev nD, ∀ (r : Fin 16), (Rect.unit (s := S2048x512) (k0_off34 d0 (BitVec.ofNat 32 (32 * r.val))) S32x512.size (k0_off34_inb d0 r)).WholeWords (EltTy.packing .bf16)
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2
abbrev cc0_scratch3 : DmaSems sig S16 := SemArray.consecutive 34 S16 hcc0_scratch3
abbrev cc0_scratch4 : DmaSems sig S16 := SemArray.consecutive 50 S16 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Kernel.Spec.lean ====
/-
  The data of the exchange, stated once for both float instances.

  Four devices sit on a 2 x 2 mesh; device `c` is at (c / 2, c % 2) = (dx c, dy c).  Device `c` holds the
  row block `dy c` of a 2048 x 1024 array `A` (1024 rows), and must end holding the column block `dy c` of
  `A` (2048 rows, 512 columns), every element cast to the narrow float type.  Writing `X c` for the block device
  `c` starts with, the rows [1024 * dy c, 1024 * dy c + 1024) of the result are `X c`'s own columns; the other
  1024 rows are columns of the block held by the devices with the other `dy`: the half with `(r % 1024) / 512 = dx c`
  arrives straight from `py c` (same dx, other dy), the other half is what `px c` (other dx, same dy) received
  from its own `py` and forwards.
-/
import proofs.«900024_g7700000000000025_dist_a2a_v7x_xy2x2_y_m1024_n512_bf16_1_alg».proof.Proof.Gen.Kernel
import Idealize.ShloMosaic.Lib.ValueIdx

noncomputable section

namespace Cert.Kernel.A2A

open Cert.Kernel Cert.Kernel.Gen
open Idealize.ShloMosaic Idealize.ShloMosaic.TcCoe Idealize.SL.Sem

variable {F : FTy → Type} [FloatOps F]

/-! ## The mesh -/

theorem dev_lt (c : Dev nD) : c.val < 4 := c.isLt

/-- The neighbour along the second mesh axis: same `c / 2`, other `c % 2`. -/
def py (c : Dev nD) : Dev nD := ⟨(2 * (c.val / 2) + 1) - c.val % 2, by have := dev_lt c; show _ < 4; omega⟩
/-- The neighbour along the first mesh axis: other `c / 2`, same `c % 2`. -/
def px (c : Dev nD) : Dev nD := ⟨((c.val % 2) + 2) - 2 * (c.val / 2), by have := dev_lt c; show _ < 4; omega⟩

theorem py_py (c : Dev nD) : py (py c) = c := by revert c; decide
theorem px_px (c : Dev nD) : px (px c) = c := by revert c; decide
theorem px_py (c : Dev nD) : px (py c) = py (px c) := by revert c; decide
theorem py_val (c : Dev nD) : (py c).val = (2 * (c.val / 2) + 1) - c.val % 2 := rfl
theorem px_val (c : Dev nD) : (px c).val = ((c.val % 2) + 2) - 2 * (c.val / 2) := rfl

/-! ## Contents -/

variable (m : (ℓ : Loc nD τ sig) → Buf (Elt F) ℓ)

/-- Device `c`'s block of the argument array, as launched. -/
def X (c : Dev nD) : S1024x1024.Idx → Elt F .f32 := m ((c : Thread nD τ).loc main_arg0)

/-- The cast of one element to the result's float type: what the body's stores apply to what they load. -/
def cast1 (x : Elt F .f32) : Elt F .bf16 := FloatOps.truncf (F := F) (φ := .f32) .bf16 bitsLt_bf16_f32 x

/-- Which device's block row `r` of device `c`'s result comes from. -/
def srcDev (c : Dev nD) (r : Nat) : Dev nD :=
  if r / 1024 = c.val % 2 then c else if (r % 1024) / 512 = c.val / 2 then py c else px (py c)

/-- An index of the 1024 x 1024 block from its two coordinates. -/
def ixX (a b : Nat) (ha : a < 1024) (hb : b < 1024) : S1024x1024.Idx := ValueIdx.ix2 (⟨a, ha⟩ : Fin 1024) (⟨b, hb⟩ : Fin 1024)

/-- Device `c`'s result buffer after the exchange, whole: row `r`, column `j` holds the cast of element
    (r % 1024, 512 * (c % 2) + j) of the block of the device the row comes from. -/
def Gout (c : Dev nD) : S2048x512.Idx → Elt F .bf16 := fun i =>
  cast1 (X m (srcDev c (i 0).val) (ixX ((i 0).val % 1024) (512 * (c.val % 2) + (i 1).val)
    (Nat.mod_lt _ (by decide)) (by have := (i 1).isLt; have : (i 1).val < 512 := this; omega)))

/-- What device `c` stages for its neighbour `py c`: rows [512 * (c / 2), + 512) of its block, the columns of the
    OTHER column block, cast. -/
def SB (c : Dev nD) : S512x512.Idx → Elt F .bf16 := fun i =>
  cast1 (X m c (ixX (512 * (c.val / 2) + (i 0).val) (512 * (1 - c.val % 2) + (i 1).val)
    (by have := (i 0).isLt; have : (i 0).val < 512 := this; have := dev_lt c; omega)
    (by have := (i 1).isLt; have : (i 1).val < 512 := this; omega)))

end Cert.Kernel.A2A

end
-- ==== Proof.Kernel.Proto.lean ====
/-
  The protocol of the exchange under the rounds discipline, stated once for both float instances.

  Every device `c` has one cell on the runtime's barrier semaphore and 64 cells on its own DMA semaphores, four
  classes of sixteen (one per 32-row chunk `k`):
    class 0, "staged chunk read": paid by `c`'s own transfer of chunk `k` to `py c`; gives back the chunk of the
             staging buffer;
    class 1, "chunk landed from py": paid by `py c`'s transfer of chunk `k`; gives `c` the 32 rows it landed in,
             holding the result's values there;
    class 2, "forwarded chunk read": paid by `c`'s own forward of those rows to `px c`; gives the rows back;
    class 3, "chunk landed from px": paid by `px c`'s forward of chunk `k`; gives `c` the rows it landed in.
  The barrier cell has one round of two unit duties: `false`, paid by `py c`, hands `c` the sixteen 32-row pieces
  of `py c`'s result buffer that `c`'s transfers write; `true`, paid by `px c`, the sixteen pieces of `px c`'s
  result buffer that `c`'s forwards write.  Every piece of a result buffer is held at ONE whole-buffer function,
  `Gout`, restricted to the piece, so that the pieces join back without any case analysis.
-/
import proofs.«900024_g7700000000000025_dist_a2a_v7x_xy2x2_y_m1024_n512_bf16_1_alg».proof.Proof.Kernel.Spec
import proofs.«900024_g7700000000000025_dist_a2a_v7x_xy2x2_y_m1024_n512_bf16_1_alg».proof.Proof.Gen.Kernel.Skeleton
import proofs.«900024_g7700000000000025_dist_a2a_v7x_xy2x2_y_m1024_n512_bf16_1_alg».proof.Proof.Gen.Kernel.Launch
import proofs.«900024_g7700000000000025_dist_a2a_v7x_xy2x2_y_m1024_n512_bf16_1_alg».proof.Proof.Gen.Kernel.Points
import Idealize.ShloMosaic.Lib.Pipeline.Launch
import Idealize.ShloMosaic.Lib.Pipeline.Kit
import Idealize.ShloMosaic.Lib.Ring
import Idealize.ShloMosaic.Lib.Tactic

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs -/

abbrev xM : Memref sig .tc .vmem S1024x1024 .f32 := Memref.whole cc0_stg0_0
abbrev oM : Memref sig .tc .vmem S2048x512 .bf16 := Memref.whole cc0_stg1_0
abbrev sM : Memref sig .tc .vmem S512x512 .bf16 := Memref.whole cc0_scratch0

/-- The word the body adds for chunk `k`: `32 k`. -/
abbrev cw (k : Fin 16) : BitVec 32 := BitVec.ofNat 32 (32 * k.val)

theorem sb_inb (k : Fin 16) : ∀ a, (![32 * k.val, 0] : Fin 2 → Nat) a + S32x512.size a ≤ S512x512.size a := by
  revert k; decide

/-- Chunk `k` of the staging buffer: rows [32 k, 32 k + 32). -/
abbrev sbM (k : Fin 16) : Memref sig .tc .vmem S32x512 .bf16 :=
  sM.slice (Rect.unit (s := S512x512) ![32 * k.val, 0] S32x512.size (sb_inb k)) (fun _ => rfl)
/-- The 32 rows of a result buffer that device `s`'s transfer of chunk `k` writes (on `py s`). -/
abbrev yDst (s : Dev nD) (k : Fin 16) : Memref sig .tc .vmem S32x512 .bf16 :=
  oM.slice (Rect.unit (s := S2048x512) (k0_off3 s (cw k)) S32x512.size (k0_off3_inb s k)) (fun _ => rfl)
/-- The 32 rows of a result buffer that device `s`'s forward of chunk `k` reads (on `s`) and writes (on `px s`). -/
abbrev fwdM (s : Dev nD) (k : Fin 16) : Memref sig .tc .vmem S32x512 .bf16 :=
  oM.slice (Rect.unit (s := S2048x512) (k0_off34 s (cw k)) S32x512.size (k0_off34_inb s k)) (fun _ => rfl)

/-! ## The cells -/

/-- The runtime's barrier semaphore of collective id 0. -/
abbrev barS : Sem sig := (SemArray.scalar (sig.barrier 0 rfl) : Sems sig S_).sem

/-- DMA semaphore of class `j` and chunk `k`: the four scratch arrays are consecutive from index 2. -/
def dsem (j : Fin 4) (k : Fin 16) : DmaSem sig := ⟨2 + 16 * j.val + k.val, by have := j.isLt; have := k.isLt; show _ < 66; omega⟩

abbrev barCell (c : Dev nD) : GSem nD τ sig := ((c : Thread nD τ), .reg barS)
abbrev dCell (c : Dev nD) (j : Fin 4) (k : Fin 16) : GSem nD τ sig := ((c : Thread nD τ), .dma (dsem j k))

/-- Class and chunk of a DMA semaphore of index at least 2. -/
def jOf (s : DmaSem sig) : Fin 4 := ⟨(s.val - 2) / 16 % 4, Nat.mod_lt _ (by decide)⟩
def kOf (s : DmaSem sig) : Fin 16 := ⟨(s.val - 2) % 16, Nat.mod_lt _ (by decide)⟩

theorem jOf_dsem (j : Fin 4) (k : Fin 16) : jOf (dsem j k) = j := by revert j k; decide
theorem kOf_dsem (j : Fin 4) (k : Fin 16) : kOf (dsem j k) = k := by revert j k; decide
theorem two_le_dsem (j : Fin 4) (k : Fin 16) : 2 ≤ (dsem j k).val := by revert j k; decide

/-- The credit of one 32-row chunk. -/
abbrev N : ℕ := (yDst 0 0).view.dmaCredit
theorem N_pos : 0 < N := View.dmaCredit_pos _ (by decide)

/-! ## What the duties hand over -/

/-- What `py o`'s barrier signal hands `o`: the sixteen pieces of `py o`'s result buffer that `o`'s transfers write. -/
def barPayY (o : Dev nD) : sProp 𝕄 :=
  bigSep Finset.univ fun k : Fin 16 => iprop(∃ f, (yDst o k).view.loc (py o : Thread nD τ) ↦[(yDst o k).view.set]{fullShare} f)
/-- What `px o`'s barrier signal hands `o`: the sixteen pieces of `px o`'s result buffer that `o`'s forwards write. -/
def barPayX (o : Dev nD) : sProp 𝕄 :=
  bigSep Finset.univ fun k : Fin 16 => iprop(∃ f, (fwdM o k).view.loc (px o : Thread nD τ) ↦[(fwdM o k).view.set]{fullShare} f)

/-- What the one duty of `o`'s DMA cell of class `j`, chunk `k` hands `o`. -/
def dmaPay (o : Dev nD) (j : Fin 4) (k : Fin 16) : sProp 𝕄 :=
  match j with
  | 0 => (sbM k).view.loc (o : Thread nD τ) ↦[(sbM k).view.set]{fullShare} SB m o
  | 1 => (yDst (py o) k).view.loc (o : Thread nD τ) ↦[(yDst (py o) k).view.set]{fullShare} Gout m o
  | 2 => (fwdM o k).view.loc (o : Thread nD τ) ↦[(fwdM o k).view.set]{fullShare} Gout m o
  | 3 => (fwdM (px o) k).view.loc (o : Thread nD τ) ↦[(fwdM (px o) k).view.set]{fullShare} Gout m o

/-! ## The schedule: one round per cell -/

def sched : Rounds.Schedule (GSem nD τ sig) Bool 𝕄 where
  duties g r :=
    if r = 0 ∧ g.1.2 = .tc then
      (match g.2 with
        | .reg s => if s = barS then Finset.univ else ∅
        | .dma s => if 2 ≤ s.val then {false} else ∅)
    else ∅
  amount g _ _ := match g.2 with | .reg _ => 1 | .dma _ => N
  payload g _ d :=
    match g.2 with
    | .reg _ => if d then barPayX g.1.1 else barPayY g.1.1
    | .dma s => dmaPay m g.1.1 (jOf s) (kOf s)
  amount_pos g _ _ _ := by
    rcases g with ⟨t, (s | s)⟩
    · exact Nat.one_pos
    · exact N_pos

instance sched_payload_storable (g : GSem nD τ sig) (r : ℕ) (d : Bool) :
    BI.Storable (upEmb : UEmb _ 𝕄) ((sched (F := F) m).payload g r d) := by
  rcases g with ⟨t, (s | s)⟩
  · show BI.Storable upEmb (if d then barPayX t.1 else barPayY t.1)
    unfold barPayX barPayY
    split <;> infer_instance
  · show BI.Storable upEmb (dmaPay m t.1 (jOf s) (kOf s))
    unfold dmaPay
    split <;> infer_instance

section Sched
variable (c : Dev nD)

theorem duties_bar : (sched (F := F) m).duties (barCell c) 0 = Finset.univ := by
  dsimp only [sched]; rw [if_pos ⟨rfl, rfl⟩]; exact if_pos rfl
theorem duties_dma (j : Fin 4) (k : Fin 16) : (sched (F := F) m).duties (dCell c j k) 0 = {false} := by
  dsimp only [sched]; rw [if_pos ⟨rfl, rfl⟩]; exact if_pos (two_le_dsem j k)
theorem duties_later (g : GSem nD τ sig) : ∀ r, 1 ≤ r → (sched (F := F) m).duties g r = ∅ :=
  fun r hr => by dsimp only [sched]; rw [if_neg fun h => by omega]

theorem amount_bar (d : Bool) : (sched (F := F) m).amount (barCell c) 0 d = 1 := rfl
theorem amount_dma (j : Fin 4) (k : Fin 16) (d : Bool) : (sched (F := F) m).amount (dCell c j k) 0 d = N := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (j : Fin 4) (k : Fin 16) : (sched (F := F) m).expect (dCell c j k) 0 = N := by
  unfold Schedule.expect Schedule.amountOf; rw [duties_dma, Finset.sum_singleton, amount_dma]

theorem payload_bar_true : (sched (F := F) m).payload (barCell c) 0 true = barPayX c := rfl
theorem payload_bar_false : (sched (F := F) m).payload (barCell c) 0 false = barPayY c := rfl
theorem payload_dma (j : Fin 4) (k : Fin 16) (d : Bool) : (sched (F := F) m).payload (dCell c j k) 0 d = dmaPay m c j k := by
  show dmaPay m c (jOf (dsem j k)) (kOf (dsem j k)) = _
  rw [jOf_dsem, kOf_dsem]

/-- The whole round of the barrier cell: both neighbours' pieces. -/
theorem rest_bar : bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_dma (j : Fin 4) (k : Fin 16) :
    bigSep ((sched (F := F) m).duties (dCell c j k) 0 \ ∅) (fun d => (sched (F := F) m).payload (dCell c j k) 0 d) = dmaPay m c j k := by
  rw [Finset.sdiff_empty, duties_dma, bigSep_singleton, payload_dma]

end Sched

/-! ## What each device owes at launch; the levels -/

/-- The forwards still to be enqueued when `n` of them remain: chunks 16 - n, …, 15, the next one last. -/
def remF (c : Dev nD) : ℕ → CellTallies nD τ sig Unit
  | 0 => 0
  | n + 1 => remF c n + tallyAt (dCell (px c) 3 ⟨(15 - n) % 16, Nat.mod_lt _ (by decide)⟩) () N
/-- All the forwards and the transfers still to be enqueued when `n` transfers remain. -/
def remY (c : Dev nD) : ℕ → CellTallies nD τ sig Unit
  | 0 => remF c 16
  | n + 1 => remY c n + tallyAt (dCell (py c) 1 ⟨(15 - n) % 16, Nat.mod_lt _ (by decide)⟩) () N
/-- After the first signal: everything but the unit owed to `py c`'s barrier cell. -/
def O₁ (c : Dev nD) : CellTallies nD τ sig Unit := remY c 16 + tallyAt (barCell (px c)) () 1
def O₀ (c : Dev nD) : CellTallies nD τ sig Unit := O₁ c + tallyAt (barCell (py c)) () 1

def L (g : GSem nD τ sig) : Finset Unit := if g.1.2 = .tc then {()} else ∅
/-- The pipeline's staging cells at 0, the barrier cells at 1, the cells of the first exchange at 2, of the forward at 3. -/
def lv (g : GSem nD τ sig) (_ : Unit) : ℕ :=
  match g.2 with
  | .reg _ => 1
  | .dma s => if s.val < 2 then 0 else if (s.val - 2) / 16 < 2 then 2 else 3

theorem L_of_ne (g : GSem nD τ sig) (h : g.1.2 ≠ .tc) : L g = ∅ := if_neg h
theorem L_tc (c : Dev nD) (sm : SemLoc sig) : L ((c : Thread nD τ), sm) = {()} := if_pos rfl

/-! ## The cells, indexed flat: 0 the barrier cell, 1 + 16 j + k the DMA cell of class j and chunk k -/

abbrev csem : Fin 65 → SemLoc sig := fun i => if h : i.val = 0 then .reg barS else .dma ⟨i.val + 1, by have := i.isLt; show _ < 66; omega⟩
abbrev kcell (ck : Dev nD × Fin 65) : GSem nD τ sig := ((ck.1 : Thread nD τ), csem ck.2)
def ci (j : Fin 4) (k : Fin 16) : Fin 65 := ⟨1 + 16 * j.val + k.val, by have := j.isLt; have := k.isLt; omega⟩

theorem csem_ci (j : Fin 4) (k : Fin 16) : csem (ci j k) = .dma (dsem j k) := by revert j k; decide
theorem kcell_ci (c : Dev nD) (j : Fin 4) (k : Fin 16) : kcell (c, ci j k) = dCell c j k := by
  show ((c : Thread nD τ), csem (ci j k)) = _; rw [csem_ci]
theorem kcell_zero (c : Dev nD) : kcell (c, 0) = barCell c := rfl

/-! ## The ghost state -/

/-- Every cell's invariant, under the names the launch allocated them at, and round 0 of every cell reached. -/
def records (K : Dev nD × Fin 65 → ℕ) : sProp 𝕄 :=
  iprop((bigSep Finset.univ fun ck : Dev nD × Fin 65 => cellInv ER (sched m) (K ck) (kcell ck))
    ∗ bigSep Finset.univ fun ck : Dev nD × Fin 65 => reached ER (kcell ck) 0)

instance records_persistent (K : Dev nD × Fin 65 → ℕ) : BI.Persistent (records (F := F) m K) := by unfold records; infer_instance

/-- The tokens of the duties device `c` pays: one unit of each neighbour's barrier cell, its sixteen transfers (the
    neighbour's landing cell and its own read cell), its sixteen forwards likewise. -/
def payToks (c : Dev nD) : sProp 𝕄 :=
  iprop(dutyTok ER (barCell (py c)) 0 false ∗ dutyTok ER (barCell (px c)) 0 true
    ∗ (bigSep Finset.univ fun k : Fin 16 => dutyTok ER (dCell (py c) 1 k) 0 false)
    ∗ (bigSep Finset.univ fun k : Fin 16 => dutyTok ER (dCell (px c) 3 k) 0 false)
    ∗ (bigSep Finset.univ fun k : Fin 16 => dutyTok ER (dCell c 0 k) 0 false)
    ∗ (bigSep Finset.univ fun k : Fin 16 => dutyTok ER (dCell c 2 k) 0 false))
/-- Its positions: round 0 of each of its 65 cells, nothing taken. -/
def positions (c : Dev nD) : sProp 𝕄 := bigSep Finset.univ fun i : Fin 65 => atPos ER (kcell (c, i)) 0 ∅ 0
def linear (c : Dev nD) : sProp 𝕄 := iprop(positions c ∗ payToks c)

/-- What the launch's global step makes for device `c`. -/
def G' (c : Dev nD) : sProp 𝕄 := iprop(∃ K, records m K ∗ linear c)

/-- The credit dealt at launch: the barrier's two units, the sixteen landings from each neighbour. -/
def creds (c : Dev nD) : sProp 𝕄 :=
  iprop(cred (tallyAt (barCell c) () 2)
    ∗ (bigSep Finset.univ fun k : Fin 16 => cred (tallyAt (dCell c 1 k) () N))
    ∗ (bigSep Finset.univ fun k : Fin 16 => cred (tallyAt (dCell c 3 k) () N)))

def start (c : Dev nD) : sProp 𝕄 := iprop(G' m c ∗ creds c ∗ levAts L lv)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The argument block as the pipeline stages it. -/
def xstg (c : Dev nD) : (cc0_stg0_0 : Ref sig .tc).ty.Contents (Elt F) :=
  (win0_0.blk (0 : Fin 1)).view.read (Elt F) (m ((c : Thread nD τ).loc main_arg0))

def sPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m c ∗ ∃ f, sPts c f)
/-- After the point: the staging buffer whole at what was staged, the 64 own cells closed at zero. -/
def Φ₁ (c : Dev nD) : sProp 𝕄 :=
  iprop(sPts c (SB m c) ∗ bigSep Finset.univ fun jk : Fin 4 × Fin 16 => semVal (dCell c jk.1 jk.2) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => Gout m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

/-- What the body of device `c` starts from, as the pipeline calls it. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it ends with: the result buffer whole at `Gout`, nothing owed. -/
def bodyPost (c : Dev nD) : sProp 𝕄 :=
  iprop(Φ₁ m c ∗ (dats m 0 c).owesAt () t₀.succ ∗ stg c cc0_stg0_0 (xstg m c) ∗ stg c cc0_stg1_0 (Gout m c))

end Cert.Kernel.A2A

end
-- ==== Proof.Kernel.Cells.lean ====
/-
  Bookkeeping over the 65 cells of a device: the flat index against (class, chunk), and conjunctions over the sixteen
  chunks written out.
-/
import proofs.«900024_g7700000000000025_dist_a2a_v7x_xy2x2_y_m1024_n512_bf16_1_alg».proof.Proof.Kernel.Proto

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- (class, chunk) ↦ the flat index 1 + 16 j + k, injective. -/
def ciEmb : Fin 4 × Fin 16 ↪ Fin 65 := ⟨fun jk => ci jk.1 jk.2, by intro a b; revert a b; decide⟩

theorem univ65 : (Finset.univ : Finset (Fin 65)) = insert 0 (Finset.univ.map ciEmb) := by decide

/-- A conjunction over a device's 65 cells is the barrier cell's conjunct and the 64 DMA cells', by class and chunk. -/
theorem bigSep_cells (Φ : Fin 65 → sProp 𝕄) :
    bigSep Finset.univ Φ = iprop(Φ 0 ∗ bigSep Finset.univ fun jk : Fin 4 × Fin 16 => Φ (ci jk.1 jk.2)) := by
  rw [univ65, bigSep_insert (by decide), bigSep_map]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- A conjunction over (class, chunk), class by class. -/
theorem bigSep_jk (Φ : Fin 4 × Fin 16 → sProp 𝕄) :
    bigSep Finset.univ Φ = iprop((bigSep Finset.univ fun k => Φ (0, k)) ∗ (bigSep Finset.univ fun k => Φ (1, k))
      ∗ (bigSep Finset.univ fun k => Φ (2, k)) ∗ (bigSep Finset.univ fun k => Φ (3, k))) := by
  rw [bigSep_univ_prod, bigSep_fin4]

end Cert.Kernel.A2A

end
-- ==== Proof.Kernel.Regions.lean ====
/-
  The result buffer and the staging buffer cut into the pieces the exchange moves, and what each store and each
  landing leaves in its piece.

  Device `c`'s result buffer (2048 rows) is the disjoint union of: its own 1024 rows [1024 (c % 2), + 1024); the sixteen
  32-row chunks that land from `py c` (the rows `py c`'s transfers write: `yDst (py c) k`); the sixteen that land from
  `px c` (`fwdM (px c) k`).  The chunks that land from `py c` are the ones `c` forwards: `yDst (py c) k = fwdM c k`.
  The staging buffer (512 rows) is the disjoint union of its sixteen 32-row chunks.
-/
import proofs.«900024_g7700000000000025_dist_a2a_v7x_xy2x2_y_m1024_n512_bf16_1_alg».proof.Proof.Kernel.Cells
import Idealize.ShloMosaic.Lib.Pipeline.Value

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pieces -/

theorem own_inb (c : Dev nD) : ∀ a, (![1024 * (c.val % 2), 0] : Fin 2 → Nat) a + S1024x512.size a ≤ S2048x512.size a := by
  revert c; decide
/-- Device `c`'s own half of its result buffer: rows [1024 (c % 2), + 1024). -/
abbrev ownRect (c : Dev nD) : Rect S2048x512 := Rect.unit (s := S2048x512) ![1024 * (c.val % 2), 0] S1024x512.size (own_inb c)
abbrev ownSet (c : Dev nD) : Finset (Idx ((c : Thread nD τ).loc cc0_stg1_0)) := ((oM.access (ownRect c) : View sig .tc _ _ _)).set

/-- The offset of `py c`'s transfer of chunk `k` is the offset of `c`'s forward of chunk `k`:
    both are row 1024 (1 - c % 2) + 512 (c / 2) + 32 k. -/
theorem off_py_eq (c : Dev nD) (k : Fin 16) : k0_off3 (py c) (cw k) = k0_off34 c (cw k) := by
  show k0_off3 (py c) (BitVec.ofNat 32 (32 * k.val)) = k0_off34 c (BitVec.ofNat 32 (32 * k.val))
  rw [k0_off3_eq, k0_off34_eq]
  revert c k; decide

/-- Slices of the result buffer at equal offsets are the same memref. -/
theorem oM_slice_congr (off off' : Fin 2 → Nat) (h : off = off')
    (inb : ∀ a, off a + S32x512.size a ≤ S2048x512.size a) (inb' : ∀ a, off' a + S32x512.size a ≤ S2048x512.size a) :
    (oM.slice (Rect.unit (s := S2048x512) off S32x512.size inb) (fun _ => rfl) : Memref sig .tc .vmem S32x512 .bf16)
      = oM.slice (Rect.unit (s := S2048x512) off' S32x512.size inb') (fun _ => rfl) := by
  subst h; rfl

/-- The rows `py c` writes on `c` are the rows `c` forwards. -/
theorem yDst_py_eq_fwd (c : Dev nD) (k : Fin 16) : yDst (py c) k = fwdM c k :=
  oM_slice_congr _ _ (off_py_eq c k) _ _

/-! ### The pieces as sets of rows

Every piece is whole along the columns, so an element belongs to it exactly when its row lies in the piece's rows. -/

theorem sb_set (k : Fin 16) :
    (sbM k).view.set = (Rect.unit (s := S512x512) ![32 * k.val, 0] S32x512.size (sb_inb k)).set :=
  View.set_slice_whole _ _
theorem own_set (c : Dev nD) : ownSet c = (ownRect c).set := View.set_slice_whole _ _
theorem yDst_set (s : Dev nD) (k : Fin 16) :
    (yDst s k).view.set = (Rect.unit (s := S2048x512) (k0_off3 s (cw k)) S32x512.size (k0_off3_inb s k)).set :=
  View.set_slice_whole _ _
theorem fwd_set (s : Dev nD) (k : Fin 16) :
    (fwdM s k).view.set = (Rect.unit (s := S2048x512) (k0_off34 s (cw k)) S32x512.size (k0_off34_inb s k)).set :=
  View.set_slice_whole _ _

theorem mem_sb (k : Fin 16) (i : S512x512.Idx) :
    i ∈ (sbM k).view.set ↔ 32 * k.val ≤ (i 0).val ∧ (i 0).val < 32 * k.val + 32 := by
  rw [sb_set, Rect.mem_set_unit, Fin.forall_fin_two]
  have h1 : (i 1).val < 512 := (i 1).isLt
  show (32 * k.val ≤ (i 0).val ∧ (i 0).val < 32 * k.val + 32) ∧ (0 ≤ (i 1).val ∧ (i 1).val < 0 + 512) ↔ _
  omega

theorem mem_own (c : Dev nD) (i : S2048x512.Idx) :
    i ∈ ownSet c ↔ 1024 * (c.val % 2) ≤ (i 0).val ∧ (i 0).val < 1024 * (c.val % 2) + 1024 := by
  rw [own_set, Rect.mem_set_unit, Fin.forall_fin_two]
  have h1 : (i 1).val < 512 := (i 1).isLt
  show (1024 * (c.val % 2) ≤ (i 0).val ∧ (i 0).val < 1024 * (c.val % 2) + 1024) ∧ (0 ≤ (i 1).val ∧ (i 1).val < 0 + 512) ↔ _
  omega

theorem mem_yDst (s : Dev nD) (k : Fin 16) (i : S2048x512.Idx) :
    i ∈ (yDst s k).view.set ↔ 1024 * (s.val % 2) + 512 * (s.val / 2) + 32 * k.val ≤ (i 0).val
      ∧ (i 0).val < 1024 * (s.val % 2) + 512 * (s.val / 2) + 32 * k.val + 32 := by
  rw [yDst_set, Rect.mem_set_unit, k0_off3_eq s k, Fin.forall_fin_two]
  have h1 : (i 1).val < 512 := (i 1).isLt
  show (1024 * (s.val % 2) + 512 * (s.val / 2) + 32 * k.val ≤ (i 0).val ∧ (i 0).val < 1024 * (s.val % 2) + 512 * (s.val / 2) + 32 * k.val + 32)
    ∧ (0 ≤ (i 1).val ∧ (i 1).val < 0 + 512) ↔ _
  omega

theorem mem_fwd (s : Dev nD) (k : Fin 16) (i : S2048x512.Idx) :
    i ∈ (fwdM s k).view.set ↔ (512 * (s.val / 2) + 32 * k.val + 1024) - 1024 * (s.val % 2) ≤ (i 0).val
      ∧ (i 0).val < (512 * (s.val / 2) + 32 * k.val + 1024) - 1024 * (s.val % 2) + 32 := by
  rw [fwd_set, Rect.mem_set_unit, k0_off34_eq s k, Fin.forall_fin_two]
  have h1 : (i 1).val < 512 := (i 1).isLt
  show ((512 * (s.val / 2) + 32 * k.val + 1024) - 1024 * (s.val % 2) ≤ (i 0).val ∧ (i 0).val < (512 * (s.val / 2) + 32 * k.val + 1024) - 1024 * (s.val % 2) + 32)
    ∧ (0 ≤ (i 1).val ∧ (i 1).val < 0 + 512) ↔ _
  omega

/-! ### The staging buffer: sixteen chunks of 32 rows -/

theorem sb_disj (b b' : Fin 16) (h : b ≠ b') : Disjoint (sbM b).view.set (sbM b').view.set := by
  have hb : b.val ≠ b'.val := fun e => h (Fin.ext e)
  refine Finset.disjoint_left.mpr fun i hi hi' => ?_
  have h1 := (mem_sb b i).mp hi
  have h2 := (mem_sb b' i).mp hi'
  omega

/-- Row `r` of the staging buffer lies in chunk `r / 32`. -/
theorem sb_cover_mem (i : S512x512.Idx) : ∃ k : Fin 16, i ∈ (sbM k).view.set := by
  have hi : (i 0).val < 512 := (i 0).isLt
  have hk : (i 0).val / 32 < 16 := by omega
  refine ⟨⟨(i 0).val / 32, hk⟩, (mem_sb _ i).mpr ?_⟩
  show 32 * ((i 0).val / 32) ≤ _ ∧ _ < 32 * ((i 0).val / 32) + 32
  omega

/-- The staging buffer's sixteen chunks, as sets of its elements. -/
abbrev sbI (c : Dev nD) : Fin 16 → Finset (Idx ((c : Thread nD τ).loc cc0_scratch0)) := fun k => (sbM k).view.set

theorem sb_cover (c : Dev nD) : Finset.univ.biUnion (sbI c) = Finset.univ := by
  refine Finset.eq_univ_iff_forall.mpr fun i => Finset.mem_biUnion.mpr ?_
  obtain ⟨k, hk⟩ := sb_cover_mem i
  exact ⟨k, Finset.mem_univ _, hk⟩

/-! ### The result buffer: the own half and twice sixteen chunks -/

/-- The pieces of device `c`'s result buffer: its own half, the chunks landing from `py c`, those from `px c`. -/
abbrev outI (c : Dev nD) : Unit ⊕ (Fin 16 ⊕ Fin 16) → Finset (Idx ((c : Thread nD τ).loc cc0_stg1_0))
  | .inl _ => ownSet c
  | .inr (.inl k) => (yDst (py c) k).view.set
  | .inr (.inr k) => (fwdM (px c) k).view.set

/-- First row and number of rows of each piece: the own half starts at 1024 (c % 2); in the other half, the 512 rows
    with the device's own `c / 2` come from `py c`, the other 512 from `px c`. -/
def pieceLo (c : Dev nD) : Unit ⊕ (Fin 16 ⊕ Fin 16) → ℕ
  | .inl _ => 1024 * (c.val % 2)
  | .inr (.inl k) => 1024 * (1 - c.val % 2) + 512 * (c.val / 2) + 32 * k.val
  | .inr (.inr k) => 1024 * (1 - c.val % 2) + 512 * (1 - c.val / 2) + 32 * k.val
def pieceLen : Unit ⊕ (Fin 16 ⊕ Fin 16) → ℕ
  | .inl _ => 1024
  | .inr _ => 32

theorem mem_outI (c : Dev nD) (b : Unit ⊕ (Fin 16 ⊕ Fin 16)) (i : S2048x512.Idx) :
    i ∈ outI c b ↔ pieceLo c b ≤ (i 0).val ∧ (i 0).val < pieceLo c b + pieceLen b := by
  have hc := dev_lt c
  rcases b with u | k | k
  · exact mem_own c i
  · show i ∈ (yDst (py c) k).view.set ↔ _
    rw [mem_yDst, py_val]; simp only [pieceLo, pieceLen]; omega
  · show i ∈ (fwdM (px c) k).view.set ↔ _
    rw [mem_fwd, px_val]; simp only [pieceLo, pieceLen]; omega

theorem out_disj (c : Dev nD) (b b' : Unit ⊕ (Fin 16 ⊕ Fin 16)) (h : b ≠ b') : Disjoint (outI c b) (outI c b') := by
  refine Finset.disjoint_left.mpr fun i hi hi' => ?_
  have h1 := (mem_outI c b i).mp hi
  have h2 := (mem_outI c b' i).mp hi'
  have hc := dev_lt c
  -- two different pieces have separated rows
  have key : pieceLo c b + pieceLen b ≤ pieceLo c b' ∨ pieceLo c b' + pieceLen b' ≤ pieceLo c b := by
    rcases b with u | k | k <;> rcases b' with u' | k' | k' <;> simp only [pieceLo, pieceLen]
    · exact absurd rfl h
    · omega
    · omega
    · omega
    · have : k.val ≠ k'.val := fun e => h (by rw [Fin.ext e])
      omega
    · omega
    · omega
    · omega
    · have : k.val ≠ k'.val := fun e => h (by rw [Fin.ext e])
      omega
  omega

/-- Row `r` lies in the own half when `r / 1024 = c % 2`; else in chunk `(r % 512) / 32` of the rows from `py c` when
    `(r % 1024) / 512 = c / 2`, of the rows from `px c` otherwise. -/
theorem out_cover_mem (c : Dev nD) (i : S2048x512.Idx) : ∃ b, i ∈ outI c b := by
  have hi : (i 0).val < 2048 := (i 0).isLt
  have hc := dev_lt c
  have hk : ((i 0).val % 512) / 32 < 16 := by omega
  by_cases h1 : (i 0).val / 1024 = c.val % 2
  · exact ⟨.inl (), (mem_outI c _ i).mpr (by simp only [pieceLo, pieceLen]; omega)⟩
  · by_cases h2 : ((i 0).val % 1024) / 512 = c.val / 2
    · exact ⟨.inr (.inl ⟨_, hk⟩), (mem_outI c _ i).mpr (by simp only [pieceLo, pieceLen]; omega)⟩
    · exact ⟨.inr (.inr ⟨_, hk⟩), (mem_outI c _ i).mpr (by simp only [pieceLo, pieceLen]; omega)⟩

theorem out_cover (c : Dev nD) : Finset.univ.biUnion (outI c) = Finset.univ := by
  refine Finset.eq_univ_iff_forall.mpr fun i => Finset.mem_biUnion.mpr ?_
  obtain ⟨b, hb⟩ := out_cover_mem c i
  exact ⟨b, Finset.mem_univ _, hb⟩

/-- The result buffer held whole is held piece by piece (at any contents `g`). -/
theorem out_split (c : Dev nD) (g : Buf (Elt F) ((c : Thread nD τ).loc cc0_stg1_0)) :
    ((((c : Thread nD τ).loc cc0_stg1_0) ↦{fullShare} g : sProp 𝕄))
      = iprop((((c : Thread nD τ).loc cc0_stg1_0) ↦[ownSet c]{fullShare} g)
          ∗ (bigSep Finset.univ fun k : Fin 16 => (yDst (py c) k).view.loc (c : Thread nD τ) ↦[(yDst (py c) k).view.set]{fullShare} g)
          ∗ (bigSep Finset.univ fun k : Fin 16 => (fwdM (px c) k).view.loc (c : Thread nD τ) ↦[(fwdM (px c) k).view.set]{fullShare} g)) := by
  rw [Ring.pointsTo_blocks (ℓ := (c : Thread nD τ).loc cc0_stg1_0) (outI c) (out_disj c) (out_cover c) g,
    bigSep_univ_sum, bigSep_univ_sum, bigSep_univ_of_subsingleton ()]
  rfl

/-- The staging buffer held whole is held chunk by chunk. -/
theorem sb_split (c : Dev nD) (f : Buf (Elt F) ((c : Thread nD τ).loc cc0_scratch0)) :
    ((((c : Thread nD τ).loc cc0_scratch0) ↦{fullShare} f : sProp 𝕄))
      = (bigSep Finset.univ fun k : Fin 16 => (sbM k).view.loc (c : Thread nD τ) ↦[(sbM k).view.set]{fullShare} f) :=
  Ring.pointsTo_blocks (ℓ := (c : Thread nD τ).loc cc0_scratch0) (sbI c) sb_disj (sb_cover c) f

/-! ## What the stores and the landings leave -/

/-- Arithmetic over the four devices: case on the device's number, then linear arithmetic. -/
local macro "dev_omega " c:ident : tactic =>
  `(tactic| (have h4 : ($c).val = 0 ∨ ($c).val = 1 ∨ ($c).val = 2 ∨ ($c).val = 3 := by have := dev_lt $c; omega
             rcases h4 with h | h | h | h <;> omega))

/-! ### Where an element of a piece sits in its buffer -/

theorem sb_emb0 (k : Fin 16) (y : S32x512.Idx) : (((sbM k).view.emb y : S512x512.Idx) 0).val = 32 * k.val + (y 0).val := by
  show 32 * k.val + 1 * (y 0).val = _; omega
theorem sb_emb1 (k : Fin 16) (y : S32x512.Idx) : (((sbM k).view.emb y : S512x512.Idx) 1).val = (y 1).val := by
  show 0 + 1 * (y 1).val = _; omega

theorem own_emb0 (c : Dev nD) (y : S1024x512.Idx) :
    ((((oM.access (ownRect c) : View sig .tc _ _ _)).emb y : S2048x512.Idx) 0).val = 1024 * (c.val % 2) + (y 0).val := by
  show 1024 * (c.val % 2) + 1 * (y 0).val = _; omega
theorem own_emb1 (c : Dev nD) (y : S1024x512.Idx) :
    ((((oM.access (ownRect c) : View sig .tc _ _ _)).emb y : S2048x512.Idx) 1).val = (y 1).val := by
  show 0 + 1 * (y 1).val = _; omega

theorem yDst_emb0 (s : Dev nD) (k : Fin 16) (y : S32x512.Idx) :
    (((yDst s k).view.emb y : S2048x512.Idx) 0).val = 1024 * (s.val % 2) + 512 * (s.val / 2) + 32 * k.val + (y 0).val := by
  have h : k0_off3 s (cw k) 0 = 1024 * (s.val % 2) + 512 * (s.val / 2) + 32 * k.val := congrFun (k0_off3_eq s k) 0
  show k0_off3 s (cw k) 0 + 1 * (y 0).val = _
  omega
theorem yDst_emb1 (s : Dev nD) (k : Fin 16) (y : S32x512.Idx) : (((yDst s k).view.emb y : S2048x512.Idx) 1).val = (y 1).val := by
  have h : k0_off3 s (cw k) 1 = 0 := congrFun (k0_off3_eq s k) 1
  show k0_off3 s (cw k) 1 + 1 * (y 1).val = _
  omega

theorem fwd_emb0 (s : Dev nD) (k : Fin 16) (y : S32x512.Idx) :
    (((fwdM s k).view.emb y : S2048x512.Idx) 0).val = (512 * (s.val / 2) + 32 * k.val + 1024) - 1024 * (s.val % 2) + (y 0).val := by
  have h : k0_off34 s (cw k) 0 = (512 * (s.val / 2) + 32 * k.val + 1024) - 1024 * (s.val % 2) := congrFun (k0_off34_eq s k) 0
  show k0_off34 s (cw k) 0 + 1 * (y 0).val = _
  omega
theorem fwd_emb1 (s : Dev nD) (k : Fin 16) (y : S32x512.Idx) : (((fwdM s k).view.emb y : S2048x512.Idx) 1).val = (y 1).val := by
  have h : k0_off34 s (cw k) 1 = 0 := congrFun (k0_off34_eq s k) 1
  show k0_off34 s (cw k) 1 + 1 * (y 1).val = _
  omega

/-! ### The contents read at coordinates -/

theorem ixX_congr {a a' b b' : ℕ} (ha : a < 1024) (hb : b < 1024) (ha' : a' < 1024) (hb' : b' < 1024) (h0 : a = a') (h1 : b = b') :
    ixX a b ha hb = ixX a' b' ha' hb' := by
  subst h0 h1; rfl

/-- An index of the block is the index of its two coordinates. -/
theorem eq_ixX (j : S1024x1024.Idx) (a b : ℕ) (ha : a < 1024) (hb : b < 1024) (h0 : (j 0).val = a) (h1 : (j 1).val = b) :
    j = ixX a b ha hb :=
  Shape.idx_ext₂ h0 h1

/-- Which device a row comes from, case by case. -/
theorem srcDev_own (c : Dev nD) (r : ℕ) (h : r / 1024 = c.val % 2) : srcDev c r = c := if_pos h
theorem srcDev_py (c : Dev nD) (r : ℕ) (h1 : r / 1024 ≠ c.val % 2) (h2 : (r % 1024) / 512 = c.val / 2) : srcDev c r = py c := by
  unfold srcDev; rw [if_neg h1, if_pos h2]
theorem srcDev_px (c : Dev nD) (r : ℕ) (h1 : r / 1024 ≠ c.val % 2) (h2 : (r % 1024) / 512 ≠ c.val / 2) : srcDev c r = px (py c) := by
  unfold srcDev; rw [if_neg h1, if_neg h2]

/-- `Gout` at an index whose source device, row in the block and column in the block are known. -/
theorem Gout_at {F : FTy → Type} [FloatOps F] (m : (ℓ : Loc nD τ sig) → Buf (Elt F) ℓ) (c s : Dev nD) (i : S2048x512.Idx)
    (a b : ℕ) (ha : a < 1024) (hb : b < 1024)
    (hs : srcDev c (i 0).val = s) (h0 : (i 0).val % 1024 = a) (h1 : 512 * (c.val % 2) + (i 1).val = b) :
    Gout m c i = cast1 (X m s (ixX a b ha hb)) := by
  subst hs h0 h1; rfl

/-- `SB` at an index whose row and column in the block are known. -/
theorem SB_at {F : FTy → Type} [FloatOps F] (m : (ℓ : Loc nD τ sig) → Buf (Elt F) ℓ) (c : Dev nD) (i : S512x512.Idx)
    (a b : ℕ) (ha : a < 1024) (hb : b < 1024)
    (h0 : 512 * (c.val / 2) + (i 0).val = a) (h1 : 512 * (1 - c.val % 2) + (i 1).val = b) :
    SB m c i = cast1 (X m c (ixX a b ha hb)) := by
  subst h0 h1; rfl

/-- The staged argument block is the argument array itself: the window is the whole array. -/
theorem xstg_whole {F : FTy → Type} [FloatOps F] (m : (ℓ : Loc nD τ sig) → Buf (Elt F) ℓ) (c : Dev nD) : xstg m c = X m c := by
  have hz : (fun a => (win0_0.index (0 : Fin 1)) a * main_arg0.ty.shape.size a) = fun _ => 0 := funext fun a => Nat.zero_mul _
  exact Memref.read_access_unit_zero (Elt F) main_arg0 hz (fun a => by rw [congrFun hz a, Nat.zero_add]) (m ((c : Thread nD τ).loc main_arg0))

/-- A load through the whole staged argument block reads the contents at the rectangle's coordinates. -/
theorem xM_readAt {F : FTy → Type} [FloatOps F] (f : S1024x1024.Idx → Elt F .f32) (r : LoadRect S1024x1024) (y : r.shape.Idx) :
    (xM : Memref sig .tc .vmem S1024x1024 .f32).view.readAt (Elt F) r f y = f (r.idx y) := rfl

/-- The cast payload of a 32-row chunk, at an index. -/
theorem k0_pay1_apply {F : FTy → Type} [FloatOps F] (v : Vec F S32x512 .f32) (y : S32x512.Idx) : k0_pay1 v y = cast1 (v y) := by
  unfold k0_pay1
  simp only [shapeCast_self]
  rfl

/-- Staging chunk `k`: the cast of rows [512 (c / 2) + 32 k, + 32), columns of the other column block, of `c`'s block,
    stored over anything, is `SB` on the chunk. `off` is the load's offset as the body computes it. -/
theorem sb_val (c : Dev nD) (k : Fin 16) (f : Buf (Elt F) ((c : Thread nD τ).loc cc0_scratch0))
    (off : Fin 2 → Nat) (inb : ∀ a, off a + S32x512.size a ≤ S1024x1024.size a)
    (hoff : off = ![512 * (c.val / 2) + 32 * k.val, 512 * (1 - c.val % 2)]) :
    ∀ i ∈ (sbM k).view.set,
      ((sM.access (Rect.unit (s := S512x512) ![32 * k.val, 0] S32x512.size (sb_inb k)) : View sig .tc _ _ _).write (Elt F) f
        (k0_pay1 ((xM : Memref sig .tc .vmem S1024x1024 .f32).view.readAt (Elt F) (Rect.unit (s := S1024x1024) off S32x512.size inb).toLoadRect (xstg m c))) Finset.univ) i
        = SB m c i := by
  subst hoff
  intro i hi
  obtain ⟨y, rfl⟩ := (sbM k).view.exists_emb_of_mem_set hi
  have hy0 : (y 0).val < 32 := (y 0).isLt
  have hy1 : (y 1).val < 512 := (y 1).isLt
  have hk := k.isLt
  have hS : SB m c ((sbM k).view.emb y)
      = cast1 (X m c (ixX (512 * (c.val / 2) + 32 * k.val + (y 0).val) (512 * (1 - c.val % 2) + (y 1).val) (by dev_omega c) (by dev_omega c))) :=
    SB_at m c _ _ _ _ _ (by rw [sb_emb0]; omega) (by rw [sb_emb1])
  have hx : (xM : Memref sig .tc .vmem S1024x1024 .f32).view.readAt (Elt F)
        (Rect.unit (s := S1024x1024) ![512 * (c.val / 2) + 32 * k.val, 512 * (1 - c.val % 2)] S32x512.size inb).toLoadRect (xstg m c) y
      = X m c (ixX (512 * (c.val / 2) + 32 * k.val + (y 0).val) (512 * (1 - c.val % 2) + (y 1).val) (by dev_omega c) (by dev_omega c)) := by
    rw [xstg_whole, xM_readAt]
    exact congrArg (X m c) (eq_ixX _ _ _ _ _
      (by show (512 * (c.val / 2) + 32 * k.val) + 1 * (y 0).val = _; omega)
      (by show 512 * (1 - c.val % 2) + 1 * (y 1).val = _; omega))
  show (sbM k).view.write (Elt F) f _ Finset.univ ((sbM k).view.emb y) = _
  rw [View.write_emb_of_mem _ _ (Finset.mem_univ _), k0_pay1_apply, hx, hS]
  rfl

/-- The own half: the cast of the columns of `c`'s own column block of its block, stored over anything, is `Gout`
    on the own rows. -/
theorem own_val (c : Dev nD) (g : Buf (Elt F) ((c : Thread nD τ).loc cc0_stg1_0))
    (off : Fin 2 → Nat) (inb : ∀ a, off a + S1024x512.size a ≤ S1024x1024.size a)
    (hoff : off = ![0, 512 * (c.val % 2)])
    (pay : Vec F S1024x512 .f32 → FVec F S1024x512 .bf16)
    (hpay : ∀ v i, pay v i = cast1 (v i)) :
    ∀ i ∈ ownSet c,
      ((oM.access (ownRect c) : View sig .tc _ _ _).write (Elt F) g
        (pay ((xM : Memref sig .tc .vmem S1024x1024 .f32).view.readAt (Elt F) (Rect.unit (s := S1024x1024) off S1024x512.size inb).toLoadRect (xstg m c))) Finset.univ) i
        = Gout m c i := by
  subst hoff
  intro i hi
  obtain ⟨y, rfl⟩ := ((oM.access (ownRect c) : View sig .tc _ _ _)).exists_emb_of_mem_set hi
  have hy0 : (y 0).val < 1024 := (y 0).isLt
  have hy1 : (y 1).val < 512 := (y 1).isLt
  have hG : Gout m c ((oM.access (ownRect c) : View sig .tc _ _ _).emb y)
      = cast1 (X m c (ixX (y 0).val (512 * (c.val % 2) + (y 1).val) (by omega) (by dev_omega c))) :=
    Gout_at m c c _ _ _ _ _ (srcDev_own _ _ (by rw [own_emb0]; dev_omega c)) (by rw [own_emb0]; dev_omega c) (by rw [own_emb1])
  have hx : (xM : Memref sig .tc .vmem S1024x1024 .f32).view.readAt (Elt F)
        (Rect.unit (s := S1024x1024) ![0, 512 * (c.val % 2)] S1024x512.size inb).toLoadRect (xstg m c) y
      = X m c (ixX (y 0).val (512 * (c.val % 2) + (y 1).val) (by omega) (by dev_omega c)) := by
    rw [xstg_whole, xM_readAt]
    exact congrArg (X m c) (eq_ixX _ _ _ _ _
      (by show 0 + 1 * (y 0).val = _; omega)
      (by show 512 * (c.val % 2) + 1 * (y 1).val = _; omega))
  rw [View.write_emb_of_mem _ _ (Finset.mem_univ _), hpay, hx, hG]
  rfl

/-- A transfer's landing on `py c`: the staged chunk written over anything is `py c`'s `Gout` on the chunk. -/
theorem land_y_val (c : Dev nD) (k : Fin 16) (fd : Buf (Elt F) ((yDst c k).view.loc (py c : Thread nD τ))) :
    ∀ i ∈ (yDst c k).view.set,
      ((yDst c k).view.write (Elt F) fd ((sbM k).view.read (Elt F) (SB m c)) Finset.univ) i = Gout m (py c) i := by
  intro i hi
  obtain ⟨y, rfl⟩ := (yDst c k).view.exists_emb_of_mem_set hi
  have hy0 : (y 0).val < 32 := (y 0).isLt
  have hy1 : (y 1).val < 512 := (y 1).isLt
  have hk := k.isLt
  have hG : Gout m (py c) ((yDst c k).view.emb y)
      = cast1 (X m c (ixX (512 * (c.val / 2) + 32 * k.val + (y 0).val) (512 * (1 - c.val % 2) + (y 1).val) (by dev_omega c) (by dev_omega c))) :=
    Gout_at m (py c) c _ _ _ _ _
      (by rw [srcDev_py _ _ (by rw [yDst_emb0, py_val]; dev_omega c) (by rw [yDst_emb0, py_val]; dev_omega c), py_py])
      (by rw [yDst_emb0]; dev_omega c) (by rw [yDst_emb1, py_val]; dev_omega c)
  have hS : SB m c ((sbM k).view.emb y)
      = cast1 (X m c (ixX (512 * (c.val / 2) + 32 * k.val + (y 0).val) (512 * (1 - c.val % 2) + (y 1).val) (by dev_omega c) (by dev_omega c))) :=
    SB_at m c _ _ _ _ _ (by rw [sb_emb0]; omega) (by rw [sb_emb1])
  rw [View.write_emb_of_mem _ _ (Finset.mem_univ _), View.read_apply, hG, hS]
  rfl

/-- A forward's landing on `px c`: `c`'s rows written over anything are `px c`'s `Gout` on the chunk. -/
theorem land_x_val (c : Dev nD) (k : Fin 16) (fd : Buf (Elt F) ((fwdM c k).view.loc (px c : Thread nD τ))) :
    ∀ i ∈ (fwdM c k).view.set,
      ((fwdM c k).view.write (Elt F) fd ((fwdM c k).view.read (Elt F) (Gout m c)) Finset.univ) i = Gout m (px c) i := by
  intro i hi
  obtain ⟨y, rfl⟩ := (fwdM c k).view.exists_emb_of_mem_set hi
  have hy0 : (y 0).val < 32 := (y 0).isLt
  have hy1 : (y 1).val < 512 := (y 1).isLt
  have hk := k.isLt
  have hG : Gout m c ((fwdM c k).view.emb y)
      = cast1 (X m (py c) (ixX (512 * (c.val / 2) + 32 * k.val + (y 0).val) (512 * (c.val % 2) + (y 1).val) (by dev_omega c) (by dev_omega c))) :=
    Gout_at m c (py c) _ _ _ _ _
      (srcDev_py _ _ (by rw [fwd_emb0]; dev_omega c) (by rw [fwd_emb0]; dev_omega c))
      (by rw [fwd_emb0]; dev_omega c) (by rw [fwd_emb1])
  have hG' : Gout m (px c) ((fwdM c k).view.emb y)
      = cast1 (X m (py c) (ixX (512 * (c.val / 2) + 32 * k.val + (y 0).val) (512 * (c.val % 2) + (y 1).val) (by dev_omega c) (by dev_omega c))) :=
    Gout_at m (px c) (py c) _ _ _ _ _
      (by rw [srcDev_px _ _ (by rw [fwd_emb0, px_val]; dev_omega c) (by rw [fwd_emb0, px_val]; dev_omega c), ← px_py, px_px])
      (by rw [fwd_emb0]; dev_omega c) (by rw [fwd_emb1, px_val]; dev_omega c)
  rw [View.write_emb_of_mem _ _ (Finset.mem_univ _), View.read_apply, hG, hG']
  rfl

/-! ### Axioms -/

/-- info: 'Cert.Kernel.A2A.yDst_py_eq_fwd' depends on axioms: [propext, Classical.choice, Quot.sound] -/
#guard_msgs in #print axioms yDst_py_eq_fwd
/-- info: 'Cert.Kernel.A2A.out_split' depends on axioms: [propext, Classical.choice, Quot.sound] -/
#guard_msgs in #print axioms out_split
/-- info: 'Cert.Kernel.A2A.sb_split' depends on axioms: [propext, Classical.choice, Quot.sound] -/
#guard_msgs in #print axioms sb_split
/-- info: 'Cert.Kernel.A2A.sb_val' depends on axioms: [propext, Classical.choice, Quot.sound] -/
#guard_msgs in #print axioms sb_val
/-- info: 'Cert.Kernel.A2A.own_val' depends on axioms: [propext, Classical.choice, Quot.sound] -/
#guard_msgs in #print axioms own_val
/-- info: 'Cert.Kernel.A2A.land_y_val' depends on axioms: [propext, Classical.choice, Quot.sound] -/
#guard_msgs in #print axioms land_y_val
/-- info: 'Cert.Kernel.A2A.land_x_val' depends on axioms: [propext, Classical.choice, Quot.sound] -/
#guard_msgs in #print axioms land_x_val

end Cert.Kernel.A2A

end
-- ==== Proof.Kernel.Tables.lean ====
import proofs.«900024_g7700000000000025_dist_a2a_v7x_xy2x2_y_m1024_n512_bf16_1_alg».proof.Proof.Kernel.Spec

noncomputable section

namespace Cert.Kernel.A2A

open Cert.Kernel Cert.Kernel.Gen
open Idealize.ShloMosaic Idealize.ShloMosaic.TcCoe

/-! ## The device each signal and each transfer addresses: `py c` for the first signal and the sixteen transfers, `px c` for the second signal and the sixteen forwards -/

theorem dev1_eq (c : Dev nD) : (⟨k0_dev1 c, k0_dev1_lt c⟩ : Dev nD) = py c := Fin.ext (k0_dev1_eq c)
theorem dev2_eq (c : Dev nD) : (⟨k0_dev2 c, k0_dev2_lt c⟩ : Dev nD) = px c := Fin.ext (k0_dev2_eq c)
theorem dev3_eq (c : Dev nD) : (⟨k0_dev3 c, k0_dev3_lt c⟩ : Dev nD) = py c := Fin.ext (k0_dev3_eq c)
theorem dev4_eq (c : Dev nD) : (⟨k0_dev4 c, k0_dev4_lt c⟩ : Dev nD) = py c := Fin.ext (k0_dev4_eq c)
theorem dev5_eq (c : Dev nD) : (⟨k0_dev5 c, k0_dev5_lt c⟩ : Dev nD) = py c := Fin.ext (k0_dev5_eq c)
theorem dev6_eq (c : Dev nD) : (⟨k0_dev6 c, k0_dev6_lt c⟩ : Dev nD) = py c := Fin.ext (k0_dev6_eq c)
theorem dev7_eq (c : Dev nD) : (⟨k0_dev7 c, k0_dev7_lt c⟩ : Dev nD) = py c := Fin.ext (k0_dev7_eq c)
theorem dev8_eq (c : Dev nD) : (⟨k0_dev8 c, k0_dev8_lt c⟩ : Dev nD) = py c := Fin.ext (k0_dev8_eq c)
theorem dev9_eq (c : Dev nD) : (⟨k0_dev9 c, k0_dev9_lt c⟩ : Dev nD) = py c := Fin.ext (k0_dev9_eq c)
theorem dev10_eq (c : Dev nD) : (⟨k0_dev10 c, k0_dev10_lt c⟩ : Dev nD) = py c := Fin.ext (k0_dev10_eq c)
theorem dev11_eq (c : Dev nD) : (⟨k0_dev11 c, k0_dev11_lt c⟩ : Dev nD) = py c := Fin.ext (k0_dev11_eq c)
theorem dev12_eq (c : Dev nD) : (⟨k0_dev12 c, k0_dev12_lt c⟩ : Dev nD) = py c := Fin.ext (k0_dev12_eq c)
theorem dev13_eq (c : Dev nD) : (⟨k0_dev13 c, k0_dev13_lt c⟩ : Dev nD) = py c := Fin.ext (k0_dev13_eq c)
theorem dev14_eq (c : Dev nD) : (⟨k0_dev14 c, k0_dev14_lt c⟩ : Dev nD) = py c := Fin.ext (k0_dev14_eq c)
theorem dev15_eq (c : Dev nD) : (⟨k0_dev15 c, k0_dev15_lt c⟩ : Dev nD) = py c := Fin.ext (k0_dev15_eq c)
theorem dev16_eq (c : Dev nD) : (⟨k0_dev16 c, k0_dev16_lt c⟩ : Dev nD) = py c := Fin.ext (k0_dev16_eq c)
theorem dev17_eq (c : Dev nD) : (⟨k0_dev17 c, k0_dev17_lt c⟩ : Dev nD) = py c := Fin.ext (k0_dev17_eq c)
theorem dev18_eq (c : Dev nD) : (⟨k0_dev18 c, k0_dev18_lt c⟩ : Dev nD) = py c := Fin.ext (k0_dev18_eq c)
theorem dev19_eq (c : Dev nD) : (⟨k0_dev19 c, k0_dev19_lt c⟩ : Dev nD) = px c := Fin.ext (k0_dev19_eq c)
theorem dev20_eq (c : Dev nD) : (⟨k0_dev20 c, k0_dev20_lt c⟩ : Dev nD) = px c := Fin.ext (k0_dev20_eq c)
theorem dev21_eq (c : Dev nD) : (⟨k0_dev21 c, k0_dev21_lt c⟩ : Dev nD) = px c := Fin.ext (k0_dev21_eq c)
theorem dev22_eq (c : Dev nD) : (⟨k0_dev22 c, k0_dev22_lt c⟩ : Dev nD) = px c := Fin.ext (k0_dev22_eq c)
theorem dev23_eq (c : Dev nD) : (⟨k0_dev23 c, k0_dev23_lt c⟩ : Dev nD) = px c := Fin.ext (k0_dev23_eq c)
theorem dev24_eq (c : Dev nD) : (⟨k0_dev24 c, k0_dev24_lt c⟩ : Dev nD) = px c := Fin.ext (k0_dev24_eq c)
theorem dev25_eq (c : Dev nD) : (⟨k0_dev25 c, k0_dev25_lt c⟩ : Dev nD) = px c := Fin.ext (k0_dev25_eq c)
theorem dev26_eq (c : Dev nD) : (⟨k0_dev26 c, k0_dev26_lt c⟩ : Dev nD) = px c := Fin.ext (k0_dev26_eq c)
theorem dev27_eq (c : Dev nD) : (⟨k0_dev27 c, k0_dev27_lt c⟩ : Dev nD) = px c := Fin.ext (k0_dev27_eq c)
theorem dev28_eq (c : Dev nD) : (⟨k0_dev28 c, k0_dev28_lt c⟩ : Dev nD) = px c := Fin.ext (k0_dev28_eq c)
theorem dev29_eq (c : Dev nD) : (⟨k0_dev29 c, k0_dev29_lt c⟩ : Dev nD) = px c := Fin.ext (k0_dev29_eq c)
theorem dev30_eq (c : Dev nD) : (⟨k0_dev30 c, k0_dev30_lt c⟩ : Dev nD) = px c := Fin.ext (k0_dev30_eq c)
theorem dev31_eq (c : Dev nD) : (⟨k0_dev31 c, k0_dev31_lt c⟩ : Dev nD) = px c := Fin.ext (k0_dev31_eq c)
theorem dev32_eq (c : Dev nD) : (⟨k0_dev32 c, k0_dev32_lt c⟩ : Dev nD) = px c := Fin.ext (k0_dev32_eq c)
theorem dev33_eq (c : Dev nD) : (⟨k0_dev33 c, k0_dev33_lt c⟩ : Dev nD) = px c := Fin.ext (k0_dev33_eq c)
theorem dev34_eq (c : Dev nD) : (⟨k0_dev34 c, k0_dev34_lt c⟩ : Dev nD) = px c := Fin.ext (k0_dev34_eq c)

/-! ## The staging stores' conditions: the odd-numbered ones hold on the devices with `c % 2 = 0`, the even-numbered on those with `c % 2 = 1` -/

theorem cond1_y0 (c : Dev nD) (h : c.val % 2 = 0) : k0_cond1 c = 1#1 := by revert c; decide
theorem cond1_y1 (c : Dev nD) (h : c.val % 2 = 1) : ¬ k0_cond1 c = 1#1 := by revert c; decide
theorem cond2_y0 (c : Dev nD) (h : c.val % 2 = 0) : ¬ k0_cond2 c = 1#1 := by revert c; decide
theorem cond2_y1 (c : Dev nD) (h : c.val % 2 = 1) : k0_cond2 c = 1#1 := by revert c; decide
theorem cond3_y0 (c : Dev nD) (h : c.val % 2 = 0) : k0_cond3 c = 1#1 := by revert c; decide
theorem cond3_y1 (c : Dev nD) (h : c.val % 2 = 1) : ¬ k0_cond3 c = 1#1 := by revert c; decide
theorem cond4_y0 (c : Dev nD) (h : c.val % 2 = 0) : ¬ k0_cond4 c = 1#1 := by revert c; decide
theorem cond4_y1 (c : Dev nD) (h : c.val % 2 = 1) : k0_cond4 c = 1#1 := by revert c; decide
theorem cond5_y0 (c : Dev nD) (h : c.val % 2 = 0) : k0_cond5 c = 1#1 := by revert c; decide
theorem cond5_y1 (c : Dev nD) (h : c.val % 2 = 1) : ¬ k0_cond5 c = 1#1 := by revert c; decide
theorem cond6_y0 (c : Dev nD) (h : c.val % 2 = 0) : ¬ k0_cond6 c = 1#1 := by revert c; decide
theorem cond6_y1 (c : Dev nD) (h : c.val % 2 = 1) : k0_cond6 c = 1#1 := by revert c; decide
theorem cond7_y0 (c : Dev nD) (h : c.val % 2 = 0) : k0_cond7 c = 1#1 := by revert c; decide
theorem cond7_y1 (c : Dev nD) (h : c.val % 2 = 1) : ¬ k0_cond7 c = 1#1 := by revert c; decide
theorem cond8_y0 (c : Dev nD) (h : c.val % 2 = 0) : ¬ k0_cond8 c = 1#1 := by revert c; decide
theorem cond8_y1 (c : Dev nD) (h : c.val % 2 = 1) : k0_cond8 c = 1#1 := by revert c; decide
theorem cond9_y0 (c : Dev nD) (h : c.val % 2 = 0) : k0_cond9 c = 1#1 := by revert c; decide
theorem cond9_y1 (c : Dev nD) (h : c.val % 2 = 1) : ¬ k0_cond9 c = 1#1 := by revert c; decide
theorem cond10_y0 (c : Dev nD) (h : c.val % 2 = 0) : ¬ k0_cond10 c = 1#1 := by revert c; decide
theorem cond10_y1 (c : Dev nD) (h : c.val % 2 = 1) : k0_cond10 c = 1#1 := by revert c; decide
theorem cond11_y0 (c : Dev nD) (h : c.val % 2 = 0) : k0_cond11 c = 1#1 := by revert c; decide
theorem cond11_y1 (c : Dev nD) (h : c.val % 2 = 1) : ¬ k0_cond11 c = 1#1 := by revert c; decide
theorem cond12_y0 (c : Dev nD) (h : c.val % 2 = 0) : ¬ k0_cond12 c = 1#1 := by revert c; decide
theorem cond12_y1 (c : Dev nD) (h : c.val % 2 = 1) : k0_cond12 c = 1#1 := by revert c; decide
theorem cond13_y0 (c : Dev nD) (h : c.val % 2 = 0) : k0_cond13 c = 1#1 := by revert c; decide
theorem cond13_y1 (c : Dev nD) (h : c.val % 2 = 1) : ¬ k0_cond13 c = 1#1 := by revert c; decide
theorem cond14_y0 (c : Dev nD) (h : c.val % 2 = 0) : ¬ k0_cond14 c = 1#1 := by revert c; decide
theorem cond14_y1 (c : Dev nD) (h : c.val % 2 = 1) : k0_cond14 c = 1#1 := by revert c; decide
theorem cond15_y0 (c : Dev nD) (h : c.val % 2 = 0) : k0_cond15 c = 1#1 := by revert c; decide
theorem cond15_y1 (c : Dev nD) (h : c.val % 2 = 1) : ¬ k0_cond15 c = 1#1 := by revert c; decide
theorem cond16_y0 (c : Dev nD) (h : c.val % 2 = 0) : ¬ k0_cond16 c = 1#1 := by revert c; decide
theorem cond16_y1 (c : Dev nD) (h : c.val % 2 = 1) : k0_cond16 c = 1#1 := by revert c; decide
theorem cond17_y0 (c : Dev nD) (h : c.val % 2 = 0) : k0_cond17 c = 1#1 := by revert c; decide
theorem cond17_y1 (c : Dev nD) (h : c.val % 2 = 1) : ¬ k0_cond17 c = 1#1 := by revert c; decide
theorem cond18_y0 (c : Dev nD) (h : c.val % 2 = 0) : ¬ k0_cond18 c = 1#1 := by revert c; decide
theorem cond18_y1 (c : Dev nD) (h : c.val % 2 = 1) : k0_cond18 c = 1#1 := by revert c; decide
theorem cond19_y0 (c : Dev nD) (h : c.val % 2 = 0) : k0_cond19 c = 1#1 := by revert c; decide
theorem cond19_y1 (c : Dev nD) (h : c.val % 2 = 1) : ¬ k0_cond19 c = 1#1 := by revert c; decide
theorem cond20_y0 (c : Dev nD) (h : c.val % 2 = 0) : ¬ k0_cond20 c = 1#1 := by revert c; decide
theorem cond20_y1 (c : Dev nD) (h : c.val % 2 = 1) : k0_cond20 c = 1#1 := by revert c; decide
theorem cond21_y0 (c : Dev nD) (h : c.val % 2 = 0) : k0_cond21 c = 1#1 := by revert c; decide
theorem cond21_y1 (c : Dev nD) (h : c.val % 2 = 1) : ¬ k0_cond21 c = 1#1 := by revert c; decide
theorem cond22_y0 (c : Dev nD) (h : c.val % 2 = 0) : ¬ k0_cond22 c = 1#1 := by revert c; decide
theorem cond22_y1 (c : Dev nD) (h : c.val % 2 = 1) : k0_cond22 c = 1#1 := by revert c; decide
theorem cond23_y0 (c : Dev nD) (h : c.val % 2 = 0) : k0_cond23 c = 1#1 := by revert c; decide
theorem cond23_y1 (c : Dev nD) (h : c.val % 2 = 1) : ¬ k0_cond23 c = 1#1 := by revert c; decide
theorem cond24_y0 (c : Dev nD) (h : c.val % 2 = 0) : ¬ k0_cond24 c = 1#1 := by revert c; decide
theorem cond24_y1 (c : Dev nD) (h : c.val % 2 = 1) : k0_cond24 c = 1#1 := by revert c; decide
theorem cond25_y0 (c : Dev nD) (h : c.val % 2 = 0) : k0_cond25 c = 1#1 := by revert c; decide
theorem cond25_y1 (c : Dev nD) (h : c.val % 2 = 1) : ¬ k0_cond25 c = 1#1 := by revert c; decide
theorem cond26_y0 (c : Dev nD) (h : c.val % 2 = 0) : ¬ k0_cond26 c = 1#1 := by revert c; decide
theorem cond26_y1 (c : Dev nD) (h : c.val % 2 = 1) : k0_cond26 c = 1#1 := by revert c; decide
theorem cond27_y0 (c : Dev nD) (h : c.val % 2 = 0) : k0_cond27 c = 1#1 := by revert c; decide
theorem cond27_y1 (c : Dev nD) (h : c.val % 2 = 1) : ¬ k0_cond27 c = 1#1 := by revert c; decide
theorem cond28_y0 (c : Dev nD) (h : c.val % 2 = 0) : ¬ k0_cond28 c = 1#1 := by revert c; decide
theorem cond28_y1 (c : Dev nD) (h : c.val % 2 = 1) : k0_cond28 c = 1#1 := by revert c; decide
theorem cond29_y0 (c : Dev nD) (h : c.val % 2 = 0) : k0_cond29 c = 1#1 := by revert c; decide
theorem cond29_y1 (c : Dev nD) (h : c.val % 2 = 1) : ¬ k0_cond29 c = 1#1 := by revert c; decide
theorem cond30_y0 (c : Dev nD) (h : c.val % 2 = 0) : ¬ k0_cond30 c = 1#1 := by revert c; decide
theorem cond30_y1 (c : Dev nD) (h : c.val % 2 = 1) : k0_cond30 c = 1#1 := by revert c; decide
theorem cond31_y0 (c : Dev nD) (h : c.val % 2 = 0) : k0_cond31 c = 1#1 := by revert c; decide
theorem cond31_y1 (c : Dev nD) (h : c.val % 2 = 1) : ¬ k0_cond31 c = 1#1 := by revert c; decide
theorem cond32_y0 (c : Dev nD) (h : c.val % 2 = 0) : ¬ k0_cond32 c = 1#1 := by revert c; decide
theorem cond32_y1 (c : Dev nD) (h : c.val % 2 = 1) : k0_cond32 c = 1#1 := by revert c; decide

end Cert.Kernel.A2A

end
-- ==== Proof.Kernel.Steps.lean ====
/-
  The steps of one device's body that touch another device or a cell others pay, each as ONE rule: the premises are
  exactly what the step consumes, the conclusion what it leaves, so that the body lemma applies them in program order.
  The deadlock argument is here too: a device waits on its barrier cell (level 1) while it owes only landings (levels 2
  and 3), and on a landing of the first exchange (level 2) while it owes only forwards (level 3).
-/
import proofs.«900024_g7700000000000025_dist_a2a_v7x_xy2x2_y_m1024_n512_bf16_1_alg».proof.Proof.Kernel.Regions
import proofs.«900024_g7700000000000025_dist_a2a_v7x_xy2x2_y_m1024_n512_bf16_1_alg».proof.Proof.Kernel.Tables

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 65 → ℕ)

/-! ## What is still owed, cell by cell -/

theorem remF_pos {c : Dev nD} {n : ℕ} {g : GSem nD τ sig} {u : Unit} (h : 0 < remF c n g u) : ∃ k, g = dCell (px c) 3 k := by
  induction n with
  | zero => exact absurd h (Nat.lt_irrefl 0)
  | succ n ih =>
    unfold remF at h
    rw [Pi.add_apply, Finsupp.add_apply, tallyAt_apply] at h
    by_cases hg : g = dCell (px c) 3 ⟨(15 - n) % 16, Nat.mod_lt _ (by decide)⟩ ∧ u = ()
    · exact ⟨_, hg.1⟩
    · rw [if_neg hg, Nat.add_zero] at h; exact ih h

theorem remY_pos {c : Dev nD} {n : ℕ} {g : GSem nD τ sig} {u : Unit} (h : 0 < remY c n g u) :
    (∃ k, g = dCell (py c) 1 k) ∨ ∃ k, g = dCell (px c) 3 k := by
  induction n with
  | zero => exact Or.inr (remF_pos h)
  | succ n ih =>
    unfold remY at h
    rw [Pi.add_apply, Finsupp.add_apply, tallyAt_apply] at h
    by_cases hg : g = dCell (py c) 1 ⟨(15 - n) % 16, Nat.mod_lt _ (by decide)⟩ ∧ u = ()
    · exact Or.inl ⟨_, hg.1⟩
    · rw [if_neg hg, Nat.add_zero] at h; exact ih h

theorem lv_dCell (c : Dev nD) (j : Fin 4) (k : Fin 16) (u : Unit) : lv (dCell c j k) u = if j.val < 2 then 2 else 3 := by
  show (if (dsem j k).val < 2 then 0 else if ((dsem j k).val - 2) / 16 < 2 then 2 else 3) = _
  revert j k; decide

/-- At its barrier wait a device owes only landings: cells of level 2 and 3, above its barrier cell's 1. -/
theorem mayWait_bar (c : Dev nD) (n : ℕ) :
    (levAts L lv : sProp 𝕄) ⊢ MayWait (c : Thread nD τ) (.reg barS) () (remY c n) :=
  MayOwe.of_cut (L := L) (lev := lv) 1 (fun p hp => by rw [Finset.mem_singleton.mp hp, L_tc]; exact Finset.mem_singleton_self _)
    (fun g u hg => by
      rcases remY_pos hg with ⟨k, rfl⟩ | ⟨k, rfl⟩ <;> (rw [L_tc]; exact Finset.mem_singleton_self _))
    (fun p hp => by rw [Finset.mem_singleton.mp hp]; exact le_refl _)
    (fun g u hg => by
      rcases remY_pos hg with ⟨k, rfl⟩ | ⟨k, rfl⟩ <;> (rw [lv_dCell]; decide))

/-- At the wait for a landing of the first exchange a device owes only forwards: cells of level 3, above 2. -/
theorem mayWait_land (c : Dev nD) (k : Fin 16) (n : ℕ) :
    (levAts L lv : sProp 𝕄) ⊢ MayWait (c : Thread nD τ) (.dma (dsem 1 k)) () (remF c n) :=
  MayOwe.of_cut (L := L) (lev := lv) 2 (fun p hp => by rw [Finset.mem_singleton.mp hp, L_tc]; exact Finset.mem_singleton_self _)
    (fun g u hg => by obtain ⟨k', rfl⟩ := remF_pos hg; rw [L_tc]; exact Finset.mem_singleton_self _)
    (fun p hp => by rw [Finset.mem_singleton.mp hp]; show lv (dCell c 1 k) () ≤ 2; rw [lv_dCell]; decide)
    (fun g u hg => by obtain ⟨k', rfl⟩ := remF_pos hg; rw [lv_dCell]; decide)

/-! ## Reading the persistent records -/

theorem invs_at (ck : Dev nD × Fin 65) :
    (bigSep Finset.univ fun ck : Dev nD × Fin 65 => (cellInv ER (sched m) (K ck) (kcell ck) : sProp 𝕄)) ⊢ cellInv ER (sched m) (K ck) (kcell ck) :=
  bigSep_elim (Finset.mem_univ ck)
theorem reacheds_at (ck : Dev nD × Fin 65) :
    (bigSep Finset.univ fun ck : Dev nD × Fin 65 => (reached ER (kcell ck) 0 : sProp 𝕄)) ⊢ reached ER (kcell ck) 0 :=
  bigSep_elim (Finset.mem_univ ck)

theorem inv_bar (c : Dev nD) : records m K ⊢ cellInv ER (sched m) (K (c, 0)) (barCell c) := by
  unfold records; iintro ⟨HI, -⟩
  iapply (invs_at m K (c, 0)); iexact HI
theorem inv_dma (c : Dev nD) (j : Fin 4) (k : Fin 16) : records m K ⊢ cellInv ER (sched m) (K (c, ci j k)) (dCell c j k) := by
  rw [← kcell_ci]
  unfold records; iintro ⟨HI, -⟩
  iapply (invs_at m K (c, ci j k)); iexact HI
theorem reached_bar (c : Dev nD) : records m K ⊢ reached ER (barCell c) 0 := by
  unfold records; iintro ⟨-, HR⟩
  iapply (reacheds_at (F := F) (c, 0)); iexact HR
theorem reached_dma (c : Dev nD) (j : Fin 4) (k : Fin 16) : records m K ⊢ reached ER (dCell c j k) 0 := by
  rw [← kcell_ci]
  unfold records; iintro ⟨-, HR⟩
  iapply (reacheds_at (F := F) (c, ci j k)); iexact HR

/-! ## The signals and the barrier wait -/

/-- The first signal, to `py c`'s barrier cell: its duty `false`, with the sixteen pieces of `c`'s result buffer that
    `py c`'s transfers write. -/
theorem step_sig_py (c : Dev nD) (dv : Dev nD) (hdv : dv = py c) (n : ℕ) (hn : n = 1) (W : Waits sig Unit)
    {α : Type} {Q : α → sProp 𝕄} {kont : PUnit → Prog (TpuEff nD τ sig (Elt F) Λ₀ .tc) α} :
    records m K
      ⊢ iprop(owes (c : Thread nD τ) (O₀ c) W -∗ dutyTok ER (barCell (py c)) 0 false -∗ barPayY (py c)
          -∗ (owes (c : Thread nD τ) (O₁ c) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (dv : Thread nD τ) barS n) kont) Q) := by
  subst hdv; subst hn
  iintro #Hrec HO Ht Hp Hk
  ihave #HI := (inv_bar m K (py c)) $$ Hrec
  ihave #Hr := (reached_bar m K (py c)) $$ Hrec
  iapply (Rounds.wp_signal 𝒱₀ ER (sched m) (c : Thread nD τ) none (dst := (py c : Thread nD τ)) (κ := K (py c, 0))
      (d := false) (by rw [duties_bar]; exact Finset.mem_univ _) (amount_bar m (py c) false) () (O₁ c) rfl) $$ [HO Ht Hp]
  · isplitr; · iexact HI
    isplitl [HO]; · iexact HO
    isplitl [Ht]; · iexact Ht
    isplitl [Hp]; · rw [payload_bar_false]; iexact Hp
    iexact Hr
  iexact Hk

/-- The second signal, to `px c`'s barrier cell: its duty `true`, with the sixteen pieces that `px c`'s forwards write. -/
theorem step_sig_px (c : Dev nD) (dv : Dev nD) (hdv : dv = px c) (n : ℕ) (hn : n = 1) (W : Waits sig Unit)
    {α : Type} {Q : α → sProp 𝕄} {kont : PUnit → Prog (TpuEff nD τ sig (Elt F) Λ₀ .tc) α} :
    records m K
      ⊢ iprop(owes (c : Thread nD τ) (O₁ c) W -∗ dutyTok ER (barCell (px c)) 0 true -∗ barPayX (px c)
          -∗ (owes (c : Thread nD τ) (remY c 16) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (dv : Thread nD τ) barS n) kont) Q) := by
  subst hdv; subst hn
  iintro #Hrec HO Ht Hp Hk
  ihave #HI := (inv_bar m K (px c)) $$ Hrec
  ihave #Hr := (reached_bar m K (px c)) $$ Hrec
  iapply (Rounds.wp_signal 𝒱₀ ER (sched m) (c : Thread nD τ) none (dst := (px c : Thread nD τ)) (κ := K (px c, 0))
      (d := true) (by rw [duties_bar]; exact Finset.mem_univ _) (amount_bar m (px c) true) () (remY c 16) rfl) $$ [HO Ht Hp]
  · isplitr; · iexact HI
    isplitl [HO]; · iexact HO
    isplitl [Ht]; · iexact Ht
    isplitl [Hp]; · rw [payload_bar_true]; iexact Hp
    iexact Hr
  iexact Hk

/-- The wait for 2 on its own barrier cell: both neighbours are inside the kernel, and their pieces come with it. -/
theorem step_wait_bar (c : Dev nD) (W : Waits sig Unit)
    {w : TpuEff nD τ sig (Elt F) Λ₀ (c : Thread nD τ).2 PUnit} {k' : ℕ}
    (hw : ∀ Kc : PUnit → sProp 𝕄, wpE (defs₀ (F := F)) 𝒱₀ (c : Thread nD τ) none Set.univ w Kc = waitSpec (c : Thread nD τ) Set.univ (.reg barS) k' Kc)
    (hk' : k' = 2)
    {α : Type} {Q : α → sProp 𝕄} {kont : PUnit → Prog (TpuEff nD τ sig (Elt F) Λ₀ .tc) α} :
    records m K
      ⊢ iprop(cred (tallyAt (barCell c) () 2) -∗ owes (c : Thread nD τ) (remY c 16) W -∗ levAts L lv -∗ atPos ER (barCell c) 0 ∅ 0
          -∗ ((owes (c : Thread nD τ) (remY c 16) (insert (SemLoc.reg barS, ()) W) ∗ atPos ER (barCell c) 1 ∅ 0 ∗ barPayY c ∗ barPayX c)
              -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hk'
  iintro #Hrec Hc HO #Hlev Hat Hk
  ihave #HI := (inv_bar m K c) $$ Hrec
  iapply (Rounds.wp_wait_rest_token 𝒱₀ ER (sched m) (c : Thread nD τ) none (κ := K (c, 0))
      hw (Set.mem_univ _) () (O := remY c 16) (W := W) (R := 0) (m := 0) (T := ∅)
      (by rw [expect_bar])) $$ [Hc HO Hat]
  · isplitr; · iexact HI
    isplitl [Hc]; · iexact Hc
    isplitl [HO]; · iexact HO
    isplitr; · iapply (mayWait_bar c 16); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## The waits on the DMA cells -/

/-- A device that owes nothing may wait on anything. -/
theorem mayWait_zero (c : Dev nD) (s : SemLoc sig) : (levAts L lv : sProp 𝕄) ⊢ MayWait (c : Thread nD τ) s () 0 := by
  rw [MayWait_zero]; iintro -; iempintro

/-- A wait on the DMA cell of class `j`, chunk `k`, for its one duty's credit: the duty's payload comes with it. -/
theorem step_wait_dma (c : Dev nD) (j : Fin 4) (k : Fin 16) (O : CellTallies nD τ sig Unit) (W : Waits sig Unit)
    (s : DmaSem sig) (hs : s = dsem j k)
    (src dst : Memref sig .tc .vmem S32x512 .bf16) {hsrc : src.view.WordExact} {hdst : dst.view.WordExact}
    (hk' : dst.view.dmaCredit = N)
    (hmw : (levAts L lv : sProp 𝕄) ⊢ MayWait (c : Thread nD τ) (.dma (dsem j k)) () O)
    {α : Type} {Q : α → sProp 𝕄} {kont : PUnit → Prog (TpuEff nD τ sig (Elt F) Λ₀ .tc) α} :
    records m K
      ⊢ iprop(cred (tallyAt (dCell c j k) () N) -∗ owes (c : Thread nD τ) O W -∗ levAts L lv
          -∗ atPos ER (dCell c j k) 0 ∅ 0
          -∗ ((owes (c : Thread nD τ) O (insert (SemLoc.dma (dsem j k), ()) W) ∗ atPos ER (dCell c j k) 1 ∅ 0 ∗ dmaPay m c j k)
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 s src dst hsrc hdst) kont) Q) := by
  subst hs
  iintro #Hrec Hc HO #Hlev Hat Hk
  ihave #HI := (inv_dma m K c j k) $$ Hrec
  iapply (Rounds.wp_wait_rest_token 𝒱₀ ER (sched m) (c : Thread nD τ) none (κ := K (c, ci j k))
      (wpE_waitDma2_eq 𝒱₀ (c : Thread nD τ) none Set.univ) (Set.mem_univ _) () (O := O) (W := W) (R := 0) (m := 0) (T := ∅)
      (by rw [Nat.zero_add, expect_dma, hk'])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_dma m c j k)) $$ Hpay
  iapply Hk
  isplitl [HO]; · iexact HO
  isplitl [Hat]; · iexact Hat
  iexact Hp

/-- An own DMA cell after its one round closes: its counter at zero is the device's again. -/
theorem step_close (c : Dev nD) (j : Fin 4) (k : Fin 16) :
    iprop(records m K ∗ atPos ER (dCell c j k) 1 ∅ 0) ⊢ iprop(|={Set.univ}=> semVal (dCell c j k) 0) :=
  (sep_mono_left (inv_dma m K c j k)).trans
    (Rounds.cell_close ER (sched m) (Set.mem_univ (K (c, ci j k))) (fun h => h) (R := 0 + 1) (duties_later m (dCell c j k)))

/-! ## The transfers -/

theorem remY_succ (c : Dev nD) (k : Fin 16) (n : ℕ) (hn : k.val + n = 15) :
    remY c (n + 1) = remY c n + tallyAt (dCell (py c) 1 k) () N := by
  have hk : (⟨(15 - n) % 16, Nat.mod_lt _ (by decide)⟩ : Fin 16) = k := Fin.ext (by show (15 - n) % 16 = k.val; omega)
  show remY c n + tallyAt (dCell (py c) 1 ⟨(15 - n) % 16, Nat.mod_lt _ (by decide)⟩) () N = _
  rw [hk]
theorem remF_succ (c : Dev nD) (k : Fin 16) (n : ℕ) (hn : k.val + n = 15) :
    remF c (n + 1) = remF c n + tallyAt (dCell (px c) 3 k) () N := by
  have hk : (⟨(15 - n) % 16, Nat.mod_lt _ (by decide)⟩ : Fin 16) = k := Fin.ext (by show (15 - n) % 16 = k.val; omega)
  show remF c n + tallyAt (dCell (px c) 3 ⟨(15 - n) % 16, Nat.mod_lt _ (by decide)⟩) () N = _
  rw [hk]

/-- The transfer of staged chunk `k` to `py c`: it pays `c`'s own read cell (class 0) and `py c`'s landing cell (class 1);
    the landing leaves `py c`'s `Gout` on the 32 rows. `n` transfers remain after it. -/
theorem step_send_y (c : Dev nD) (k : Fin 16) (n : ℕ) (hn : k.val + n = 15) (W : Waits sig Unit)
    (dv : Dev nD) (hdv : dv = py c) (s1 s2 : DmaSem sig) (hs1 : s1 = dsem 0 k) (hs2 : s2 = dsem 1 k)
    {hsc : ((yDst c k) : Memref sig (Dev.tc dv : Thread nD τ).2.kind .vmem S32x512 .bf16).view.ref.isScScratch = false}
    {hsrc : (sbM k : Memref sig .tc .vmem S32x512 .bf16).view.WordExact} {hdst : (yDst c k : Memref sig .tc .vmem S32x512 .bf16).view.WordExact}
    {hsem : DmaTarget.Typed .vmem (.dma s2) (.remote (Dev.tc dv : Thread nD τ) (yDst c k : Memref sig .tc .vmem S32x512 .bf16) (.dma s1) hsc)}
    {α : Type} {Q : α → sProp 𝕄} {kont : PUnit → Prog (TpuEff nD τ sig (Elt F) Λ₀ .tc) α}
    (fd : Buf (Elt F) ((yDst c k).view.loc (py c : Thread nD τ))) :
    records m K
      ⊢ iprop(((sbM k).view.loc (c : Thread nD τ) ↦[(sbM k).view.set]{fullShare} SB m c)
          -∗ ((yDst c k).view.loc (py c : Thread nD τ) ↦[(yDst c k).view.set]{fullShare} fd)
          -∗ owes (c : Thread nD τ) (remY c (n + 1)) W
          -∗ dutyTok ER (dCell c 0 k) 0 false -∗ dutyTok ER (dCell (py c) 1 k) 0 false
          -∗ ((cred (tallyAt (dCell c 0 k) () N) ∗ owes (c : Thread nD τ) (remY c n) W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (sbM k) (.remote (Dev.tc dv : Thread nD τ) (yDst c k) (.dma s1) hsc) (.dma s2) hsrc hdst hsem) kont) Q) := by
  subst hdv; subst hs1; subst hs2
  iintro #Hrec Hsrc Hdst HO Ht1 Ht2 Hk
  ihave #HI1 := (inv_dma m K c 0 k) $$ Hrec
  ihave #HI2 := (inv_dma m K (py c) 1 k) $$ Hrec
  ihave #Hr1 := (reached_dma m K c 0 k) $$ Hrec
  ihave #Hr2 := (reached_dma m K (py c) 1 k) $$ Hrec
  iapply (Rounds.wp_send_pointsTo 𝒱₀ ER (sched m) (c : Thread nD τ) none (κ₁ := K (c, ci 0 k)) (κ₂ := K (py c, ci 1 k))
      (r₁ := 0) (r₂ := 0) (d₁ := false) (d₂ := false) (fd := fd)
      (by rw [duties_dma]; exact Finset.mem_singleton_self _) (by rw [duties_dma]; exact Finset.mem_singleton_self _)
      () () N rfl (amount_dma m c 0 k false) (amount_dma m (py c) 1 k false) (remY c n) (remY_succ c k n hn) (W := W)
      (by rw [payload_dma]; exact BI.Entails.refl _)
      (by
        rw [payload_dma]
        have e : dmaPay m (py c) 1 k = ((yDst c k).view.loc (py c : Thread nD τ) ↦[(yDst c k).view.set]{fullShare} Gout m (py c) : sProp 𝕄) :=
          congrArg (fun s : Dev nD => ((yDst s k).view.loc (py c : Thread nD τ) ↦[(yDst s k).view.set]{fullShare} Gout m (py c) : sProp 𝕄)) (py_py c)
        rw [e, pointsTo_congr (land_y_val m c k fd)])) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iexact Hk

/-- The forward of landed chunk `k` to `px c`: it pays `c`'s own read cell (class 2) and `px c`'s landing cell (class 3);
    the landing leaves `px c`'s `Gout` on the 32 rows. `n` forwards remain after it. -/
theorem step_send_x (c : Dev nD) (k : Fin 16) (n : ℕ) (hn : k.val + n = 15) (W : Waits sig Unit)
    (dv : Dev nD) (hdv : dv = px c) (s1 s2 : DmaSem sig) (hs1 : s1 = dsem 2 k) (hs2 : s2 = dsem 3 k)
    {hsc : ((fwdM c k) : Memref sig (Dev.tc dv : Thread nD τ).2.kind .vmem S32x512 .bf16).view.ref.isScScratch = false}
    {hsrc : (fwdM c k : Memref sig .tc .vmem S32x512 .bf16).view.WordExact} {hdst : (fwdM c k : Memref sig .tc .vmem S32x512 .bf16).view.WordExact}
    {hsem : DmaTarget.Typed .vmem (.dma s2) (.remote (Dev.tc dv : Thread nD τ) (fwdM c k : Memref sig .tc .vmem S32x512 .bf16) (.dma s1) hsc)}
    {α : Type} {Q : α → sProp 𝕄} {kont : PUnit → Prog (TpuEff nD τ sig (Elt F) Λ₀ .tc) α}
    (fd : Buf (Elt F) ((fwdM c k).view.loc (px c : Thread nD τ))) :
    records m K
      ⊢ iprop(((fwdM c k).view.loc (c : Thread nD τ) ↦[(fwdM c k).view.set]{fullShare} Gout m c)
          -∗ ((fwdM c k).view.loc (px c : Thread nD τ) ↦[(fwdM c k).view.set]{fullShare} fd)
          -∗ owes (c : Thread nD τ) (remF c (n + 1)) W
          -∗ dutyTok ER (dCell c 2 k) 0 false -∗ dutyTok ER (dCell (px c) 3 k) 0 false
          -∗ ((cred (tallyAt (dCell c 2 k) () N) ∗ owes (c : Thread nD τ) (remF c n) W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (fwdM c k) (.remote (Dev.tc dv : Thread nD τ) (fwdM c k) (.dma s1) hsc) (.dma s2) hsrc hdst hsem) kont) Q) := by
  subst hdv; subst hs1; subst hs2
  iintro #Hrec Hsrc Hdst HO Ht1 Ht2 Hk
  ihave #HI1 := (inv_dma m K c 2 k) $$ Hrec
  ihave #HI2 := (inv_dma m K (px c) 3 k) $$ Hrec
  ihave #Hr1 := (reached_dma m K c 2 k) $$ Hrec
  ihave #Hr2 := (reached_dma m K (px c) 3 k) $$ Hrec
  iapply (Rounds.wp_send_pointsTo 𝒱₀ ER (sched m) (c : Thread nD τ) none (κ₁ := K (c, ci 2 k)) (κ₂ := K (px c, ci 3 k))
      (r₁ := 0) (r₂ := 0) (d₁ := false) (d₂ := false) (fd := fd)
      (by rw [duties_dma]; exact Finset.mem_singleton_self _) (by rw [duties_dma]; exact Finset.mem_singleton_self _)
      () () N rfl (amount_dma m c 2 k false) (amount_dma m (px c) 3 k false) (remF c n) (remF_succ c k n hn) (W := W)
      (by rw [payload_dma]; exact BI.Entails.refl _)
      (by
        rw [payload_dma]
        have e : dmaPay m (px c) 3 k = ((fwdM c k).view.loc (px c : Thread nD τ) ↦[(fwdM c k).view.set]{fullShare} Gout m (px c) : sProp 𝕄) :=
          congrArg (fun s : Dev nD => ((fwdM s k).view.loc (px c : Thread nD τ) ↦[(fwdM s k).view.set]{fullShare} Gout m (px c) : sProp 𝕄)) (px_px c)
        rw [e, pointsTo_congr (land_x_val m c k fd)])) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iexact Hk

/-- A 32-row piece of the result buffer held at `Gout` does not depend on how its first row is spelt. -/
theorem out_piece_congr (c : Dev nD) (off off' : Fin 2 → Nat) (h : off = off')
    (inb : ∀ a, off a + S32x512.size a ≤ S2048x512.size a) (inb' : ∀ a, off' a + S32x512.size a ≤ S2048x512.size a) :
    (((oM.slice (Rect.unit (s := S2048x512) off S32x512.size inb) (fun _ => rfl) : Memref sig .tc .vmem S32x512 .bf16).view.loc (c : Thread nD τ)
        ↦[(oM.slice (Rect.unit (s := S2048x512) off S32x512.size inb) (fun _ => rfl) : Memref sig .tc .vmem S32x512 .bf16).view.set]{fullShare} Gout m c : sProp 𝕄))
      = ((oM.slice (Rect.unit (s := S2048x512) off' S32x512.size inb') (fun _ => rfl) : Memref sig .tc .vmem S32x512 .bf16).view.loc (c : Thread nD τ)
        ↦[(oM.slice (Rect.unit (s := S2048x512) off' S32x512.size inb') (fun _ => rfl) : Memref sig .tc .vmem S32x512 .bf16).view.set]{fullShare} Gout m c) := by
  subst h; rfl

/-- What `py c`'s transfer of chunk `k` leaves on `c` is what `c`'s forward of chunk `k` reads: the same rows, named from the
    two sides. -/
theorem land_to_fwd (c : Dev nD) (k : Fin 16) :
    (dmaPay m c 1 k : sProp 𝕄) = ((fwdM c k).view.loc (c : Thread nD τ) ↦[(fwdM c k).view.set]{fullShare} Gout m c) :=
  out_piece_congr m c _ _ (off_py_eq c k) _ _

end Cert.Kernel.A2A

end
-- ==== Proof.Kernel.Own.lean ====
/-
  The own half of the result buffer on the devices with `c % 2 = 0` (rows [0, 1024)) and with `c % 2 = 1` (rows [1024, 2048)),
  as the body's two local stores write it: the cast of the device's own column block of its block.
-/
import proofs.«900024_g7700000000000025_dist_a2a_v7x_xy2x2_y_m1024_n512_bf16_1_alg».proof.Proof.Kernel.Regions

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The own half as a memref, on the devices with `c % 2 = 0` and with `c % 2 = 1`. -/
abbrev ownM0 : Memref sig .tc .vmem S1024x512 .bf16 :=
  oM.slice (Rect.unit (s := S2048x512) ![0, 0] S1024x512.size inb_S2048x512_S1024x512_0_0) (fun _ => rfl)
abbrev ownM1 : Memref sig .tc .vmem S1024x512 .bf16 :=
  oM.slice (Rect.unit (s := S2048x512) ![1024, 0] S1024x512.size inb_S2048x512_S1024x512_1024_0) (fun _ => rfl)

theorem rect_unit_congr {s : Shape} (off off' sz : Fin s.rank → Nat) (h : off = off') (inb : ∀ a, off a + sz a ≤ s.size a) (inb' : ∀ a, off' a + sz a ≤ s.size a) :
    Rect.unit (s := s) off sz inb = Rect.unit (s := s) off' sz inb' := by subst h; rfl

theorem ownSet_y0 (c : Dev nD) (hy : c.val % 2 = 0) : ownSet c = (ownM0 : Memref sig .tc .vmem S1024x512 .bf16).view.set := by
  rw [own_set, show (ownM0 : Memref sig .tc .vmem S1024x512 .bf16).view.set = (Rect.unit (s := S2048x512) ![0, 0] S1024x512.size inb_S2048x512_S1024x512_0_0).set from View.set_slice_whole _ _]
  exact congrArg (fun r : Rect S2048x512 => r.set) (rect_unit_congr _ _ _ (by rw [hy]) _ _)
theorem ownSet_y1 (c : Dev nD) (hy : c.val % 2 = 1) : ownSet c = (ownM1 : Memref sig .tc .vmem S1024x512 .bf16).view.set := by
  rw [own_set, show (ownM1 : Memref sig .tc .vmem S1024x512 .bf16).view.set = (Rect.unit (s := S2048x512) ![1024, 0] S1024x512.size inb_S2048x512_S1024x512_1024_0).set from View.set_slice_whole _ _]
  exact congrArg (fun r : Rect S2048x512 => r.set) (rect_unit_congr _ _ _ (by rw [hy]) _ _)

/-- The cast payloads of the own half, at an index. -/
theorem k0_pay33_apply {F : FTy → Type} [FloatOps F] (v : Vec F S1024x512 .f32) (y : S1024x512.Idx) : k0_pay33 v y = cast1 (v y) := by
  unfold k0_pay33
  simp only [shapeCast_self]
  rfl
theorem k0_pay34_apply {F : FTy → Type} [FloatOps F] (v : Vec F S1024x512 .f32) (y : S1024x512.Idx) : k0_pay34 v y = cast1 (v y) := by
  unfold k0_pay34
  simp only [shapeCast_self]
  rfl

/-- `own_val` with the store's rectangle given by its offsets, however they are spelt. -/
theorem own_val_at {F : FTy → Type} [FloatOps F] (m : (ℓ : Loc nD τ sig) → Buf (Elt F) ℓ) (c : Dev nD)
    (g : Buf (Elt F) ((c : Thread nD τ).loc cc0_stg1_0))
    (ro : Fin 2 → Nat) (rinb : ∀ a, ro a + S1024x512.size a ≤ S2048x512.size a) (hro : ro = ![1024 * (c.val % 2), 0])
    (off : Fin 2 → Nat) (inb : ∀ a, off a + S1024x512.size a ≤ S1024x1024.size a) (hoff : off = ![0, 512 * (c.val % 2)])
    (pay : Vec F S1024x512 .f32 → FVec F S1024x512 .bf16) (hpay : ∀ v i, pay v i = cast1 (v i)) :
    ∀ i ∈ ((oM : Memref sig .tc .vmem S2048x512 .bf16).access (Rect.unit (s := S2048x512) ro S1024x512.size rinb) : View sig .tc _ _ _).set,
      (View.write (Elt F) ((oM : Memref sig .tc .vmem S2048x512 .bf16).access (Rect.unit (s := S2048x512) ro S1024x512.size rinb) : View sig .tc _ _ _) g
        (pay ((xM : Memref sig .tc .vmem S1024x1024 .f32).view.readAt (Elt F) (Rect.unit (s := S1024x1024) off S1024x512.size inb).toLoadRect (xstg m c))) Finset.univ) i
        = Gout m c i := by
  subst hro
  exact own_val m c g off inb hoff pay hpay

/-- On a device with `c % 2 = 0`: the cast of columns [0, 512) of its block, stored over anything on rows [0, 1024), is `Gout` there. -/
theorem own_val_y0 (c : Dev nD) (hy : c.val % 2 = 0) (g : Buf (Elt F) ((c : Thread nD τ).loc cc0_stg1_0)) :
    ∀ i ∈ (ownM0 : Memref sig .tc .vmem S1024x512 .bf16).view.set,
      (View.write (Elt F) ((oM : Memref sig .tc .vmem S2048x512 .bf16).access (Rect.unit (s := S2048x512) ![0, 0] S1024x512.size inb_S2048x512_S1024x512_0_0) : View sig .tc _ _ _) g
        (k0_pay33 ((xM : Memref sig .tc .vmem S1024x1024 .f32).view.readAt (Elt F) (Rect.unit (s := S1024x1024) ![0, 0] S1024x512.size inb_S1024x1024_S1024x512_0_0).toLoadRect (xstg m c))) Finset.univ) i
        = Gout m c i :=
  own_val_at m c g ![0, 0] inb_S2048x512_S1024x512_0_0 (by rw [hy]) ![0, 0] inb_S1024x1024_S1024x512_0_0 (by rw [hy]) k0_pay33 k0_pay33_apply

/-- On a device with `c % 2 = 1`: the cast of columns [512, 1024) of its block, stored over anything on rows [1024, 2048), is `Gout` there. -/
theorem own_val_y1 (c : Dev nD) (hy : c.val % 2 = 1) (g : Buf (Elt F) ((c : Thread nD τ).loc cc0_stg1_0)) :
    ∀ i ∈ (ownM1 : Memref sig .tc .vmem S1024x512 .bf16).view.set,
      (View.write (Elt F) ((oM : Memref sig .tc .vmem S2048x512 .bf16).access (Rect.unit (s := S2048x512) ![1024, 0] S1024x512.size inb_S2048x512_S1024x512_1024_0) : View sig .tc _ _ _) g
        (k0_pay34 ((xM : Memref sig .tc .vmem S1024x1024 .f32).view.readAt (Elt F) (Rect.unit (s := S1024x1024) ![0, 512] S1024x512.size inb_S1024x1024_S1024x512_0_512).toLoadRect (xstg m c))) Finset.univ) i
        = Gout m c i :=
  own_val_at m c g ![1024, 0] inb_S2048x512_S1024x512_1024_0 (by rw [hy]) ![0, 512] inb_S1024x1024_S1024x512_0_512 (by rw [hy]) k0_pay34 k0_pay34_apply

/-! ### Axioms -/

/-- info: 'Cert.Kernel.A2A.own_val_y0' depends on axioms: [propext, Classical.choice, Quot.sound] -/
#guard_msgs in #print axioms own_val_y0
/-- info: 'Cert.Kernel.A2A.own_val_y1' depends on axioms: [propext, Classical.choice, Quot.sound] -/
#guard_msgs in #print axioms own_val_y1

end Cert.Kernel.A2A

end
-- ==== Proof.Kernel.Finish.lean ====
/-
  The end of one device's body: every own cell has had its one round, every piece of the two buffers is back, nothing is
  owed. The 64 own cells close, the staging buffer joins back whole at what was staged, the result buffer whole at
  `Gout`, and that is what the pipeline is handed back.
-/
import proofs.«900024_g7700000000000025_dist_a2a_v7x_xy2x2_y_m1024_n512_bf16_1_alg».proof.Proof.Kernel.Steps

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 65 → ℕ)

/-- The 64 own cells close together: the records serve every cell, each closes under its own invariant. -/
theorem close_all (c : Dev nD) :
    iprop(records m K ∗ bigSep Finset.univ fun jk : Fin 4 × Fin 16 => atPos ER (dCell c jk.1 jk.2) 1 ∅ 0)
      ⊢ iprop(|={Set.univ}=> bigSep Finset.univ fun jk : Fin 4 × Fin 16 => semVal (dCell c jk.1 jk.2) 0) := by
  refine (sep_mono_left (BI.bigSep_of_persistent (Finset.univ : Finset (Fin 4 × Fin 16)) (records m K))).trans ?_
  rw [← bigSep_sep']
  exact (bigSep_mono fun jk _ => step_close m K c jk.1 jk.2).trans (bigSep_fupd _ _)

/-- A piece of a buffer named through two equal memrefs is one assertion. -/
theorem piece_congr (c : Dev nD) {X Y : Memref sig .tc .vmem S32x512 .bf16} (h : X = Y)
    (gX : Buf (Elt F) (X.view.loc (c : Thread nD τ))) (gY : Buf (Elt F) (Y.view.loc (c : Thread nD τ))) (hg : HEq gX gY) :
    (X.view.loc (c : Thread nD τ) ↦[X.view.set]{fullShare} gX : sProp 𝕄) = (Y.view.loc (c : Thread nD τ) ↦[Y.view.set]{fullShare} gY) := by
  subst h; rw [eq_of_heq hg]

/-- The sixteen staging chunks, each back at what was staged, are the staging buffer whole. -/
theorem sb_join (c : Dev nD) : (bigSep Finset.univ fun k : Fin 16 => dmaPay m c 0 k) ⊢ sPts c (SB m c) := by
  unfold sPts; rw [sb_split c (SB m c)]; exact Entails.rfl

/-- The own rows, the sixteen chunks landed from the neighbour on the second axis (back from their forward) and the
    sixteen landed from the neighbour on the first axis, all at the one function, are the result buffer whole. -/
theorem out_join (c : Dev nD) :
    iprop((((c : Thread nD τ).loc cc0_stg1_0) ↦[ownSet c]{fullShare} Gout m c)
        ∗ (bigSep Finset.univ fun k : Fin 16 => dmaPay m c 2 k) ∗ (bigSep Finset.univ fun k : Fin 16 => dmaPay m c 3 k))
      ⊢ ((((c : Thread nD τ).loc cc0_stg1_0) ↦{fullShare} Gout m c : sProp 𝕄)) := by
  have e2 (k : Fin 16) : dmaPay m c 2 k
      = ((yDst (py c) k).view.loc (c : Thread nD τ) ↦[(yDst (py c) k).view.set]{fullShare} Gout m c : sProp 𝕄) :=
    (piece_congr c (yDst_py_eq_fwd c k) (Gout m c) (Gout m c) HEq.rfl).symm
  rw [out_split c (Gout m c), bigSep_congr (s := Finset.univ) (fun (k : Fin 16) _ => e2 k)]
  exact Entails.rfl

/-- From what the last wait leaves to what the pipeline is handed back. -/
theorem body_finish (c : Dev nD) (W : Waits sig Unit) :
    iprop(records m K
      ∗ (bigSep Finset.univ fun jk : Fin 4 × Fin 16 => atPos ER (dCell c jk.1 jk.2) 1 ∅ 0)
      ∗ (bigSep Finset.univ fun k : Fin 16 => dmaPay m c 0 k)
      ∗ ((((c : Thread nD τ).loc cc0_stg1_0) ↦[ownSet c]{fullShare} Gout m c))
      ∗ (bigSep Finset.univ fun k : Fin 16 => dmaPay m c 2 k)
      ∗ (bigSep Finset.univ fun k : Fin 16 => dmaPay m c 3 k)
      ∗ owes (c : Thread nD τ) 0 W
      ∗ (((c : Thread nD τ).loc cc0_stg0_0) ↦{fullShare} xstg m c))
      ⊢ iprop(|={Set.univ}=> bodyPost m c) := by
  iintro ⟨#Hrec, Hat, HS, Hown, H2, H3, HO, Hx⟩
  imod (close_all m K c) $$ [Hat] with Hz
  · isplitr; · iexact Hrec
    iexact Hat
  imodintro
  unfold bodyPost Φ₁ stg Dat.owesAt Pipeline.owesWithin
  rw [show (dats m 0 c).owed t₀.succ = 0 from rfl]
  isplitl [HS Hz]
  · isplitl [HS]; · iapply (sb_join m c); iexact HS
    iexact Hz
  isplitl [HO]
  · iexists W
    isplitr; · ipureintro; exact fun x _ => Or.inl (Set.mem_univ x)
    iexact HO
  isplitl [Hx]
  · iexists (xstg m c); isplitr; · (ipureintro; rfl)
    iexact Hx
  iexists (Gout m c); isplitr; · (ipureintro; rfl)
  iapply (out_join m c)
  isplitl [Hown]; · iexact Hown
  isplitl [H2]; · iexact H2
  iexact H3

/-- info: 'Cert.Kernel.A2A.body_finish' depends on axioms: [propext, Classical.choice, Quot.sound] -/
#guard_msgs in #print axioms body_finish

end Cert.Kernel.A2A

end
-- ==== Proof.Kernel.BodyTac.lean ====
/-
  The tactics of one device's body: the steps of one 32-row chunk written once each, the loops that use them for the sixteen
  chunks, the common opening of the body and the run of one case of the second mesh coordinate.
-/
import proofs.«900024_g7700000000000025_dist_a2a_v7x_xy2x2_y_m1024_n512_bf16_1_alg».proof.Proof.Kernel.Steps
import proofs.«900024_g7700000000000025_dist_a2a_v7x_xy2x2_y_m1024_n512_bf16_1_alg».proof.Proof.Kernel.Own
import proofs.«900024_g7700000000000025_dist_a2a_v7x_xy2x2_y_m1024_n512_bf16_1_alg».proof.Proof.Kernel.Finish

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The pieces a device hands its neighbours at the barrier -/

/-- The sixteen chunks of `c`'s result buffer that `py c`'s transfers write, at any contents, are what `c`'s signal hands `py c`. -/
theorem barPayY_intro (c : Dev nD) (g : Buf (Elt F) ((c : Thread nD τ).loc cc0_stg1_0)) :
    (bigSep Finset.univ fun k : Fin 16 => (yDst (py c) k).view.loc (c : Thread nD τ) ↦[(yDst (py c) k).view.set]{fullShare} g : sProp 𝕄)
      ⊢ barPayY (py c) := by
  have e : (barPayY (py c) : sProp 𝕄)
      = (bigSep Finset.univ fun k : Fin 16 => iprop(∃ f, (yDst (py c) k).view.loc (c : Thread nD τ) ↦[(yDst (py c) k).view.set]{fullShare} f)) :=
    congrArg (fun s : Dev nD => (bigSep Finset.univ fun k : Fin 16 =>
      iprop(∃ f, (yDst (py c) k).view.loc (s : Thread nD τ) ↦[(yDst (py c) k).view.set]{fullShare} f) : sProp 𝕄)) (py_py c)
  rw [e]
  exact bigSep_mono fun k _ => exists_intro (Φ := fun f => ((yDst (py c) k).view.loc (c : Thread nD τ) ↦[(yDst (py c) k).view.set]{fullShare} f : sProp 𝕄)) g

/-- The sixteen chunks that `px c`'s forwards write, likewise, are what `c`'s signal hands `px c`. -/
theorem barPayX_intro (c : Dev nD) (g : Buf (Elt F) ((c : Thread nD τ).loc cc0_stg1_0)) :
    (bigSep Finset.univ fun k : Fin 16 => (fwdM (px c) k).view.loc (c : Thread nD τ) ↦[(fwdM (px c) k).view.set]{fullShare} g : sProp 𝕄)
      ⊢ barPayX (px c) := by
  have e : (barPayX (px c) : sProp 𝕄)
      = (bigSep Finset.univ fun k : Fin 16 => iprop(∃ f, (fwdM (px c) k).view.loc (c : Thread nD τ) ↦[(fwdM (px c) k).view.set]{fullShare} f)) :=
    congrArg (fun s : Dev nD => (bigSep Finset.univ fun k : Fin 16 =>
      iprop(∃ f, (fwdM (px c) k).view.loc (s : Thread nD τ) ↦[(fwdM (px c) k).view.set]{fullShare} f) : sProp 𝕄)) (px_px c)
  rw [e]
  exact bigSep_mono fun k _ => exists_intro (Φ := fun f => ((fwdM (px c) k).view.loc (c : Thread nD τ) ↦[(fwdM (px c) k).view.set]{fullShare} f : sProp 𝕄)) g

/-- A device's positions: its barrier cell's and, class by class, its DMA cells'. -/
theorem positions_eq (c : Dev nD) :
    (positions c : sProp 𝕄) = iprop(atPos ER (barCell c) 0 ∅ 0
      ∗ (bigSep Finset.univ fun k : Fin 16 => atPos ER (dCell c 0 k) 0 ∅ 0) ∗ (bigSep Finset.univ fun k : Fin 16 => atPos ER (dCell c 1 k) 0 ∅ 0)
      ∗ (bigSep Finset.univ fun k : Fin 16 => atPos ER (dCell c 2 k) 0 ∅ 0) ∗ (bigSep Finset.univ fun k : Fin 16 => atPos ER (dCell c 3 k) 0 ∅ 0)) := by
  unfold positions
  rw [bigSep_cells, bigSep_jk]
  simp only [kcell_ci]
  rfl

/-- The argument's staging buffer held whole, through the memref's view. -/
theorem xPts_eq (c : Dev nD) (f : Buf (Elt F) ((c : Thread nD τ).loc cc0_stg0_0)) :
    ((xM : Memref sig .tc .vmem S1024x1024 .f32).view.loc (c : Thread nD τ) ↦[(xM : Memref sig .tc .vmem S1024x1024 .f32).view.set]{fullShare} f : sProp 𝕄)
      = (((c : Thread nD τ).loc cc0_stg0_0) ↦{fullShare} f) := by
  rw [View.set_whole]

/-! ## The body

The steps of one 32-row chunk are the same for every chunk; each is written once, as a macro over the chunk's number and the
printed names that belong to it, and used sixteen times. -/

set_option hygiene false in
/-- Chunk `k` of the first exchange: the staging store (on the branch this device takes), the stored chunk read as `SB`, and its
    transfer to `py c`; `n` transfers remain after it. -/
macro "stage_send " k:num n:num cA:ident cB:ident off:ident offInb:ident offEq:ident hcUse:ident devEq:ident
    hs:ident hd:ident fy:ident ts:ident ty:ident hcs:ident : tactic =>
  `(tactic| (
    have hcA := $cA c hy
    have hcB := $cB c hy
    sl_exec
    sl_unfold_run_names
    ihave $hs:ident := (Entails.of_eq (pointsTo_congr (sb_val m c $k f0 ($off c) ($offInb c $hcUse) (by rw [$offEq:ident, hy]; rfl)))) $$ $hs:ident
    iapply (step_send_y m K c $k $n rfl _ _ ($devEq c) _ _ rfl rfl $fy) $$ Hrec $hs:ident $hd:ident HO $ts:ident $ty:ident
    iintro ⟨$hcs:ident, HO⟩))

set_option hygiene false in
/-- Chunk `k` of the second exchange: the wait for `py c`'s transfer of chunk `k` (`n1` forwards are still owed), the landed rows
    read as the forward's source, and their forward to `px c` (`n` remain after it). -/
macro "land_forward " k:num n:num n1:num devEq:ident hcy:ident hay:ident hl:ident hdx:ident fx:ident tf:ident tx:ident hcf:ident : tactic =>
  `(tactic| (
    try sl_exec
    iapply (step_wait_dma m K c 1 $k (remF c $n1) _ _ rfl (sbM $k) (yDst c $k) rfl (mayWait_land c $k $n1))
      $$ Hrec $hcy:ident HO Hlev $hay:ident
    iintro ⟨HO, $hay:ident, $hl:ident⟩
    ihave $hl:ident := (Entails.of_eq (land_to_fwd m c $k)) $$ $hl:ident
    sl_exec
    iapply (step_send_x m K c $k $n rfl _ _ ($devEq c) _ _ rfl rfl $fx) $$ Hrec $hl:ident $hdx:ident HO $tf:ident $tx:ident
    iintro ⟨$hcf:ident, HO⟩))

set_option hygiene false in
/-- A wait on the own DMA cell of class `j`, chunk `k`, with nothing owed: the duty's payload comes back as `hp`. -/
macro "wait_free " j:num k:num src:term:max dst:term:max hc:ident ha:ident hp:ident : tactic =>
  `(tactic| (
    try sl_exec
    iapply (step_wait_dma m K c $j $k 0 _ _ rfl $src $dst rfl (mayWait_zero c _))
      $$ Hrec $hc:ident HO Hlev $ha:ident
    iintro ⟨HO, $ha:ident, $hp:ident⟩))

open Lean Elab Tactic in
set_option hygiene false in
/-- `unpack16 H P`: the sixteen conjuncts of `H`, a conjunction over the chunks, as `P0`, …, `P15`. -/
elab "unpack16 " h:ident pre:ident : tactic => do
  let name (i : Nat) : Ident := mkIdent (Name.mkSimple s!"{pre.getId}{i}")
  let rest (i : Nat) : Ident := mkIdent (Name.mkSimple s!"{pre.getId}_rest{i}")
  evalTactic (← `(tactic| ihave $(rest 0):ident := (Entails.of_eq (bigSep_fin16 _)) $$ $h:ident))
  for i in [0:14] do
    evalTactic (← `(tactic| icases $(rest i):ident with ⟨$(name i):ident, $(rest (i+1)):ident⟩))
  evalTactic (← `(tactic| icases $(rest 14):ident with ⟨$(name 14):ident, $(name 15):ident⟩))

open Lean Elab Tactic in
set_option hygiene false in
/-- The first exchange, chunk by chunk, on the devices with `c % 2 = y`: chunk `k`'s conditions are the printed `k0_cond(2k+1)`,
    `k0_cond(2k+2)`, its load's offsets the printed `k0_off` of the branch taken, its transfer's device chain `k0_dev(3+k)`. -/
elab "first_exchange " y:num : tactic => do
  let yv := y.getNat
  let id (s : String) : Ident := mkIdent (Name.mkSimple s)
  let num (n : Nat) := Syntax.mkNumLit (toString n)
  for k in [0:16] do
    let o := if yv == 0 then (if k == 0 then 1 else 2 * k + 2) else (if k == 0 then 2 else 2 * k + 3)
    let hcUse := if yv == 0 then id "hcA" else id "hcB"
    evalTactic (← `(tactic| stage_send $(num k) $(num (15 - k)) $(id s!"cond{2 * k + 1}_y{yv}") $(id s!"cond{2 * k + 2}_y{yv}")
      $(id s!"k0_off{o}") $(id s!"k0_off{o}_inb") $(id s!"k0_off{o}_eq") $hcUse $(id s!"dev{3 + k}_eq")
      $(id s!"Hs{k}") $(id s!"HdY{k}") $(id s!"fy{k}") $(id s!"HtS{k}") $(id s!"HtY{k}") $(id s!"HcS{k}")))

open Lean Elab Tactic in
set_option hygiene false in
/-- The second exchange, chunk by chunk: chunk `k`'s forward addresses the printed device chain `k0_dev(19+k)`. -/
elab "second_exchange" : tactic => do
  let id (s : String) : Ident := mkIdent (Name.mkSimple s)
  let num (n : Nat) := Syntax.mkNumLit (toString n)
  for k in [0:16] do
    evalTactic (← `(tactic| land_forward $(num k) $(num (15 - k)) $(num (16 - k)) $(id s!"dev{19 + k}_eq")
      $(id s!"HcY{k}") $(id s!"HaY{k}") $(id s!"HL{k}") $(id s!"HdX{k}") $(id s!"fx{k}") $(id s!"HtF{k}") $(id s!"HtX{k}") $(id s!"HcF{k}")))

open Lean Elab Tactic in
set_option hygiene false in
/-- The sixteen waits for `px c`'s forwards. -/
elab "last_landings" : tactic => do
  let id (s : String) : Ident := mkIdent (Name.mkSimple s)
  let num (n : Nat) := Syntax.mkNumLit (toString n)
  for k in [0:16] do
    evalTactic (← `(tactic| wait_free 3 $(num k) (fwdM c $(num k)) (fwdM c $(num k)) $(id s!"HcX{k}") $(id s!"HaX{k}") $(id s!"HR{k}")))

open Lean Elab Tactic in
set_option hygiene false in
/-- The thirty-two waits for the device's own transfers and forwards to have read their sources. -/
elab "reads_done" : tactic => do
  let id (s : String) : Ident := mkIdent (Name.mkSimple s)
  let num (n : Nat) := Syntax.mkNumLit (toString n)
  for k in [0:16] do
    evalTactic (← `(tactic| wait_free 0 $(num k) (yDst c $(num k)) (sbM $(num k)) $(id s!"HcS{k}") $(id s!"HaS{k}") $(id s!"HB{k}")))
    evalTactic (← `(tactic| wait_free 2 $(num k) (fwdM c $(num k)) (fwdM c $(num k)) $(id s!"HcF{k}") $(id s!"HaF{k}") $(id s!"HF{k}")))

open Lean Elab Tactic in
set_option hygiene false in
/-- `pack16 P`: a goal that is a conjunction over the chunks, from the hypotheses `P0`, …, `P15`. -/
elab "pack16 " pre:ident : tactic => do
  let name (i : Nat) : Ident := mkIdent (Name.mkSimple s!"{pre.getId}{i}")
  evalTactic (← `(tactic| iapply (Entails.of_eq (bigSep_fin16 _).symm)))
  for i in [0:15] do
    evalTactic (← `(tactic| isplitl [$(name i):ident]))
    evalTactic (← `(tactic| iexact $(name i):ident))
  evalTactic (← `(tactic| iexact $(name 15):ident))

open Lean Elab Tactic in
set_option hygiene false in
/-- `gather16 H P : T`: the hypotheses `P0`, …, `P15` as ONE hypothesis `H` of the stated conjunction `T` over the chunks. -/
elab "gather16 " h:ident pre:ident " : " T:term : tactic => do
  let name (i : Nat) : Ident := mkIdent (Name.mkSimple s!"{pre.getId}{i}")
  let frames ← (List.range 16).toArray.mapM fun i => `(frameIdent| $(name i):ident)
  evalTactic (← `(tactic| ihave $h:ident : $T $$ [$frames*]))
  evalTactic (← `(tactic| focus (pack16 $pre)))

set_option hygiene false in
/-- The body's opening, common to all devices: what the pipeline hands over taken apart, the result buffer cut into its
    pieces, the two signals with the neighbours' pieces, the barrier wait, and everything indexed by the chunk named chunk
    by chunk. -/
macro "open_body" : tactic =>
  `(tactic| (
    unfold bodyPre Φ₀ start G' creds linear payToks
    iintro ⟨⟨⟨⟨%K, #Hrec, ⟨Hpos, HtBy, HtBx, HtY, HtX, HtS, HtF⟩⟩, ⟨HcB, HcY, HcX⟩, #Hlev⟩, ⟨%f0, Hs⟩⟩, Ho, ⟨%d0, %g0, %hg0, Hx⟩, ⟨%d1, %g1, %hg1, Hout⟩⟩
    have hx : g0 = xstg m c := by rw [hg0]; unfold Dat.before; rw [if_pos (fetch0_0 t₀)]; rfl
    subst hx
    unfold Dat.owesAt Pipeline.owesWithin
    icases Ho with ⟨%W, %hW, HO⟩
    rw [show (dats m 0 c).owed t₀.castSucc = O₀ c from rfl]
    -- the result buffer, piece by piece; the two neighbours' pieces go with the signals
    ihave Hout' := (Entails.of_eq (out_split c g1)) $$ Hout
    icases Hout' with ⟨Hown, HyL, HxL⟩
    ihave HpY := (barPayY_intro c g1) $$ HyL
    ihave HpX := (barPayX_intro c g1) $$ HxL
    ihave Hpos' := (Entails.of_eq (positions_eq c)) $$ Hpos
    icases Hpos' with ⟨HaB, HaS, HaY, HaF, HaX⟩
    sl_unfold [cc0_body]
    sl_exec
    iapply (step_sig_py m K c _ (dev1_eq c) _ rfl W) $$ Hrec HO HtBy HpY
    iintro HO
    sl_exec
    iapply (step_sig_px m K c _ (dev2_eq c) _ rfl W) $$ Hrec HO HtBx HpX
    iintro HO
    sl_exec
    iapply (step_wait_bar m K c W (wpE_semWait_eq 𝒱₀ (c : Thread nD τ) none Set.univ) rfl) $$ Hrec HcB HO Hlev HaB
    iintro ⟨HO, HaB, HpY, HpX⟩
    -- everything indexed by the chunk, chunk by chunk
    unfold sPts
    ihave HsAll := (Entails.of_eq (sb_split c f0)) $$ Hs
    unpack16 HsAll Hs
    unfold barPayY barPayX
    ihave HpYr := (Entails.of_eq (bigSep_fin16 _)) $$ HpY
    icases HpYr with ⟨⟨%fy0, HdY0⟩, ⟨%fy1, HdY1⟩, ⟨%fy2, HdY2⟩, ⟨%fy3, HdY3⟩, ⟨%fy4, HdY4⟩, ⟨%fy5, HdY5⟩, ⟨%fy6, HdY6⟩, ⟨%fy7, HdY7⟩, ⟨%fy8, HdY8⟩, ⟨%fy9, HdY9⟩, ⟨%fy10, HdY10⟩, ⟨%fy11, HdY11⟩, ⟨%fy12, HdY12⟩, ⟨%fy13, HdY13⟩, ⟨%fy14, HdY14⟩, ⟨%fy15, HdY15⟩⟩
    ihave HpXr := (Entails.of_eq (bigSep_fin16 _)) $$ HpX
    icases HpXr with ⟨⟨%fx0, HdX0⟩, ⟨%fx1, HdX1⟩, ⟨%fx2, HdX2⟩, ⟨%fx3, HdX3⟩, ⟨%fx4, HdX4⟩, ⟨%fx5, HdX5⟩, ⟨%fx6, HdX6⟩, ⟨%fx7, HdX7⟩, ⟨%fx8, HdX8⟩, ⟨%fx9, HdX9⟩, ⟨%fx10, HdX10⟩, ⟨%fx11, HdX11⟩, ⟨%fx12, HdX12⟩, ⟨%fx13, HdX13⟩, ⟨%fx14, HdX14⟩, ⟨%fx15, HdX15⟩⟩
    unpack16 HtY HtY
    unpack16 HtX HtX
    unpack16 HtS HtS
    unpack16 HtF HtF
    unpack16 HcY HcY
    unpack16 HcX HcX
    unpack16 HaS HaS
    unpack16 HaY HaY
    unpack16 HaF HaF
    unpack16 HaX HaX
    ihave Hx := (Entails.of_eq (xPts_eq c _).symm) $$ Hx
))

set_option hygiene false in
/-- One case of the second mesh coordinate `y = c % 2`, with the own half's memref and its two lemmas for that case: the first
    exchange, the own half stored, the second exchange, the last landings, the sources read, and the hand-back. -/
macro "run_case " y:num ownM:ident ownSetY:ident ownVal:ident : tactic =>
  `(tactic| (
      rw [$ownSetY:ident c hy]
      ihave Hown := (Entails.of_eq (show ((((c : Thread nD τ).loc cc0_stg1_0) ↦[($ownM : Memref sig .tc .vmem S1024x512 .bf16).view.set]{fullShare} g1 : sProp (MT nD τ sig Unit (Elt F) ℕ UU ℕ)))
          = (($ownM : Memref sig .tc .vmem S1024x512 .bf16).view.loc (c : Thread nD τ) ↦[($ownM : Memref sig .tc .vmem S1024x512 .bf16).view.set]{fullShare} g1) from rfl)) $$ Hown
      first_exchange $y
      sl_exec
      sl_unfold_run_names
      ihave Hown := (Entails.of_eq (pointsTo_congr ($ownVal:ident m c hy g1))) $$ Hown
      rw [show remY c 0 = remF c 16 from rfl]
      second_exchange
      rw [show remF c 0 = (0 : CellTallies nD τ sig Unit) from rfl]
      last_landings
      reads_done
      try sl_exec
      -- everything indexed by the chunk, gathered again
      gather16 HBall HB : (bigSep Finset.univ fun k : Fin 16 => dmaPay m c 0 k)
      gather16 HFall HF : (bigSep Finset.univ fun k : Fin 16 => dmaPay m c 2 k)
      gather16 HRall HR : (bigSep Finset.univ fun k : Fin 16 => dmaPay m c 3 k)
      gather16 HaSall HaS : (bigSep Finset.univ fun k : Fin 16 => atPos ER (dCell c 0 k) 1 ∅ 0)
      gather16 HaYall HaY : (bigSep Finset.univ fun k : Fin 16 => atPos ER (dCell c 1 k) 1 ∅ 0)
      gather16 HaFall HaF : (bigSep Finset.univ fun k : Fin 16 => atPos ER (dCell c 2 k) 1 ∅ 0)
      gather16 HaXall HaX : (bigSep Finset.univ fun k : Fin 16 => atPos ER (dCell c 3 k) 1 ∅ 0)
      ihave Hpos1 : (bigSep Finset.univ fun jk : Fin 4 × Fin 16 => atPos ER (dCell c jk.1 jk.2) 1 ∅ 0) $$ [HaSall HaYall HaFall HaXall]
      · iapply (Entails.of_eq (bigSep_jk _).symm)
        isplitl [HaSall]; · iexact HaSall
        isplitl [HaYall]; · iexact HaYall
        isplitl [HaFall]; · iexact HaFall
        iexact HaXall
      ihave Hx := (Entails.of_eq (xPts_eq c _)) $$ Hx
      ihave Hown := (Entails.of_eq (show ((($ownM : Memref sig .tc .vmem S1024x512 .bf16).view.loc (c : Thread nD τ) ↦[($ownM : Memref sig .tc .vmem S1024x512 .bf16).view.set]{fullShare} Gout m c : sProp (MT nD τ sig Unit (Elt F) ℕ UU ℕ)))
          = (((c : Thread nD τ).loc cc0_stg1_0) ↦[ownSet c]{fullShare} Gout m c) from by rw [$ownSetY:ident c hy])) $$ Hown
      imod (body_finish m K c _) $$ [Hpos1 HBall Hown HFall HRall HO Hx] with Hpost
      · isplitr; · iexact Hrec
        isplitl [Hpos1]; · iexact Hpos1
        isplitl [HBall]; · iexact HBall
        isplitl [Hown]; · iexact Hown
        isplitl [HFall]; · iexact HFall
        isplitl [HRall]; · iexact HRall
        isplitl [HO]; · iexact HO
        iexact Hx
      rw [wp_ret]
      imodintro
      iexact Hpost
))

end Cert.Kernel.A2A

end
-- ==== Proof.Kernel.Body0.lean ====
/-
  One device's body on the devices whose second mesh coordinate `c % 2` is 0: their staging stores take the odd-numbered
  branches and their own half is rows [0, 1024).
-/
import proofs.«900024_g7700000000000025_dist_a2a_v7x_xy2x2_y_m1024_n512_bf16_1_alg».proof.Proof.Kernel.BodyTac

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

set_option maxHeartbeats 64000000 in
set_option maxRecDepth 8000 in
/-- The body of a device with `c % 2 = 0`, from `bodyPre` to `bodyPost`. -/
theorem sound_body_y0 (c : Dev nD) (hy : c.val % 2 = 0) :
    bodyPre m c ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) (fun _ => bodyPost m c) := by
  open_body
  run_case 0 ownM0 ownSet_y0 own_val_y0

end Cert.Kernel.A2A

end
-- ==== Proof.Kernel.Body1.lean ====
/-
  One device's body on the devices whose second mesh coordinate `c % 2` is 1: their staging stores take the even-numbered
  branches and their own half is rows [1024, 2048).
-/
import proofs.«900024_g7700000000000025_dist_a2a_v7x_xy2x2_y_m1024_n512_bf16_1_alg».proof.Proof.Kernel.BodyTac

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

set_option maxHeartbeats 64000000 in
set_option maxRecDepth 8000 in
/-- The body of a device with `c % 2 = 1`, from `bodyPre` to `bodyPost`. -/
theorem sound_body_y1 (c : Dev nD) (hy : c.val % 2 = 1) :
    bodyPre m c ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) (fun _ => bodyPost m c) := by
  open_body
  run_case 1 ownM1 ownSet_y1 own_val_y1

end Cert.Kernel.A2A

end
-- ==== Proof.Kernel.Body.lean ====
/-
  One device's body, at a symbolic device: the two cases of the second mesh coordinate put together, and the body
  lemma handed to the pipeline library as its body obligation.
-/
import proofs.«900024_g7700000000000025_dist_a2a_v7x_xy2x2_y_m1024_n512_bf16_1_alg».proof.Proof.Kernel.Body0
import proofs.«900024_g7700000000000025_dist_a2a_v7x_xy2x2_y_m1024_n512_bf16_1_alg».proof.Proof.Kernel.Body1

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body of device `c`, from `bodyPre` to `bodyPost`. -/
theorem sound_body (c : Dev nD) :
    bodyPre m c ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) (fun _ => bodyPost m c) := by
  rcases Nat.mod_two_eq_zero_or_one c.val with hy | hy
  · exact sound_body_y0 m c hy
  · exact sound_body_y1 m c hy

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) (fun _ => bodyPost m c)
  exact sound_body m c

/-- info: 'Cert.Kernel.A2A.body_obligation' depends on axioms: [propext, Classical.choice, Quot.sound] -/
#guard_msgs in #print axioms body_obligation

end Cert.Kernel.A2A

end
-- ==== Proof.Kernel.Launch.lean ====
/-
  The launch: from every device's body obligation to the run of @main on the four devices. Every weakly fair
  execution terminates, and each window's array ends at the proof data's final contents.

  The launch element funds the 65 cells of every device and mints, per owner, the tokens of its cells' duties; the
  global step puts every cell's counter, at zero, under its invariant, and deals each token to the device that pays
  the duty: a barrier cell's two tokens to the owner's two mesh neighbours, the tokens of the cells a neighbour's
  copies land on to that neighbour, the tokens of the cells its own copies are read on to the owner itself.
-/
import proofs.«900024_g7700000000000025_dist_a2a_v7x_xy2x2_y_m1024_n512_bf16_1_alg».proof.Proof.Kernel.Body
import proofs.«900024_g7700000000000025_dist_a2a_v7x_xy2x2_y_m1024_n512_bf16_1_alg».proof.Proof.Kernel.Cells
import Mathlib.Algebra.BigOperators.Fin

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

namespace AtLaunch

/-! ## The kernel's own semaphores, the cells, the tokens -/

/-- The kernel's own (scoped) semaphores, as the launch indexes them: the DMA semaphore of each class and chunk. -/
abbrev osem : Fin 4 × Fin 16 → SemLoc sig := fun jk => .dma (dsem jk.1 jk.2)

theorem dsem_inj {j j' : Fin 4} {k k' : Fin 16} (h : dsem j k = dsem j' k') : j = j' ∧ k = k' :=
  ⟨(jOf_dsem j k).symm.trans ((congrArg jOf h).trans (jOf_dsem j' k')), (kOf_dsem j k).symm.trans ((congrArg kOf h).trans (kOf_dsem j' k'))⟩

theorem ownSemFacts : Pipeline.OwnSemFacts cfg0.spec osem where
  isScoped := by decide
  inj := fun a b h => by
    obtain ⟨h1, h2⟩ := dsem_inj (SemLoc.dma.inj h)
    exact Prod.ext h1 h2
  disj := by decide

theorem share_eq (c : Dev nD) (w : Fin cfg0.W) : (dats m 0 c).share w = fullShare := by unfold Dat.share; split <;> rfl

set_option maxRecDepth 8000 in
theorem csem_injective : Function.Injective (csem : Fin 65 → SemLoc sig) := by intro a b; revert a b; decide

theorem kcell_injective : Function.Injective (kcell : Dev nD × Fin 65 → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

/-- Every device's 65 cells. -/
def cellSet : Finset (GSem nD τ sig) := Finset.univ.map ⟨kcell, kcell_injective⟩

theorem dCell_inj {c c' : Dev nD} {j j' : Fin 4} {k k' : Fin 16} (h : dCell c j k = dCell c' j' k') : c = c' ∧ j = j' ∧ k = k' :=
  ⟨congrArg (fun g : GSem nD τ sig => g.1.1) h, dsem_inj (SemLoc.dma.inj (congrArg Prod.snd h))⟩

/-- The duty tokens minted for the cells of a device: both duties of its barrier cell, the one duty of each DMA cell. -/
abbrev tokOf (x : Dev nD × (Bool ⊕ (Fin 4 × Fin 16))) : GSem nD τ sig × ℕ × Bool :=
  match x.2 with
  | .inl d => (barCell x.1, 0, d)
  | .inr jk => (dCell x.1 jk.1 jk.2, 0, false)

theorem tokOf_injective : Function.Injective (tokOf : Dev nD × (Bool ⊕ (Fin 4 × Fin 16)) → GSem nD τ sig × ℕ × Bool) := by
  rintro ⟨c, (d | ⟨j, k⟩)⟩ ⟨c', (d' | ⟨j', k'⟩)⟩ h
  · have h1 : c = c' := congrArg (fun x : GSem nD τ sig × ℕ × Bool => x.1.1.1) h
    have h2 : d = d' := congrArg (fun x : GSem nD τ sig × ℕ × Bool => x.2.2) h
    rw [h1, h2]
  · exact absurd (congrArg (fun x : GSem nD τ sig × ℕ × Bool => x.1.2) h) (fun h' => by cases h')
  · exact absurd (congrArg (fun x : GSem nD τ sig × ℕ × Bool => x.1.2) h) (fun h' => by cases h')
  · obtain ⟨h1, h2, h3⟩ : c = c' ∧ j = j' ∧ k = k' := dCell_inj (congrArg (fun x : GSem nD τ sig × ℕ × Bool => x.1) h)
    rw [h1, h2, h3]

def tokSet : Finset (GSem nD τ sig × ℕ × Bool) := Finset.univ.map ⟨tokOf, tokOf_injective⟩

/-- The launch element: the pipeline library's, and the exchange's cells and tokens. -/
def u₀ : UU :=
  (initOf (Pipeline.cells cfgs cellOf_inj) (Pipeline.launchToks cfgs cellOf_inj), initOf cellSet tokSet)

/-- The duty tokens of device c's own cells, as minted. -/
def toks (c : Dev nD) : sProp 𝕄 :=
  iprop((dutyTok ER (barCell c) 0 false ∗ dutyTok ER (barCell c) 0 true)
    ∗ bigSep Finset.univ fun jk : Fin 4 × Fin 16 => dutyTok ER (dCell c jk.1 jk.2) 0 false)

/-- What the launch element deals device c (the launch theorem's G). -/
def G (c : Dev nD) : sProp 𝕄 :=
  iprop((bigSep Finset.univ fun i : Fin 65 => roundState ER (sched m) (kcell (c, i)) 0)
    ∗ (bigSep Finset.univ fun i : Fin 65 => iprop(atPos ER (kcell (c, i)) 0 ∅ 0 ∗ reached ER (kcell (c, i)) 0)) ∗ toks c)

theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun i : Fin 65 => Φ (kcell (c, i)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by
      unfold toks
      rw [bigSep_univ_sum, bigSep_univ_eq_bigSepL [false, true] (by decide) (by decide), bigSepL_cons_cons, bigSepL_singleton]
      rfl
  iintro HX
  imod (Rounds.fund ER (sched m) cellSet tokSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's counter under its invariant, the tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 65 => semVal (kcell (c, i)) 0 : sProp 𝕄) := by
  have e : (fun jk : Fin 4 × Fin 16 => (semVal (kcell (c, ci jk.1 jk.2)) 0 : sProp 𝕄)) = fun jk => semVal ((c : Thread nD τ), osem jk) 0 :=
    funext fun jk => by rw [kcell_ci]
  rw [unscopedSems0_eq, bigSep_cells, e]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 65 => iprop(∃ κ : ℕ, cellInv ER (sched m) κ (kcell (c, i))))
          ∗ (bigSep Finset.univ fun i : Fin 65 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 65 => semVal (kcell (c, i)) 0) ∗ bigSep Finset.univ fun i : Fin 65 => roundState ER (sched m) (kcell (c, i)) 0)
      ⊢ (|={Set.univ}=> bigSep Finset.univ fun i : Fin 65 => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 65 → ℕ) (c : Dev nD) : iprop(records m K ∗ linear c) ⊢ G' m c := by
  unfold G'
  iintro H
  iexists K
  iexact H

/-- The two mesh neighbours, as permutations of the devices. -/
def pyE : Dev nD ≃ Dev nD := ⟨py, py, py_py, py_py⟩
def pxE : Dev nD ≃ Dev nD := ⟨px, px, px_px, px_px⟩

theorem deal (e : Dev nD ≃ Dev nD) (Φ : Dev nD → sProp 𝕄) : bigSep Finset.univ Φ ⊢ bigSep Finset.univ fun c => Φ (e c) :=
  Entails.of_eq (bigSep_univ_equiv e Φ)

theorem toks_eq (c : Dev nD) : (toks c : sProp 𝕄) = iprop((dutyTok ER (barCell c) 0 false ∗ dutyTok ER (barCell c) 0 true)
    ∗ (bigSep Finset.univ fun k : Fin 16 => dutyTok ER (dCell c 0 k) 0 false) ∗ (bigSep Finset.univ fun k : Fin 16 => dutyTok ER (dCell c 1 k) 0 false)
    ∗ (bigSep Finset.univ fun k : Fin 16 => dutyTok ER (dCell c 2 k) 0 false) ∗ (bigSep Finset.univ fun k : Fin 16 => dutyTok ER (dCell c 3 k) 0 false)) := by
  unfold toks; rw [bigSep_jk]

/-- The tokens dealt over the mesh: a barrier cell's duty false to the owner's neighbour on the second axis and its duty true
    to the neighbour on the first; the tokens of the cells a neighbour's copies land on to that neighbour; the tokens of
    the cells the owner's own copies are read on stay. -/
theorem toks_around : (bigSep Finset.univ fun c : Dev nD => (toks c : sProp 𝕄)) ⊢ bigSep Finset.univ fun c : Dev nD => payToks c := by
  rw [bigSep_congr (fun c _ => toks_eq c)]
  unfold payToks
  simp only [bigSep_sep']
  iintro ⟨⟨HF, HT⟩, H0, H1, H2, H3⟩
  isplitl [HF]; · iapply (deal pyE fun c => dutyTok ER (barCell c) 0 false); iexact HF
  isplitl [HT]; · iapply (deal pxE fun c => dutyTok ER (barCell c) 0 true); iexact HT
  isplitl [H1]; · iapply (deal pyE fun c => bigSep Finset.univ fun k : Fin 16 => dutyTok ER (dCell c 1 k) 0 false); iexact H1
  isplitl [H3]; · iapply (deal pxE fun c => bigSep Finset.univ fun k : Fin 16 => dutyTok ER (dCell c 3 k) 0 false); iexact H3
  isplitl [H0]; · iexact H0
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Fin 65 => iprop(∃ κ : ℕ, cellInv ER (sched m) κ (kcell (c, i))))
          ∗ (bigSep Finset.univ fun i : Fin 65 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 65 => iprop(∃ κ : ℕ, cellInv ER (sched m) κ (kcell ck))),
    bigSep_congr (s := Finset.univ) (fun (c : Dev nD) _ => bigSep_sep' Finset.univ (fun i : Fin 65 => (atPos ER (kcell (c, i)) 0 ∅ 0 : sProp 𝕄)) (fun i => reached ER (kcell (c, i)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => (positions c : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem sum_rev16 {A : Type} [AddCommMonoid A] (g : Fin 16 → A) :
    ∑ i ∈ Finset.range 16, g ⟨(15 - i) % 16, Nat.mod_lt _ (by decide)⟩ = ∑ k : Fin 16, g k := by
  rw [Finset.sum_range fun i => g ⟨(15 - i) % 16, Nat.mod_lt _ (by decide)⟩]
  exact Fintype.sum_equiv Fin.revPerm _ _ fun i => congrArg g (Fin.ext (by
    show (15 - i.val) % 16 = (Fin.rev i).val
    rw [Fin.val_rev]; have := i.isLt; omega))

theorem remF_eq (c : Dev nD) (n : ℕ) :
    remF c n = ∑ i ∈ Finset.range n, tallyAt (dCell (px c) 3 ⟨(15 - i) % 16, Nat.mod_lt _ (by decide)⟩) () N := by
  induction n with
  | zero => exact (Finset.sum_range_zero _).symm
  | succ n ih => rw [Finset.sum_range_succ, ← ih]; rfl

theorem remY_eq (c : Dev nD) (n : ℕ) :
    remY c n = remF c 16 + ∑ i ∈ Finset.range n, tallyAt (dCell (py c) 1 ⟨(15 - i) % 16, Nat.mod_lt _ (by decide)⟩) () N := by
  induction n with
  | zero => rw [Finset.sum_range_zero, add_zero]; rfl
  | succ n ih => rw [Finset.sum_range_succ, ← add_assoc, ← ih]; rfl

/-- What a device owes at launch, cell by cell: the credit of a chunk to each of the sixteen cells its forwards land on
    and to each of the sixteen its transfers land on, a unit to each neighbour's barrier cell. -/
theorem O₀_eq : (O₀ : Dev nD → CellTallies nD τ sig Unit) = fun d =>
    (((∑ k : Fin 16, tallyAt (dCell (px d) 3 k) () N) + ∑ k : Fin 16, tallyAt (dCell (py d) 1 k) () N)
      + tallyAt (barCell (px d)) () 1) + tallyAt (barCell (py d)) () 1 := by
  funext d
  unfold O₀ O₁
  rw [remY_eq, remF_eq, sum_rev16 fun k => tallyAt (dCell (px d) 3 k) () N, sum_rev16 fun k => tallyAt (dCell (py d) 1 k) () N]

theorem creds_intro (c : Dev nD) : (Pipeline.launchCred O₀ c : sProp 𝕄) ⊢ creds c := by
  have e2 : (tallyAt (barCell c) () 2 : CellTallies nD τ sig Unit) = tallyAt (barCell c) () 1 + tallyAt (barCell c) () 1 :=
    (tallyAt_add (barCell c) () 1 1).symm
  have hY : (bigSep Finset.univ fun k : Fin 16 => (Pipeline.launchCred (fun d => tallyAt (dCell (py d) 1 k) () N) c : sProp 𝕄))
      ⊢ bigSep Finset.univ fun k : Fin 16 => cred (tallyAt (dCell c 1 k) () N) :=
    bigSep_mono fun k _ => Pipeline.launchCred_tallyAt (.dma (dsem 1 k)) py py py_py py_py () N c
  have hF : (bigSep Finset.univ fun k : Fin 16 => (Pipeline.launchCred (fun d => tallyAt (dCell (px d) 3 k) () N) c : sProp 𝕄))
      ⊢ bigSep Finset.univ fun k : Fin 16 => cred (tallyAt (dCell c 3 k) () N) :=
    bigSep_mono fun k _ => Pipeline.launchCred_tallyAt (.dma (dsem 3 k)) px px px_px px_px () N c
  rw [O₀_eq, Pipeline.launchCred_add, Pipeline.launchCred_add, Pipeline.launchCred_add, Pipeline.launchCred_sum, Pipeline.launchCred_sum]
  unfold creds
  rw [e2]
  iintro ⟨⟨⟨H3, H1⟩, HX⟩, HY⟩
  isplitl [HX HY]
  · iapply (cred_add _ _).2
    isplitl [HX]
    · iapply (Pipeline.launchCred_tallyAt (.reg barS) px px px_px px_px () 1 c); iexact HX
    · iapply (Pipeline.launchCred_tallyAt (.reg barS) py py py_py py_py () 1 c); iexact HY
  isplitl [H1]
  · iapply hY; iexact H1
  · iapply hF; iexact H3

/-! ## The pipeline's staging waits: below everything owed at launch -/

theorem O₀_pos {c : Dev nD} {g : GSem nD τ sig} {u : Unit} (h : 0 < O₀ c g u) :
    (∃ k, g = dCell (px c) 3 k) ∨ (∃ k, g = dCell (py c) 1 k) ∨ g = barCell (px c) ∨ g = barCell (py c) := by
  rw [congrFun O₀_eq c] at h
  rcases Pipeline.add_pos_cases h with h | h
  · rcases Pipeline.add_pos_cases h with h | h
    · rcases Pipeline.add_pos_cases h with h | h
      · obtain ⟨k, -, hk⟩ := Pipeline.sum_pos_exists h
        exact .inl ⟨k, (Pipeline.tallyAt_pos hk).1⟩
      · obtain ⟨k, -, hk⟩ := Pipeline.sum_pos_exists h
        exact .inr (.inl ⟨k, (Pipeline.tallyAt_pos hk).1⟩)
    · exact .inr (.inr (.inl (Pipeline.tallyAt_pos h).1))
  · exact .inr (.inr (.inr (Pipeline.tallyAt_pos h).1))

theorem lv_dCell (c : Dev nD) (j : Fin 4) (k : Fin 16) : 2 ≤ lv (dCell c j k) () := by
  have := two_le_dsem j k
  show 2 ≤ (if (dsem j k).val < 2 then 0 else if ((dsem j k).val - 2) / 16 < 2 then 2 else 3)
  rw [if_neg (by omega)]
  split <;> omega

/-- Every cell a device owes at launch is a TensorCore's, at level 1 or above. -/
theorem O₀_lv {c : Dev nD} {g : GSem nD τ sig} {u : Unit} (h : 0 < O₀ c g u) : u ∈ L g ∧ 0 < lv g u := by
  cases u
  rcases O₀_pos h with ⟨k, rfl⟩ | ⟨k, rfl⟩ | rfl | rfl
  · exact ⟨by rw [L_tc]; exact Finset.mem_singleton_self _, lt_of_lt_of_le (by decide) (lv_dCell _ _ _)⟩
  · exact ⟨by rw [L_tc]; exact Finset.mem_singleton_self _, lt_of_lt_of_le (by decide) (lv_dCell _ _ _)⟩
  · exact ⟨by rw [L_tc]; exact Finset.mem_singleton_self _, Nat.one_pos⟩
  · exact ⟨by rw [L_tc]; exact Finset.mem_singleton_self _, Nat.one_pos⟩

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => (O₀_lv hg).1)
      (fun p hp => by rw [Finset.mem_singleton.mp hp]; show (if q.val < 2 then 0 else _) ≤ 0; rw [if_pos hq])
      (fun g u hg => (O₀_lv hg).2)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sPts
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁ sPts Pipeline.ownSems0
  iintro ⟨Hr, Hz⟩
  isplitr; · iempintro
  isplitl [Hz]; · iexact Hz
  iexists (SB m c); iexact Hr

end AtLaunch

set_option maxRecDepth 8000 in
/-- At the compiled mesh of four devices, from any memory with zero counters: every weakly fair execution of @main
    terminates, nothing faulting, and every final state has each window's array at the proof data's final contents. -/
theorem run_main : θ_run defs (onTc (τ := τ) (main (F := F))) (⟨m, fun _ => 0, ρ⟩ : MemSt nD τ sig (Elt F))
    (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ AtLaunch.ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := AtLaunch.share_eq m)
    (hdistinct := winFacts0.arr_inj)
    (O₀ := O₀) (howed₀ := fun _ => rfl) (howedN := fun _ => rfl)
    (L := L) (lv := lv) (hL := L_of_ne) (hwaits := AtLaunch.waits m)
    (G := AtLaunch.G m) (G' := G' m) (u₀ := AtLaunch.u₀)
    (hu₀ := by
      unfold AtLaunch.u₀
      iintro Hu
      ihave H := (ownU_pair _ _) $$ Hu
      icases H with ⟨HP, HX⟩
      imod (AtLaunch.fund_cells m) $$ HX with HG
      imodintro
      isplitl [HP] <;> iassumption)
    (hglob := AtLaunch.glob m)
    (hA := fun _ _ => rfl) (hpf := fun _ k => k.elim0)
    (X := start m) (Y := fun _ => iprop(emp)) (Z := fun _ => iprop(emp))
    (hX := AtLaunch.start_intro m ρ) (hin := AtLaunch.phi0_intro m) (hout := AtLaunch.phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.A2A.run_main' depends on axioms: [propext, Classical.choice, Quot.sound] -/
#guard_msgs in #print axioms run_main

end Cert.Kernel.A2A

end
-- ==== Proof.Kernel.Run.lean ====
/-
  The run read at the arrays: the argument array unchanged, the result array at `Gout`.
-/
import proofs.«900024_g7700000000000025_dist_a2a_v7x_xy2x2_y_m1024_n512_bf16_1_alg».proof.Proof.Kernel.Launch

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The staged argument block is the argument array itself: the window is the whole array. -/
theorem xstg_eq (c : Dev nD) : xstg m c = X m c := by
  have hz : (fun a => (win0_0.index (0 : Fin 1)) a * main_arg0.ty.shape.size a) = fun _ => 0 := funext fun a => Nat.zero_mul _
  exact Memref.read_access_unit_zero (Elt F) main_arg0 hz (fun a => by rw [congrFun hz a, Nat.zero_add]) (m ((c : Thread nD τ).loc main_arg0))

/-- The argument array after the run holds what it held. -/
theorem final_x (c : Dev nD) : (dats m 0 c).arrAt (0 : Fin 2) cfg0.N = m ((c : Thread nD τ).loc main_arg0) :=
  (dats m 0 c).arrAt_in (0 : Fin 2) rfl _

/-- The result array after the run: the result buffer's contents, written back whole. -/
theorem final_out (c : Dev nD) : (dats m 0 c).arrAt (1 : Fin 2) cfg0.N = Gout m c := by
  -- the one grid point writes the result buffer back, and its block is the whole array
  have hz : (fun a => (win0_1.index t₀) a * main_v1.ty.shape.size a) = fun _ => 0 := funext fun a => Nat.zero_mul _
  rw [show cfg0.N = (t₀ : Fin cfg0.N).val + 1 from rfl, (dats m 0 c).arrAt_succ (1 : Fin 2) t₀, Gen.flush0_1 t₀, if_pos rfl]
  exact Memref.write_access_unit_zero_univ (Elt F) main_v1 hz (fun a => by rw [congrFun hz a, Nat.zero_add]) _ (Gout m c)

/-- The run with both arrays named: what each frame and the value claim are read off. -/
theorem run : θ_run defs (onTc (τ := τ) (main (F := F))) (⟨m, fun _ => 0, ρ⟩ : MemSt nD τ sig (Elt F)) (fun r => ∀ c : Dev nD,
    r.2.mem ((c.tc : Thread nD τ).loc main_v1) = Gout m c
    ∧ r.2.mem ((c.tc : Thread nD τ).loc main_arg0) = m ((c.tc : Thread nD τ).loc main_arg0)) :=
  (θ_run defs _ _).mono
    (fun _ h c => ⟨(h c (1 : Fin 2)).trans (final_out m c), (h c (0 : Fin 2)).trans (final_x m c)⟩)
    (run_main m ρ)

/-- info: 'Cert.Kernel.A2A.run' depends on axioms: [propext, Classical.choice, Quot.sound] -/
#guard_msgs in #print axioms run

end Cert.Kernel.A2A

end
-- ==== Proof.KernelIdeal.Spec.lean ====
/-
  The data of the exchange, stated once for both float instances.

  Four devices sit on a 2 x 2 mesh; device `c` is at (c / 2, c % 2) = (dx c, dy c).  Device `c` holds the
  row block `dy c` of a 2048 x 1024 array `A` (1024 rows), and must end holding the column block `dy c` of
  `A` (2048 rows, 512 columns), every element cast to the narrow float type.  Writing `X c` for the block device
  `c` starts with, the rows [1024 * dy c, 1024 * dy c + 1024) of the result are `X c`'s own columns; the other
  1024 rows are columns of the block held by the devices with the other `dy`: the half with `(r % 1024) / 512 = dx c`
  arrives straight from `py c` (same dx, other dy), the other half is what `px c` (other dx, same dy) received
  from its own `py` and forwards.
-/
import proofs.«900024_g7700000000000025_dist_a2a_v7x_xy2x2_y_m1024_n512_bf16_1_alg».proof.Proof.Gen.KernelIdeal
import Idealize.ShloMosaic.Lib.ValueIdx

noncomputable section

namespace Cert.KernelIdeal.A2A

open Cert.KernelIdeal Cert.KernelIdeal.Gen
open Idealize.ShloMosaic Idealize.ShloMosaic.TcCoe Idealize.SL.Sem

variable {F : FTy → Type} [FloatOps F]

/-! ## The mesh -/

theorem dev_lt (c : Dev nD) : c.val < 4 := c.isLt

/-- The neighbour along the second mesh axis: same `c / 2`, other `c % 2`. -/
def py (c : Dev nD) : Dev nD := ⟨(2 * (c.val / 2) + 1) - c.val % 2, by have := dev_lt c; show _ < 4; omega⟩
/-- The neighbour along the first mesh axis: other `c / 2`, same `c % 2`. -/
def px (c : Dev nD) : Dev nD := ⟨((c.val % 2) + 2) - 2 * (c.val / 2), by have := dev_lt c; show _ < 4; omega⟩

theorem py_py (c : Dev nD) : py (py c) = c := by revert c; decide
theorem px_px (c : Dev nD) : px (px c) = c := by revert c; decide
theorem px_py (c : Dev nD) : px (py c) = py (px c) := by revert c; decide
theorem py_val (c : Dev nD) : (py c).val = (2 * (c.val / 2) + 1) - c.val % 2 := rfl
theorem px_val (c : Dev nD) : (px c).val = ((c.val % 2) + 2) - 2 * (c.val / 2) := rfl

/-! ## Contents -/

variable (m : (ℓ : Loc nD τ sig) → Buf (Elt F) ℓ)

/-- Device `c`'s block of the argument array, as launched. -/
def X (c : Dev nD) : S1024x1024.Idx → Elt F .f32 := m ((c : Thread nD τ).loc main_arg0)

/-- The cast of one element to the result's float type: what the body's stores apply to what they load. -/
def cast1 (x : Elt F .f32) : Elt F .bf16 := FloatOps.truncf (F := F) (φ := .f32) .bf16 bitsLt_bf16_f32 x

/-- Which device's block row `r` of device `c`'s result comes from. -/
def srcDev (c : Dev nD) (r : Nat) : Dev nD :=
  if r / 1024 = c.val % 2 then c else if (r % 1024) / 512 = c.val / 2 then py c else px (py c)

/-- An index of the 1024 x 1024 block from its two coordinates. -/
def ixX (a b : Nat) (ha : a < 1024) (hb : b < 1024) : S1024x1024.Idx := ValueIdx.ix2 (⟨a, ha⟩ : Fin 1024) (⟨b, hb⟩ : Fin 1024)

/-- Device `c`'s result buffer after the exchange, whole: row `r`, column `j` holds the cast of element
    (r % 1024, 512 * (c % 2) + j) of the block of the device the row comes from. -/
def Gout (c : Dev nD) : S2048x512.Idx → Elt F .bf16 := fun i =>
  cast1 (X m (srcDev c (i 0).val) (ixX ((i 0).val % 1024) (512 * (c.val % 2) + (i 1).val)
    (Nat.mod_lt _ (by decide)) (by have := (i 1).isLt; have : (i 1).val < 512 := this; omega)))

/-- What device `c` stages for its neighbour `py c`: rows [512 * (c / 2), + 512) of its block, the columns of the
    OTHER column block, cast. -/
def SB (c : Dev nD) : S512x512.Idx → Elt F .bf16 := fun i =>
  cast1 (X m c (ixX (512 * (c.val / 2) + (i 0).val) (512 * (1 - c.val % 2) + (i 1).val)
    (by have := (i 0).isLt; have : (i 0).val < 512 := this; have := dev_lt c; omega)
    (by have := (i 1).isLt; have : (i 1).val < 512 := this; omega)))

end Cert.KernelIdeal.A2A

end
-- ==== Proof.KernelIdeal.Proto.lean ====
/-
  The protocol of the exchange under the rounds discipline, stated once for both float instances.

  Every device `c` has one cell on the runtime's barrier semaphore and 64 cells on its own DMA semaphores, four
  classes of sixteen (one per 32-row chunk `k`):
    class 0, "staged chunk read": paid by `c`'s own transfer of chunk `k` to `py c`; gives back the chunk of the
             staging buffer;
    class 1, "chunk landed from py": paid by `py c`'s transfer of chunk `k`; gives `c` the 32 rows it landed in,
             holding the result's values there;
    class 2, "forwarded chunk read": paid by `c`'s own forward of those rows to `px c`; gives the rows back;
    class 3, "chunk landed from px": paid by `px c`'s forward of chunk `k`; gives `c` the rows it landed in.
  The barrier cell has one round of two unit duties: `false`, paid by `py c`, hands `c` the sixteen 32-row pieces
  of `py c`'s result buffer that `c`'s transfers write; `true`, paid by `px c`, the sixteen pieces of `px c`'s
  result buffer that `c`'s forwards write.  Every piece of a result buffer is held at ONE whole-buffer function,
  `Gout`, restricted to the piece, so that the pieces join back without any case analysis.
-/
import proofs.«900024_g7700000000000025_dist_a2a_v7x_xy2x2_y_m1024_n512_bf16_1_alg».proof.Proof.KernelIdeal.Spec
import proofs.«900024_g7700000000000025_dist_a2a_v7x_xy2x2_y_m1024_n512_bf16_1_alg».proof.Proof.Gen.KernelIdeal.Skeleton
import proofs.«900024_g7700000000000025_dist_a2a_v7x_xy2x2_y_m1024_n512_bf16_1_alg».proof.Proof.Gen.KernelIdeal.Launch
import proofs.«900024_g7700000000000025_dist_a2a_v7x_xy2x2_y_m1024_n512_bf16_1_alg».proof.Proof.Gen.KernelIdeal.Points
import Idealize.ShloMosaic.Lib.Pipeline.Launch
import Idealize.ShloMosaic.Lib.Pipeline.Kit
import Idealize.ShloMosaic.Lib.Ring
import Idealize.ShloMosaic.Lib.Tactic

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs -/

abbrev xM : Memref sig .tc .vmem S1024x1024 .f32 := Memref.whole cc0_stg0_0
abbrev oM : Memref sig .tc .vmem S2048x512 .bf16 := Memref.whole cc0_stg1_0
abbrev sM : Memref sig .tc .vmem S512x512 .bf16 := Memref.whole cc0_scratch0

/-- The word the body adds for chunk `k`: `32 k`. -/
abbrev cw (k : Fin 16) : BitVec 32 := BitVec.ofNat 32 (32 * k.val)

theorem sb_inb (k : Fin 16) : ∀ a, (![32 * k.val, 0] : Fin 2 → Nat) a + S32x512.size a ≤ S512x512.size a := by
  revert k; decide

/-- Chunk `k` of the staging buffer: rows [32 k, 32 k + 32). -/
abbrev sbM (k : Fin 16) : Memref sig .tc .vmem S32x512 .bf16 :=
  sM.slice (Rect.unit (s := S512x512) ![32 * k.val, 0] S32x512.size (sb_inb k)) (fun _ => rfl)
/-- The 32 rows of a result buffer that device `s`'s transfer of chunk `k` writes (on `py s`). -/
abbrev yDst (s : Dev nD) (k : Fin 16) : Memref sig .tc .vmem S32x512 .bf16 :=
  oM.slice (Rect.unit (s := S2048x512) (k0_off3 s (cw k)) S32x512.size (k0_off3_inb s k)) (fun _ => rfl)
/-- The 32 rows of a result buffer that device `s`'s forward of chunk `k` reads (on `s`) and writes (on `px s`). -/
abbrev fwdM (s : Dev nD) (k : Fin 16) : Memref sig .tc .vmem S32x512 .bf16 :=
  oM.slice (Rect.unit (s := S2048x512) (k0_off34 s (cw k)) S32x512.size (k0_off34_inb s k)) (fun _ => rfl)

/-! ## The cells -/

/-- The runtime's barrier semaphore of collective id 0. -/
abbrev barS : Sem sig := (SemArray.scalar (sig.barrier 0 rfl) : Sems sig S_).sem

/-- DMA semaphore of class `j` and chunk `k`: the four scratch arrays are consecutive from index 2. -/
def dsem (j : Fin 4) (k : Fin 16) : DmaSem sig := ⟨2 + 16 * j.val + k.val, by have := j.isLt; have := k.isLt; show _ < 66; omega⟩

abbrev barCell (c : Dev nD) : GSem nD τ sig := ((c : Thread nD τ), .reg barS)
abbrev dCell (c : Dev nD) (j : Fin 4) (k : Fin 16) : GSem nD τ sig := ((c : Thread nD τ), .dma (dsem j k))

/-- Class and chunk of a DMA semaphore of index at least 2. -/
def jOf (s : DmaSem sig) : Fin 4 := ⟨(s.val - 2) / 16 % 4, Nat.mod_lt _ (by decide)⟩
def kOf (s : DmaSem sig) : Fin 16 := ⟨(s.val - 2) % 16, Nat.mod_lt _ (by decide)⟩

theorem jOf_dsem (j : Fin 4) (k : Fin 16) : jOf (dsem j k) = j := by revert j k; decide
theorem kOf_dsem (j : Fin 4) (k : Fin 16) : kOf (dsem j k) = k := by revert j k; decide
theorem two_le_dsem (j : Fin 4) (k : Fin 16) : 2 ≤ (dsem j k).val := by revert j k; decide

/-- The credit of one 32-row chunk. -/
abbrev N : ℕ := (yDst 0 0).view.dmaCredit
theorem N_pos : 0 < N := View.dmaCredit_pos _ (by decide)

/-! ## What the duties hand over -/

/-- What `py o`'s barrier signal hands `o`: the sixteen pieces of `py o`'s result buffer that `o`'s transfers write. -/
def barPayY (o : Dev nD) : sProp 𝕄 :=
  bigSep Finset.univ fun k : Fin 16 => iprop(∃ f, (yDst o k).view.loc (py o : Thread nD τ) ↦[(yDst o k).view.set]{fullShare} f)
/-- What `px o`'s barrier signal hands `o`: the sixteen pieces of `px o`'s result buffer that `o`'s forwards write. -/
def barPayX (o : Dev nD) : sProp 𝕄 :=
  bigSep Finset.univ fun k : Fin 16 => iprop(∃ f, (fwdM o k).view.loc (px o : Thread nD τ) ↦[(fwdM o k).view.set]{fullShare} f)

/-- What the one duty of `o`'s DMA cell of class `j`, chunk `k` hands `o`. -/
def dmaPay (o : Dev nD) (j : Fin 4) (k : Fin 16) : sProp 𝕄 :=
  match j with
  | 0 => (sbM k).view.loc (o : Thread nD τ) ↦[(sbM k).view.set]{fullShare} SB m o
  | 1 => (yDst (py o) k).view.loc (o : Thread nD τ) ↦[(yDst (py o) k).view.set]{fullShare} Gout m o
  | 2 => (fwdM o k).view.loc (o : Thread nD τ) ↦[(fwdM o k).view.set]{fullShare} Gout m o
  | 3 => (fwdM (px o) k).view.loc (o : Thread nD τ) ↦[(fwdM (px o) k).view.set]{fullShare} Gout m o

/-! ## The schedule: one round per cell -/

def sched : Rounds.Schedule (GSem nD τ sig) Bool 𝕄 where
  duties g r :=
    if r = 0 ∧ g.1.2 = .tc then
      (match g.2 with
        | .reg s => if s = barS then Finset.univ else ∅
        | .dma s => if 2 ≤ s.val then {false} else ∅)
    else ∅
  amount g _ _ := match g.2 with | .reg _ => 1 | .dma _ => N
  payload g _ d :=
    match g.2 with
    | .reg _ => if d then barPayX g.1.1 else barPayY g.1.1
    | .dma s => dmaPay m g.1.1 (jOf s) (kOf s)
  amount_pos g _ _ _ := by
    rcases g with ⟨t, (s | s)⟩
    · exact Nat.one_pos
    · exact N_pos

instance sched_payload_storable (g : GSem nD τ sig) (r : ℕ) (d : Bool) :
    BI.Storable (upEmb : UEmb _ 𝕄) ((sched (F := F) m).payload g r d) := by
  rcases g with ⟨t, (s | s)⟩
  · show BI.Storable upEmb (if d then barPayX t.1 else barPayY t.1)
    unfold barPayX barPayY
    split <;> infer_instance
  · show BI.Storable upEmb (dmaPay m t.1 (jOf s) (kOf s))
    unfold dmaPay
    split <;> infer_instance

section Sched
variable (c : Dev nD)

theorem duties_bar : (sched (F := F) m).duties (barCell c) 0 = Finset.univ := by
  dsimp only [sched]; rw [if_pos ⟨rfl, rfl⟩]; exact if_pos rfl
theorem duties_dma (j : Fin 4) (k : Fin 16) : (sched (F := F) m).duties (dCell c j k) 0 = {false} := by
  dsimp only [sched]; rw [if_pos ⟨rfl, rfl⟩]; exact if_pos (two_le_dsem j k)
theorem duties_later (g : GSem nD τ sig) : ∀ r, 1 ≤ r → (sched (F := F) m).duties g r = ∅ :=
  fun r hr => by dsimp only [sched]; rw [if_neg fun h => by omega]

theorem amount_bar (d : Bool) : (sched (F := F) m).amount (barCell c) 0 d = 1 := rfl
theorem amount_dma (j : Fin 4) (k : Fin 16) (d : Bool) : (sched (F := F) m).amount (dCell c j k) 0 d = N := rfl

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (j : Fin 4) (k : Fin 16) : (sched (F := F) m).expect (dCell c j k) 0 = N := by
  unfold Schedule.expect Schedule.amountOf; rw [duties_dma, Finset.sum_singleton, amount_dma]

theorem payload_bar_true : (sched (F := F) m).payload (barCell c) 0 true = barPayX c := rfl
theorem payload_bar_false : (sched (F := F) m).payload (barCell c) 0 false = barPayY c := rfl
theorem payload_dma (j : Fin 4) (k : Fin 16) (d : Bool) : (sched (F := F) m).payload (dCell c j k) 0 d = dmaPay m c j k := by
  show dmaPay m c (jOf (dsem j k)) (kOf (dsem j k)) = _
  rw [jOf_dsem, kOf_dsem]

/-- The whole round of the barrier cell: both neighbours' pieces. -/
theorem rest_bar : bigSep ((sched (F := F) m).duties (barCell c) 0 \ ∅) (fun d => (sched (F := F) m).payload (barCell c) 0 d) = iprop(barPayY c ∗ barPayX c) := by
  rw [Finset.sdiff_empty, duties_bar, bigSep_univ_eq_bigSepL [false, true] (by decide) (by decide), bigSepL_cons_cons, bigSepL_singleton,
    payload_bar_false, payload_bar_true]
  rfl
theorem rest_dma (j : Fin 4) (k : Fin 16) :
    bigSep ((sched (F := F) m).duties (dCell c j k) 0 \ ∅) (fun d => (sched (F := F) m).payload (dCell c j k) 0 d) = dmaPay m c j k := by
  rw [Finset.sdiff_empty, duties_dma, bigSep_singleton, payload_dma]

end Sched

/-! ## What each device owes at launch; the levels -/

/-- The forwards still to be enqueued when `n` of them remain: chunks 16 - n, …, 15, the next one last. -/
def remF (c : Dev nD) : ℕ → CellTallies nD τ sig Unit
  | 0 => 0
  | n + 1 => remF c n + tallyAt (dCell (px c) 3 ⟨(15 - n) % 16, Nat.mod_lt _ (by decide)⟩) () N
/-- All the forwards and the transfers still to be enqueued when `n` transfers remain. -/
def remY (c : Dev nD) : ℕ → CellTallies nD τ sig Unit
  | 0 => remF c 16
  | n + 1 => remY c n + tallyAt (dCell (py c) 1 ⟨(15 - n) % 16, Nat.mod_lt _ (by decide)⟩) () N
/-- After the first signal: everything but the unit owed to `py c`'s barrier cell. -/
def O₁ (c : Dev nD) : CellTallies nD τ sig Unit := remY c 16 + tallyAt (barCell (px c)) () 1
def O₀ (c : Dev nD) : CellTallies nD τ sig Unit := O₁ c + tallyAt (barCell (py c)) () 1

def L (g : GSem nD τ sig) : Finset Unit := if g.1.2 = .tc then {()} else ∅
/-- The pipeline's staging cells at 0, the barrier cells at 1, the cells of the first exchange at 2, of the forward at 3. -/
def lv (g : GSem nD τ sig) (_ : Unit) : ℕ :=
  match g.2 with
  | .reg _ => 1
  | .dma s => if s.val < 2 then 0 else if (s.val - 2) / 16 < 2 then 2 else 3

theorem L_of_ne (g : GSem nD τ sig) (h : g.1.2 ≠ .tc) : L g = ∅ := if_neg h
theorem L_tc (c : Dev nD) (sm : SemLoc sig) : L ((c : Thread nD τ), sm) = {()} := if_pos rfl

/-! ## The cells, indexed flat: 0 the barrier cell, 1 + 16 j + k the DMA cell of class j and chunk k -/

abbrev csem : Fin 65 → SemLoc sig := fun i => if h : i.val = 0 then .reg barS else .dma ⟨i.val + 1, by have := i.isLt; show _ < 66; omega⟩
abbrev kcell (ck : Dev nD × Fin 65) : GSem nD τ sig := ((ck.1 : Thread nD τ), csem ck.2)
def ci (j : Fin 4) (k : Fin 16) : Fin 65 := ⟨1 + 16 * j.val + k.val, by have := j.isLt; have := k.isLt; omega⟩

theorem csem_ci (j : Fin 4) (k : Fin 16) : csem (ci j k) = .dma (dsem j k) := by revert j k; decide
theorem kcell_ci (c : Dev nD) (j : Fin 4) (k : Fin 16) : kcell (c, ci j k) = dCell c j k := by
  show ((c : Thread nD τ), csem (ci j k)) = _; rw [csem_ci]
theorem kcell_zero (c : Dev nD) : kcell (c, 0) = barCell c := rfl

/-! ## The ghost state -/

/-- Every cell's invariant, under the names the launch allocated them at, and round 0 of every cell reached. -/
def records (K : Dev nD × Fin 65 → ℕ) : sProp 𝕄 :=
  iprop((bigSep Finset.univ fun ck : Dev nD × Fin 65 => cellInv ER (sched m) (K ck) (kcell ck))
    ∗ bigSep Finset.univ fun ck : Dev nD × Fin 65 => reached ER (kcell ck) 0)

instance records_persistent (K : Dev nD × Fin 65 → ℕ) : BI.Persistent (records (F := F) m K) := by unfold records; infer_instance

/-- The tokens of the duties device `c` pays: one unit of each neighbour's barrier cell, its sixteen transfers (the
    neighbour's landing cell and its own read cell), its sixteen forwards likewise. -/
def payToks (c : Dev nD) : sProp 𝕄 :=
  iprop(dutyTok ER (barCell (py c)) 0 false ∗ dutyTok ER (barCell (px c)) 0 true
    ∗ (bigSep Finset.univ fun k : Fin 16 => dutyTok ER (dCell (py c) 1 k) 0 false)
    ∗ (bigSep Finset.univ fun k : Fin 16 => dutyTok ER (dCell (px c) 3 k) 0 false)
    ∗ (bigSep Finset.univ fun k : Fin 16 => dutyTok ER (dCell c 0 k) 0 false)
    ∗ (bigSep Finset.univ fun k : Fin 16 => dutyTok ER (dCell c 2 k) 0 false))
/-- Its positions: round 0 of each of its 65 cells, nothing taken. -/
def positions (c : Dev nD) : sProp 𝕄 := bigSep Finset.univ fun i : Fin 65 => atPos ER (kcell (c, i)) 0 ∅ 0
def linear (c : Dev nD) : sProp 𝕄 := iprop(positions c ∗ payToks c)

/-- What the launch's global step makes for device `c`. -/
def G' (c : Dev nD) : sProp 𝕄 := iprop(∃ K, records m K ∗ linear c)

/-- The credit dealt at launch: the barrier's two units, the sixteen landings from each neighbour. -/
def creds (c : Dev nD) : sProp 𝕄 :=
  iprop(cred (tallyAt (barCell c) () 2)
    ∗ (bigSep Finset.univ fun k : Fin 16 => cred (tallyAt (dCell c 1 k) () N))
    ∗ (bigSep Finset.univ fun k : Fin 16 => cred (tallyAt (dCell c 3 k) () N)))

def start (c : Dev nD) : sProp 𝕄 := iprop(G' m c ∗ creds c ∗ levAts L lv)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The argument block as the pipeline stages it. -/
def xstg (c : Dev nD) : (cc0_stg0_0 : Ref sig .tc).ty.Contents (Elt F) :=
  (win0_0.blk (0 : Fin 1)).view.read (Elt F) (m ((c : Thread nD τ).loc main_arg0))

def sPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m c ∗ ∃ f, sPts c f)
/-- After the point: the staging buffer whole at what was staged, the 64 own cells closed at zero. -/
def Φ₁ (c : Dev nD) : sProp 𝕄 :=
  iprop(sPts c (SB m c) ∗ bigSep Finset.univ fun jk : Fin 4 × Fin 16 => semVal (dCell c jk.1 jk.2) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => Gout m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

/-- What the body of device `c` starts from, as the pipeline calls it. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it ends with: the result buffer whole at `Gout`, nothing owed. -/
def bodyPost (c : Dev nD) : sProp 𝕄 :=
  iprop(Φ₁ m c ∗ (dats m 0 c).owesAt () t₀.succ ∗ stg c cc0_stg0_0 (xstg m c) ∗ stg c cc0_stg1_0 (Gout m c))

end Cert.KernelIdeal.A2A

end
-- ==== Proof.KernelIdeal.Cells.lean ====
/-
  Bookkeeping over the 65 cells of a device: the flat index against (class, chunk), and conjunctions over the sixteen
  chunks written out.
-/
import proofs.«900024_g7700000000000025_dist_a2a_v7x_xy2x2_y_m1024_n512_bf16_1_alg».proof.Proof.KernelIdeal.Proto

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- (class, chunk) ↦ the flat index 1 + 16 j + k, injective. -/
def ciEmb : Fin 4 × Fin 16 ↪ Fin 65 := ⟨fun jk => ci jk.1 jk.2, by intro a b; revert a b; decide⟩

theorem univ65 : (Finset.univ : Finset (Fin 65)) = insert 0 (Finset.univ.map ciEmb) := by decide

/-- A conjunction over a device's 65 cells is the barrier cell's conjunct and the 64 DMA cells', by class and chunk. -/
theorem bigSep_cells (Φ : Fin 65 → sProp 𝕄) :
    bigSep Finset.univ Φ = iprop(Φ 0 ∗ bigSep Finset.univ fun jk : Fin 4 × Fin 16 => Φ (ci jk.1 jk.2)) := by
  rw [univ65, bigSep_insert (by decide), bigSep_map]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- A conjunction over (class, chunk), class by class. -/
theorem bigSep_jk (Φ : Fin 4 × Fin 16 → sProp 𝕄) :
    bigSep Finset.univ Φ = iprop((bigSep Finset.univ fun k => Φ (0, k)) ∗ (bigSep Finset.univ fun k => Φ (1, k))
      ∗ (bigSep Finset.univ fun k => Φ (2, k)) ∗ (bigSep Finset.univ fun k => Φ (3, k))) := by
  rw [bigSep_univ_prod, bigSep_fin4]

end Cert.KernelIdeal.A2A

end
-- ==== Proof.KernelIdeal.Regions.lean ====
/-
  The result buffer and the staging buffer cut into the pieces the exchange moves, and what each store and each
  landing leaves in its piece.

  Device `c`'s result buffer (2048 rows) is the disjoint union of: its own 1024 rows [1024 (c % 2), + 1024); the sixteen
  32-row chunks that land from `py c` (the rows `py c`'s transfers write: `yDst (py c) k`); the sixteen that land from
  `px c` (`fwdM (px c) k`).  The chunks that land from `py c` are the ones `c` forwards: `yDst (py c) k = fwdM c k`.
  The staging buffer (512 rows) is the disjoint union of its sixteen 32-row chunks.
-/
import proofs.«900024_g7700000000000025_dist_a2a_v7x_xy2x2_y_m1024_n512_bf16_1_alg».proof.Proof.KernelIdeal.Cells
import Idealize.ShloMosaic.Lib.Pipeline.Value

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pieces -/

theorem own_inb (c : Dev nD) : ∀ a, (![1024 * (c.val % 2), 0] : Fin 2 → Nat) a + S1024x512.size a ≤ S2048x512.size a := by
  revert c; decide
/-- Device `c`'s own half of its result buffer: rows [1024 (c % 2), + 1024). -/
abbrev ownRect (c : Dev nD) : Rect S2048x512 := Rect.unit (s := S2048x512) ![1024 * (c.val % 2), 0] S1024x512.size (own_inb c)
abbrev ownSet (c : Dev nD) : Finset (Idx ((c : Thread nD τ).loc cc0_stg1_0)) := ((oM.access (ownRect c) : View sig .tc _ _ _)).set

/-- The offset of `py c`'s transfer of chunk `k` is the offset of `c`'s forward of chunk `k`:
    both are row 1024 (1 - c % 2) + 512 (c / 2) + 32 k. -/
theorem off_py_eq (c : Dev nD) (k : Fin 16) : k0_off3 (py c) (cw k) = k0_off34 c (cw k) := by
  show k0_off3 (py c) (BitVec.ofNat 32 (32 * k.val)) = k0_off34 c (BitVec.ofNat 32 (32 * k.val))
  rw [k0_off3_eq, k0_off34_eq]
  revert c k; decide

/-- Slices of the result buffer at equal offsets are the same memref. -/
theorem oM_slice_congr (off off' : Fin 2 → Nat) (h : off = off')
    (inb : ∀ a, off a + S32x512.size a ≤ S2048x512.size a) (inb' : ∀ a, off' a + S32x512.size a ≤ S2048x512.size a) :
    (oM.slice (Rect.unit (s := S2048x512) off S32x512.size inb) (fun _ => rfl) : Memref sig .tc .vmem S32x512 .bf16)
      = oM.slice (Rect.unit (s := S2048x512) off' S32x512.size inb') (fun _ => rfl) := by
  subst h; rfl

/-- The rows `py c` writes on `c` are the rows `c` forwards. -/
theorem yDst_py_eq_fwd (c : Dev nD) (k : Fin 16) : yDst (py c) k = fwdM c k :=
  oM_slice_congr _ _ (off_py_eq c k) _ _

/-! ### The pieces as sets of rows

Every piece is whole along the columns, so an element belongs to it exactly when its row lies in the piece's rows. -/

theorem sb_set (k : Fin 16) :
    (sbM k).view.set = (Rect.unit (s := S512x512) ![32 * k.val, 0] S32x512.size (sb_inb k)).set :=
  View.set_slice_whole _ _
theorem own_set (c : Dev nD) : ownSet c = (ownRect c).set := View.set_slice_whole _ _
theorem yDst_set (s : Dev nD) (k : Fin 16) :
    (yDst s k).view.set = (Rect.unit (s := S2048x512) (k0_off3 s (cw k)) S32x512.size (k0_off3_inb s k)).set :=
  View.set_slice_whole _ _
theorem fwd_set (s : Dev nD) (k : Fin 16) :
    (fwdM s k).view.set = (Rect.unit (s := S2048x512) (k0_off34 s (cw k)) S32x512.size (k0_off34_inb s k)).set :=
  View.set_slice_whole _ _

theorem mem_sb (k : Fin 16) (i : S512x512.Idx) :
    i ∈ (sbM k).view.set ↔ 32 * k.val ≤ (i 0).val ∧ (i 0).val < 32 * k.val + 32 := by
  rw [sb_set, Rect.mem_set_unit, Fin.forall_fin_two]
  have h1 : (i 1).val < 512 := (i 1).isLt
  show (32 * k.val ≤ (i 0).val ∧ (i 0).val < 32 * k.val + 32) ∧ (0 ≤ (i 1).val ∧ (i 1).val < 0 + 512) ↔ _
  omega

theorem mem_own (c : Dev nD) (i : S2048x512.Idx) :
    i ∈ ownSet c ↔ 1024 * (c.val % 2) ≤ (i 0).val ∧ (i 0).val < 1024 * (c.val % 2) + 1024 := by
  rw [own_set, Rect.mem_set_unit, Fin.forall_fin_two]
  have h1 : (i 1).val < 512 := (i 1).isLt
  show (1024 * (c.val % 2) ≤ (i 0).val ∧ (i 0).val < 1024 * (c.val % 2) + 1024) ∧ (0 ≤ (i 1).val ∧ (i 1).val < 0 + 512) ↔ _
  omega

theorem mem_yDst (s : Dev nD) (k : Fin 16) (i : S2048x512.Idx) :
    i ∈ (yDst s k).view.set ↔ 1024 * (s.val % 2) + 512 * (s.val / 2) + 32 * k.val ≤ (i 0).val
      ∧ (i 0).val < 1024 * (s.val % 2) + 512 * (s.val / 2) + 32 * k.val + 32 := by
  rw [yDst_set, Rect.mem_set_unit, k0_off3_eq s k, Fin.forall_fin_two]
  have h1 : (i 1).val < 512 := (i 1).isLt
  show (1024 * (s.val % 2) + 512 * (s.val / 2) + 32 * k.val ≤ (i 0).val ∧ (i 0).val < 1024 * (s.val % 2) + 512 * (s.val / 2) + 32 * k.val + 32)
    ∧ (0 ≤ (i 1).val ∧ (i 1).val < 0 + 512) ↔ _
  omega

theorem mem_fwd (s : Dev nD) (k : Fin 16) (i : S2048x512.Idx) :
    i ∈ (fwdM s k).view.set ↔ (512 * (s.val / 2) + 32 * k.val + 1024) - 1024 * (s.val % 2) ≤ (i 0).val
      ∧ (i 0).val < (512 * (s.val / 2) + 32 * k.val + 1024) - 1024 * (s.val % 2) + 32 := by
  rw [fwd_set, Rect.mem_set_unit, k0_off34_eq s k, Fin.forall_fin_two]
  have h1 : (i 1).val < 512 := (i 1).isLt
  show ((512 * (s.val / 2) + 32 * k.val + 1024) - 1024 * (s.val % 2) ≤ (i 0).val ∧ (i 0).val < (512 * (s.val / 2) + 32 * k.val + 1024) - 1024 * (s.val % 2) + 32)
    ∧ (0 ≤ (i 1).val ∧ (i 1).val < 0 + 512) ↔ _
  omega

/-! ### The staging buffer: sixteen chunks of 32 rows -/

theorem sb_disj (b b' : Fin 16) (h : b ≠ b') : Disjoint (sbM b).view.set (sbM b').view.set := by
  have hb : b.val ≠ b'.val := fun e => h (Fin.ext e)
  refine Finset.disjoint_left.mpr fun i hi hi' => ?_
  have h1 := (mem_sb b i).mp hi
  have h2 := (mem_sb b' i).mp hi'
  omega

/-- Row `r` of the staging buffer lies in chunk `r / 32`. -/
theorem sb_cover_mem (i : S512x512.Idx) : ∃ k : Fin 16, i ∈ (sbM k).view.set := by
  have hi : (i 0).val < 512 := (i 0).isLt
  have hk : (i 0).val / 32 < 16 := by omega
  refine ⟨⟨(i 0).val / 32, hk⟩, (mem_sb _ i).mpr ?_⟩
  show 32 * ((i 0).val / 32) ≤ _ ∧ _ < 32 * ((i 0).val / 32) + 32
  omega

/-- The staging buffer's sixteen chunks, as sets of its elements. -/
abbrev sbI (c : Dev nD) : Fin 16 → Finset (Idx ((c : Thread nD τ).loc cc0_scratch0)) := fun k => (sbM k).view.set

theorem sb_cover (c : Dev nD) : Finset.univ.biUnion (sbI c) = Finset.univ := by
  refine Finset.eq_univ_iff_forall.mpr fun i => Finset.mem_biUnion.mpr ?_
  obtain ⟨k, hk⟩ := sb_cover_mem i
  exact ⟨k, Finset.mem_univ _, hk⟩

/-! ### The result buffer: the own half and twice sixteen chunks -/

/-- The pieces of device `c`'s result buffer: its own half, the chunks landing from `py c`, those from `px c`. -/
abbrev outI (c : Dev nD) : Unit ⊕ (Fin 16 ⊕ Fin 16) → Finset (Idx ((c : Thread nD τ).loc cc0_stg1_0))
  | .inl _ => ownSet c
  | .inr (.inl k) => (yDst (py c) k).view.set
  | .inr (.inr k) => (fwdM (px c) k).view.set

/-- First row and number of rows of each piece: the own half starts at 1024 (c % 2); in the other half, the 512 rows
    with the device's own `c / 2` come from `py c`, the other 512 from `px c`. -/
def pieceLo (c : Dev nD) : Unit ⊕ (Fin 16 ⊕ Fin 16) → ℕ
  | .inl _ => 1024 * (c.val % 2)
  | .inr (.inl k) => 1024 * (1 - c.val % 2) + 512 * (c.val / 2) + 32 * k.val
  | .inr (.inr k) => 1024 * (1 - c.val % 2) + 512 * (1 - c.val / 2) + 32 * k.val
def pieceLen : Unit ⊕ (Fin 16 ⊕ Fin 16) → ℕ
  | .inl _ => 1024
  | .inr _ => 32

theorem mem_outI (c : Dev nD) (b : Unit ⊕ (Fin 16 ⊕ Fin 16)) (i : S2048x512.Idx) :
    i ∈ outI c b ↔ pieceLo c b ≤ (i 0).val ∧ (i 0).val < pieceLo c b + pieceLen b := by
  have hc := dev_lt c
  rcases b with u | k | k
  · exact mem_own c i
  · show i ∈ (yDst (py c) k).view.set ↔ _
    rw [mem_yDst, py_val]; simp only [pieceLo, pieceLen]; omega
  · show i ∈ (fwdM (px c) k).view.set ↔ _
    rw [mem_fwd, px_val]; simp only [pieceLo, pieceLen]; omega

theorem out_disj (c : Dev nD) (b b' : Unit ⊕ (Fin 16 ⊕ Fin 16)) (h : b ≠ b') : Disjoint (outI c b) (outI c b') := by
  refine Finset.disjoint_left.mpr fun i hi hi' => ?_
  have h1 := (mem_outI c b i).mp hi
  have h2 := (mem_outI c b' i).mp hi'
  have hc := dev_lt c
  -- two different pieces have separated rows
  have key : pieceLo c b + pieceLen b ≤ pieceLo c b' ∨ pieceLo c b' + pieceLen b' ≤ pieceLo c b := by
    rcases b with u | k | k <;> rcases b' with u' | k' | k' <;> simp only [pieceLo, pieceLen]
    · exact absurd rfl h
    · omega
    · omega
    · omega
    · have : k.val ≠ k'.val := fun e => h (by rw [Fin.ext e])
      omega
    · omega
    · omega
    · omega
    · have : k.val ≠ k'.val := fun e => h (by rw [Fin.ext e])
      omega
  omega

/-- Row `r` lies in the own half when `r / 1024 = c % 2`; else in chunk `(r % 512) / 32` of the rows from `py c` when
    `(r % 1024) / 512 = c / 2`, of the rows from `px c` otherwise. -/
theorem out_cover_mem (c : Dev nD) (i : S2048x512.Idx) : ∃ b, i ∈ outI c b := by
  have hi : (i 0).val < 2048 := (i 0).isLt
  have hc := dev_lt c
  have hk : ((i 0).val % 512) / 32 < 16 := by omega
  by_cases h1 : (i 0).val / 1024 = c.val % 2
  · exact ⟨.inl (), (mem_outI c _ i).mpr (by simp only [pieceLo, pieceLen]; omega)⟩
  · by_cases h2 : ((i 0).val % 1024) / 512 = c.val / 2
    · exact ⟨.inr (.inl ⟨_, hk⟩), (mem_outI c _ i).mpr (by simp only [pieceLo, pieceLen]; omega)⟩
    · exact ⟨.inr (.inr ⟨_, hk⟩), (mem_outI c _ i).mpr (by simp only [pieceLo, pieceLen]; omega)⟩

theorem out_cover (c : Dev nD) : Finset.univ.biUnion (outI c) = Finset.univ := by
  refine Finset.eq_univ_iff_forall.mpr fun i => Finset.mem_biUnion.mpr ?_
  obtain ⟨b, hb⟩ := out_cover_mem c i
  exact ⟨b, Finset.mem_univ _, hb⟩

/-- The result buffer held whole is held piece by piece (at any contents `g`). -/
theorem out_split (c : Dev nD) (g : Buf (Elt F) ((c : Thread nD τ).loc cc0_stg1_0)) :
    ((((c : Thread nD τ).loc cc0_stg1_0) ↦{fullShare} g : sProp 𝕄))
      = iprop((((c : Thread nD τ).loc cc0_stg1_0) ↦[ownSet c]{fullShare} g)
          ∗ (bigSep Finset.univ fun k : Fin 16 => (yDst (py c) k).view.loc (c : Thread nD τ) ↦[(yDst (py c) k).view.set]{fullShare} g)
          ∗ (bigSep Finset.univ fun k : Fin 16 => (fwdM (px c) k).view.loc (c : Thread nD τ) ↦[(fwdM (px c) k).view.set]{fullShare} g)) := by
  rw [Ring.pointsTo_blocks (ℓ := (c : Thread nD τ).loc cc0_stg1_0) (outI c) (out_disj c) (out_cover c) g,
    bigSep_univ_sum, bigSep_univ_sum, bigSep_univ_of_subsingleton ()]
  rfl

/-- The staging buffer held whole is held chunk by chunk. -/
theorem sb_split (c : Dev nD) (f : Buf (Elt F) ((c : Thread nD τ).loc cc0_scratch0)) :
    ((((c : Thread nD τ).loc cc0_scratch0) ↦{fullShare} f : sProp 𝕄))
      = (bigSep Finset.univ fun k : Fin 16 => (sbM k).view.loc (c : Thread nD τ) ↦[(sbM k).view.set]{fullShare} f) :=
  Ring.pointsTo_blocks (ℓ := (c : Thread nD τ).loc cc0_scratch0) (sbI c) sb_disj (sb_cover c) f

/-! ## What the stores and the landings leave -/

/-- Arithmetic over the four devices: case on the device's number, then linear arithmetic. -/
local macro "dev_omega " c:ident : tactic =>
  `(tactic| (have h4 : ($c).val = 0 ∨ ($c).val = 1 ∨ ($c).val = 2 ∨ ($c).val = 3 := by have := dev_lt $c; omega
             rcases h4 with h | h | h | h <;> omega))

/-! ### Where an element of a piece sits in its buffer -/

theorem sb_emb0 (k : Fin 16) (y : S32x512.Idx) : (((sbM k).view.emb y : S512x512.Idx) 0).val = 32 * k.val + (y 0).val := by
  show 32 * k.val + 1 * (y 0).val = _; omega
theorem sb_emb1 (k : Fin 16) (y : S32x512.Idx) : (((sbM k).view.emb y : S512x512.Idx) 1).val = (y 1).val := by
  show 0 + 1 * (y 1).val = _; omega

theorem own_emb0 (c : Dev nD) (y : S1024x512.Idx) :
    ((((oM.access (ownRect c) : View sig .tc _ _ _)).emb y : S2048x512.Idx) 0).val = 1024 * (c.val % 2) + (y 0).val := by
  show 1024 * (c.val % 2) + 1 * (y 0).val = _; omega
theorem own_emb1 (c : Dev nD) (y : S1024x512.Idx) :
    ((((oM.access (ownRect c) : View sig .tc _ _ _)).emb y : S2048x512.Idx) 1).val = (y 1).val := by
  show 0 + 1 * (y 1).val = _; omega

theorem yDst_emb0 (s : Dev nD) (k : Fin 16) (y : S32x512.Idx) :
    (((yDst s k).view.emb y : S2048x512.Idx) 0).val = 1024 * (s.val % 2) + 512 * (s.val / 2) + 32 * k.val + (y 0).val := by
  have h : k0_off3 s (cw k) 0 = 1024 * (s.val % 2) + 512 * (s.val / 2) + 32 * k.val := congrFun (k0_off3_eq s k) 0
  show k0_off3 s (cw k) 0 + 1 * (y 0).val = _
  omega
theorem yDst_emb1 (s : Dev nD) (k : Fin 16) (y : S32x512.Idx) : (((yDst s k).view.emb y : S2048x512.Idx) 1).val = (y 1).val := by
  have h : k0_off3 s (cw k) 1 = 0 := congrFun (k0_off3_eq s k) 1
  show k0_off3 s (cw k) 1 + 1 * (y 1).val = _
  omega

theorem fwd_emb0 (s : Dev nD) (k : Fin 16) (y : S32x512.Idx) :
    (((fwdM s k).view.emb y : S2048x512.Idx) 0).val = (512 * (s.val / 2) + 32 * k.val + 1024) - 1024 * (s.val % 2) + (y 0).val := by
  have h : k0_off34 s (cw k) 0 = (512 * (s.val / 2) + 32 * k.val + 1024) - 1024 * (s.val % 2) := congrFun (k0_off34_eq s k) 0
  show k0_off34 s (cw k) 0 + 1 * (y 0).val = _
  omega
theorem fwd_emb1 (s : Dev nD) (k : Fin 16) (y : S32x512.Idx) : (((fwdM s k).view.emb y : S2048x512.Idx) 1).val = (y 1).val := by
  have h : k0_off34 s (cw k) 1 = 0 := congrFun (k0_off34_eq s k) 1
  show k0_off34 s (cw k) 1 + 1 * (y 1).val = _
  omega

/-! ### The contents read at coordinates -/

theorem ixX_congr {a a' b b' : ℕ} (ha : a < 1024) (hb : b < 1024) (ha' : a' < 1024) (hb' : b' < 1024) (h0 : a = a') (h1 : b = b') :
    ixX a b ha hb = ixX a' b' ha' hb' := by
  subst h0 h1; rfl

/-- An index of the block is the index of its two coordinates. -/
theorem eq_ixX (j : S1024x1024.Idx) (a b : ℕ) (ha : a < 1024) (hb : b < 1024) (h0 : (j 0).val = a) (h1 : (j 1).val = b) :
    j = ixX a b ha hb :=
  Shape.idx_ext₂ h0 h1

/-- Which device a row comes from, case by case. -/
theorem srcDev_own (c : Dev nD) (r : ℕ) (h : r / 1024 = c.val % 2) : srcDev c r = c := if_pos h
theorem srcDev_py (c : Dev nD) (r : ℕ) (h1 : r / 1024 ≠ c.val % 2) (h2 : (r % 1024) / 512 = c.val / 2) : srcDev c r = py c := by
  unfold srcDev; rw [if_neg h1, if_pos h2]
theorem srcDev_px (c : Dev nD) (r : ℕ) (h1 : r / 1024 ≠ c.val % 2) (h2 : (r % 1024) / 512 ≠ c.val / 2) : srcDev c r = px (py c) := by
  unfold srcDev; rw [if_neg h1, if_neg h2]

/-- `Gout` at an index whose source device, row in the block and column in the block are known. -/
theorem Gout_at {F : FTy → Type} [FloatOps F] (m : (ℓ : Loc nD τ sig) → Buf (Elt F) ℓ) (c s : Dev nD) (i : S2048x512.Idx)
    (a b : ℕ) (ha : a < 1024) (hb : b < 1024)
    (hs : srcDev c (i 0).val = s) (h0 : (i 0).val % 1024 = a) (h1 : 512 * (c.val % 2) + (i 1).val = b) :
    Gout m c i = cast1 (X m s (ixX a b ha hb)) := by
  subst hs h0 h1; rfl

/-- `SB` at an index whose row and column in the block are known. -/
theorem SB_at {F : FTy → Type} [FloatOps F] (m : (ℓ : Loc nD τ sig) → Buf (Elt F) ℓ) (c : Dev nD) (i : S512x512.Idx)
    (a b : ℕ) (ha : a < 1024) (hb : b < 1024)
    (h0 : 512 * (c.val / 2) + (i 0).val = a) (h1 : 512 * (1 - c.val % 2) + (i 1).val = b) :
    SB m c i = cast1 (X m c (ixX a b ha hb)) := by
  subst h0 h1; rfl

/-- The staged argument block is the argument array itself: the window is the whole array. -/
theorem xstg_whole {F : FTy → Type} [FloatOps F] (m : (ℓ : Loc nD τ sig) → Buf (Elt F) ℓ) (c : Dev nD) : xstg m c = X m c := by
  have hz : (fun a => (win0_0.index (0 : Fin 1)) a * main_arg0.ty.shape.size a) = fun _ => 0 := funext fun a => Nat.zero_mul _
  exact Memref.read_access_unit_zero (Elt F) main_arg0 hz (fun a => by rw [congrFun hz a, Nat.zero_add]) (m ((c : Thread nD τ).loc main_arg0))

/-- A load through the whole staged argument block reads the contents at the rectangle's coordinates. -/
theorem xM_readAt {F : FTy → Type} [FloatOps F] (f : S1024x1024.Idx → Elt F .f32) (r : LoadRect S1024x1024) (y : r.shape.Idx) :
    (xM : Memref sig .tc .vmem S1024x1024 .f32).view.readAt (Elt F) r f y = f (r.idx y) := rfl

/-- The cast payload of a 32-row chunk, at an index. -/
theorem k0_pay1_apply {F : FTy → Type} [FloatOps F] (v : Vec F S32x512 .f32) (y : S32x512.Idx) : k0_pay1 v y = cast1 (v y) := by
  unfold k0_pay1
  simp only [shapeCast_self]
  rfl

/-- Staging chunk `k`: the cast of rows [512 (c / 2) + 32 k, + 32), columns of the other column block, of `c`'s block,
    stored over anything, is `SB` on the chunk. `off` is the load's offset as the body computes it. -/
theorem sb_val (c : Dev nD) (k : Fin 16) (f : Buf (Elt F) ((c : Thread nD τ).loc cc0_scratch0))
    (off : Fin 2 → Nat) (inb : ∀ a, off a + S32x512.size a ≤ S1024x1024.size a)
    (hoff : off = ![512 * (c.val / 2) + 32 * k.val, 512 * (1 - c.val % 2)]) :
    ∀ i ∈ (sbM k).view.set,
      ((sM.access (Rect.unit (s := S512x512) ![32 * k.val, 0] S32x512.size (sb_inb k)) : View sig .tc _ _ _).write (Elt F) f
        (k0_pay1 ((xM : Memref sig .tc .vmem S1024x1024 .f32).view.readAt (Elt F) (Rect.unit (s := S1024x1024) off S32x512.size inb).toLoadRect (xstg m c))) Finset.univ) i
        = SB m c i := by
  subst hoff
  intro i hi
  obtain ⟨y, rfl⟩ := (sbM k).view.exists_emb_of_mem_set hi
  have hy0 : (y 0).val < 32 := (y 0).isLt
  have hy1 : (y 1).val < 512 := (y 1).isLt
  have hk := k.isLt
  have hS : SB m c ((sbM k).view.emb y)
      = cast1 (X m c (ixX (512 * (c.val / 2) + 32 * k.val + (y 0).val) (512 * (1 - c.val % 2) + (y 1).val) (by dev_omega c) (by dev_omega c))) :=
    SB_at m c _ _ _ _ _ (by rw [sb_emb0]; omega) (by rw [sb_emb1])
  have hx : (xM : Memref sig .tc .vmem S1024x1024 .f32).view.readAt (Elt F)
        (Rect.unit (s := S1024x1024) ![512 * (c.val / 2) + 32 * k.val, 512 * (1 - c.val % 2)] S32x512.size inb).toLoadRect (xstg m c) y
      = X m c (ixX (512 * (c.val / 2) + 32 * k.val + (y 0).val) (512 * (1 - c.val % 2) + (y 1).val) (by dev_omega c) (by dev_omega c)) := by
    rw [xstg_whole, xM_readAt]
    exact congrArg (X m c) (eq_ixX _ _ _ _ _
      (by show (512 * (c.val / 2) + 32 * k.val) + 1 * (y 0).val = _; omega)
      (by show 512 * (1 - c.val % 2) + 1 * (y 1).val = _; omega))
  show (sbM k).view.write (Elt F) f _ Finset.univ ((sbM k).view.emb y) = _
  rw [View.write_emb_of_mem _ _ (Finset.mem_univ _), k0_pay1_apply, hx, hS]
  rfl

/-- The own half: the cast of the columns of `c`'s own column block of its block, stored over anything, is `Gout`
    on the own rows. -/
theorem own_val (c : Dev nD) (g : Buf (Elt F) ((c : Thread nD τ).loc cc0_stg1_0))
    (off : Fin 2 → Nat) (inb : ∀ a, off a + S1024x512.size a ≤ S1024x1024.size a)
    (hoff : off = ![0, 512 * (c.val % 2)])
    (pay : Vec F S1024x512 .f32 → FVec F S1024x512 .bf16)
    (hpay : ∀ v i, pay v i = cast1 (v i)) :
    ∀ i ∈ ownSet c,
      ((oM.access (ownRect c) : View sig .tc _ _ _).write (Elt F) g
        (pay ((xM : Memref sig .tc .vmem S1024x1024 .f32).view.readAt (Elt F) (Rect.unit (s := S1024x1024) off S1024x512.size inb).toLoadRect (xstg m c))) Finset.univ) i
        = Gout m c i := by
  subst hoff
  intro i hi
  obtain ⟨y, rfl⟩ := ((oM.access (ownRect c) : View sig .tc _ _ _)).exists_emb_of_mem_set hi
  have hy0 : (y 0).val < 1024 := (y 0).isLt
  have hy1 : (y 1).val < 512 := (y 1).isLt
  have hG : Gout m c ((oM.access (ownRect c) : View sig .tc _ _ _).emb y)
      = cast1 (X m c (ixX (y 0).val (512 * (c.val % 2) + (y 1).val) (by omega) (by dev_omega c))) :=
    Gout_at m c c _ _ _ _ _ (srcDev_own _ _ (by rw [own_emb0]; dev_omega c)) (by rw [own_emb0]; dev_omega c) (by rw [own_emb1])
  have hx : (xM : Memref sig .tc .vmem S1024x1024 .f32).view.readAt (Elt F)
        (Rect.unit (s := S1024x1024) ![0, 512 * (c.val % 2)] S1024x512.size inb).toLoadRect (xstg m c) y
      = X m c (ixX (y 0).val (512 * (c.val % 2) + (y 1).val) (by omega) (by dev_omega c)) := by
    rw [xstg_whole, xM_readAt]
    exact congrArg (X m c) (eq_ixX _ _ _ _ _
      (by show 0 + 1 * (y 0).val = _; omega)
      (by show 512 * (c.val % 2) + 1 * (y 1).val = _; omega))
  rw [View.write_emb_of_mem _ _ (Finset.mem_univ _), hpay, hx, hG]
  rfl

/-- A transfer's landing on `py c`: the staged chunk written over anything is `py c`'s `Gout` on the chunk. -/
theorem land_y_val (c : Dev nD) (k : Fin 16) (fd : Buf (Elt F) ((yDst c k).view.loc (py c : Thread nD τ))) :
    ∀ i ∈ (yDst c k).view.set,
      ((yDst c k).view.write (Elt F) fd ((sbM k).view.read (Elt F) (SB m c)) Finset.univ) i = Gout m (py c) i := by
  intro i hi
  obtain ⟨y, rfl⟩ := (yDst c k).view.exists_emb_of_mem_set hi
  have hy0 : (y 0).val < 32 := (y 0).isLt
  have hy1 : (y 1).val < 512 := (y 1).isLt
  have hk := k.isLt
  have hG : Gout m (py c) ((yDst c k).view.emb y)
      = cast1 (X m c (ixX (512 * (c.val / 2) + 32 * k.val + (y 0).val) (512 * (1 - c.val % 2) + (y 1).val) (by dev_omega c) (by dev_omega c))) :=
    Gout_at m (py c) c _ _ _ _ _
      (by rw [srcDev_py _ _ (by rw [yDst_emb0, py_val]; dev_omega c) (by rw [yDst_emb0, py_val]; dev_omega c), py_py])
      (by rw [yDst_emb0]; dev_omega c) (by rw [yDst_emb1, py_val]; dev_omega c)
  have hS : SB m c ((sbM k).view.emb y)
      = cast1 (X m c (ixX (512 * (c.val / 2) + 32 * k.val + (y 0).val) (512 * (1 - c.val % 2) + (y 1).val) (by dev_omega c) (by dev_omega c))) :=
    SB_at m c _ _ _ _ _ (by rw [sb_emb0]; omega) (by rw [sb_emb1])
  rw [View.write_emb_of_mem _ _ (Finset.mem_univ _), View.read_apply, hG, hS]
  rfl

/-- A forward's landing on `px c`: `c`'s rows written over anything are `px c`'s `Gout` on the chunk. -/
theorem land_x_val (c : Dev nD) (k : Fin 16) (fd : Buf (Elt F) ((fwdM c k).view.loc (px c : Thread nD τ))) :
    ∀ i ∈ (fwdM c k).view.set,
      ((fwdM c k).view.write (Elt F) fd ((fwdM c k).view.read (Elt F) (Gout m c)) Finset.univ) i = Gout m (px c) i := by
  intro i hi
  obtain ⟨y, rfl⟩ := (fwdM c k).view.exists_emb_of_mem_set hi
  have hy0 : (y 0).val < 32 := (y 0).isLt
  have hy1 : (y 1).val < 512 := (y 1).isLt
  have hk := k.isLt
  have hG : Gout m c ((fwdM c k).view.emb y)
      = cast1 (X m (py c) (ixX (512 * (c.val / 2) + 32 * k.val + (y 0).val) (512 * (c.val % 2) + (y 1).val) (by dev_omega c) (by dev_omega c))) :=
    Gout_at m c (py c) _ _ _ _ _
      (srcDev_py _ _ (by rw [fwd_emb0]; dev_omega c) (by rw [fwd_emb0]; dev_omega c))
      (by rw [fwd_emb0]; dev_omega c) (by rw [fwd_emb1])
  have hG' : Gout m (px c) ((fwdM c k).view.emb y)
      = cast1 (X m (py c) (ixX (512 * (c.val / 2) + 32 * k.val + (y 0).val) (512 * (c.val % 2) + (y 1).val) (by dev_omega c) (by dev_omega c))) :=
    Gout_at m (px c) (py c) _ _ _ _ _
      (by rw [srcDev_px _ _ (by rw [fwd_emb0, px_val]; dev_omega c) (by rw [fwd_emb0, px_val]; dev_omega c), ← px_py, px_px])
      (by rw [fwd_emb0]; dev_omega c) (by rw [fwd_emb1, px_val]; dev_omega c)
  rw [View.write_emb_of_mem _ _ (Finset.mem_univ _), View.read_apply, hG, hG']
  rfl

/-! ### Axioms -/

/-- info: 'Cert.KernelIdeal.A2A.yDst_py_eq_fwd' depends on axioms: [propext, Classical.choice, Quot.sound] -/
#guard_msgs in #print axioms yDst_py_eq_fwd
/-- info: 'Cert.KernelIdeal.A2A.out_split' depends on axioms: [propext, Classical.choice, Quot.sound] -/
#guard_msgs in #print axioms out_split
/-- info: 'Cert.KernelIdeal.A2A.sb_split' depends on axioms: [propext, Classical.choice, Quot.sound] -/
#guard_msgs in #print axioms sb_split
/-- info: 'Cert.KernelIdeal.A2A.sb_val' depends on axioms: [propext, Classical.choice, Quot.sound] -/
#guard_msgs in #print axioms sb_val
/-- info: 'Cert.KernelIdeal.A2A.own_val' depends on axioms: [propext, Classical.choice, Quot.sound] -/
#guard_msgs in #print axioms own_val
/-- info: 'Cert.KernelIdeal.A2A.land_y_val' depends on axioms: [propext, Classical.choice, Quot.sound] -/
#guard_msgs in #print axioms land_y_val
/-- info: 'Cert.KernelIdeal.A2A.land_x_val' depends on axioms: [propext, Classical.choice, Quot.sound] -/
#guard_msgs in #print axioms land_x_val

end Cert.KernelIdeal.A2A

end
-- ==== Proof.KernelIdeal.Tables.lean ====
import proofs.«900024_g7700000000000025_dist_a2a_v7x_xy2x2_y_m1024_n512_bf16_1_alg».proof.Proof.KernelIdeal.Spec

noncomputable section

namespace Cert.KernelIdeal.A2A

open Cert.KernelIdeal Cert.KernelIdeal.Gen
open Idealize.ShloMosaic Idealize.ShloMosaic.TcCoe

/-! ## The device each signal and each transfer addresses: `py c` for the first signal and the sixteen transfers, `px c` for the second signal and the sixteen forwards -/

theorem dev1_eq (c : Dev nD) : (⟨k0_dev1 c, k0_dev1_lt c⟩ : Dev nD) = py c := Fin.ext (k0_dev1_eq c)
theorem dev2_eq (c : Dev nD) : (⟨k0_dev2 c, k0_dev2_lt c⟩ : Dev nD) = px c := Fin.ext (k0_dev2_eq c)
theorem dev3_eq (c : Dev nD) : (⟨k0_dev3 c, k0_dev3_lt c⟩ : Dev nD) = py c := Fin.ext (k0_dev3_eq c)
theorem dev4_eq (c : Dev nD) : (⟨k0_dev4 c, k0_dev4_lt c⟩ : Dev nD) = py c := Fin.ext (k0_dev4_eq c)
theorem dev5_eq (c : Dev nD) : (⟨k0_dev5 c, k0_dev5_lt c⟩ : Dev nD) = py c := Fin.ext (k0_dev5_eq c)
theorem dev6_eq (c : Dev nD) : (⟨k0_dev6 c, k0_dev6_lt c⟩ : Dev nD) = py c := Fin.ext (k0_dev6_eq c)
theorem dev7_eq (c : Dev nD) : (⟨k0_dev7 c, k0_dev7_lt c⟩ : Dev nD) = py c := Fin.ext (k0_dev7_eq c)
theorem dev8_eq (c : Dev nD) : (⟨k0_dev8 c, k0_dev8_lt c⟩ : Dev nD) = py c := Fin.ext (k0_dev8_eq c)
theorem dev9_eq (c : Dev nD) : (⟨k0_dev9 c, k0_dev9_lt c⟩ : Dev nD) = py c := Fin.ext (k0_dev9_eq c)
theorem dev10_eq (c : Dev nD) : (⟨k0_dev10 c, k0_dev10_lt c⟩ : Dev nD) = py c := Fin.ext (k0_dev10_eq c)
theorem dev11_eq (c : Dev nD) : (⟨k0_dev11 c, k0_dev11_lt c⟩ : Dev nD) = py c := Fin.ext (k0_dev11_eq c)
theorem dev12_eq (c : Dev nD) : (⟨k0_dev12 c, k0_dev12_lt c⟩ : Dev nD) = py c := Fin.ext (k0_dev12_eq c)
theorem dev13_eq (c : Dev nD) : (⟨k0_dev13 c, k0_dev13_lt c⟩ : Dev nD) = py c := Fin.ext (k0_dev13_eq c)
theorem dev14_eq (c : Dev nD) : (⟨k0_dev14 c, k0_dev14_lt c⟩ : Dev nD) = py c := Fin.ext (k0_dev14_eq c)
theorem dev15_eq (c : Dev nD) : (⟨k0_dev15 c, k0_dev15_lt c⟩ : Dev nD) = py c := Fin.ext (k0_dev15_eq c)
theorem dev16_eq (c : Dev nD) : (⟨k0_dev16 c, k0_dev16_lt c⟩ : Dev nD) = py c := Fin.ext (k0_dev16_eq c)
theorem dev17_eq (c : Dev nD) : (⟨k0_dev17 c, k0_dev17_lt c⟩ : Dev nD) = py c := Fin.ext (k0_dev17_eq c)
theorem dev18_eq (c : Dev nD) : (⟨k0_dev18 c, k0_dev18_lt c⟩ : Dev nD) = py c := Fin.ext (k0_dev18_eq c)
theorem dev19_eq (c : Dev nD) : (⟨k0_dev19 c, k0_dev19_lt c⟩ : Dev nD) = px c := Fin.ext (k0_dev19_eq c)
theorem dev20_eq (c : Dev nD) : (⟨k0_dev20 c, k0_dev20_lt c⟩ : Dev nD) = px c := Fin.ext (k0_dev20_eq c)
theorem dev21_eq (c : Dev nD) : (⟨k0_dev21 c, k0_dev21_lt c⟩ : Dev nD) = px c := Fin.ext (k0_dev21_eq c)
theorem dev22_eq (c : Dev nD) : (⟨k0_dev22 c, k0_dev22_lt c⟩ : Dev nD) = px c := Fin.ext (k0_dev22_eq c)
theorem dev23_eq (c : Dev nD) : (⟨k0_dev23 c, k0_dev23_lt c⟩ : Dev nD) = px c := Fin.ext (k0_dev23_eq c)
theorem dev24_eq (c : Dev nD) : (⟨k0_dev24 c, k0_dev24_lt c⟩ : Dev nD) = px c := Fin.ext (k0_dev24_eq c)
theorem dev25_eq (c : Dev nD) : (⟨k0_dev25 c, k0_dev25_lt c⟩ : Dev nD) = px c := Fin.ext (k0_dev25_eq c)
theorem dev26_eq (c : Dev nD) : (⟨k0_dev26 c, k0_dev26_lt c⟩ : Dev nD) = px c := Fin.ext (k0_dev26_eq c)
theorem dev27_eq (c : Dev nD) : (⟨k0_dev27 c, k0_dev27_lt c⟩ : Dev nD) = px c := Fin.ext (k0_dev27_eq c)
theorem dev28_eq (c : Dev nD) : (⟨k0_dev28 c, k0_dev28_lt c⟩ : Dev nD) = px c := Fin.ext (k0_dev28_eq c)
theorem dev29_eq (c : Dev nD) : (⟨k0_dev29 c, k0_dev29_lt c⟩ : Dev nD) = px c := Fin.ext (k0_dev29_eq c)
theorem dev30_eq (c : Dev nD) : (⟨k0_dev30 c, k0_dev30_lt c⟩ : Dev nD) = px c := Fin.ext (k0_dev30_eq c)
theorem dev31_eq (c : Dev nD) : (⟨k0_dev31 c, k0_dev31_lt c⟩ : Dev nD) = px c := Fin.ext (k0_dev31_eq c)
theorem dev32_eq (c : Dev nD) : (⟨k0_dev32 c, k0_dev32_lt c⟩ : Dev nD) = px c := Fin.ext (k0_dev32_eq c)
theorem dev33_eq (c : Dev nD) : (⟨k0_dev33 c, k0_dev33_lt c⟩ : Dev nD) = px c := Fin.ext (k0_dev33_eq c)
theorem dev34_eq (c : Dev nD) : (⟨k0_dev34 c, k0_dev34_lt c⟩ : Dev nD) = px c := Fin.ext (k0_dev34_eq c)

/-! ## The staging stores' conditions: the odd-numbered ones hold on the devices with `c % 2 = 0`, the even-numbered on those with `c % 2 = 1` -/

theorem cond1_y0 (c : Dev nD) (h : c.val % 2 = 0) : k0_cond1 c = 1#1 := by revert c; decide
theorem cond1_y1 (c : Dev nD) (h : c.val % 2 = 1) : ¬ k0_cond1 c = 1#1 := by revert c; decide
theorem cond2_y0 (c : Dev nD) (h : c.val % 2 = 0) : ¬ k0_cond2 c = 1#1 := by revert c; decide
theorem cond2_y1 (c : Dev nD) (h : c.val % 2 = 1) : k0_cond2 c = 1#1 := by revert c; decide
theorem cond3_y0 (c : Dev nD) (h : c.val % 2 = 0) : k0_cond3 c = 1#1 := by revert c; decide
theorem cond3_y1 (c : Dev nD) (h : c.val % 2 = 1) : ¬ k0_cond3 c = 1#1 := by revert c; decide
theorem cond4_y0 (c : Dev nD) (h : c.val % 2 = 0) : ¬ k0_cond4 c = 1#1 := by revert c; decide
theorem cond4_y1 (c : Dev nD) (h : c.val % 2 = 1) : k0_cond4 c = 1#1 := by revert c; decide
theorem cond5_y0 (c : Dev nD) (h : c.val % 2 = 0) : k0_cond5 c = 1#1 := by revert c; decide
theorem cond5_y1 (c : Dev nD) (h : c.val % 2 = 1) : ¬ k0_cond5 c = 1#1 := by revert c; decide
theorem cond6_y0 (c : Dev nD) (h : c.val % 2 = 0) : ¬ k0_cond6 c = 1#1 := by revert c; decide
theorem cond6_y1 (c : Dev nD) (h : c.val % 2 = 1) : k0_cond6 c = 1#1 := by revert c; decide
theorem cond7_y0 (c : Dev nD) (h : c.val % 2 = 0) : k0_cond7 c = 1#1 := by revert c; decide
theorem cond7_y1 (c : Dev nD) (h : c.val % 2 = 1) : ¬ k0_cond7 c = 1#1 := by revert c; decide
theorem cond8_y0 (c : Dev nD) (h : c.val % 2 = 0) : ¬ k0_cond8 c = 1#1 := by revert c; decide
theorem cond8_y1 (c : Dev nD) (h : c.val % 2 = 1) : k0_cond8 c = 1#1 := by revert c; decide
theorem cond9_y0 (c : Dev nD) (h : c.val % 2 = 0) : k0_cond9 c = 1#1 := by revert c; decide
theorem cond9_y1 (c : Dev nD) (h : c.val % 2 = 1) : ¬ k0_cond9 c = 1#1 := by revert c; decide
theorem cond10_y0 (c : Dev nD) (h : c.val % 2 = 0) : ¬ k0_cond10 c = 1#1 := by revert c; decide
theorem cond10_y1 (c : Dev nD) (h : c.val % 2 = 1) : k0_cond10 c = 1#1 := by revert c; decide
theorem cond11_y0 (c : Dev nD) (h : c.val % 2 = 0) : k0_cond11 c = 1#1 := by revert c; decide
theorem cond11_y1 (c : Dev nD) (h : c.val % 2 = 1) : ¬ k0_cond11 c = 1#1 := by revert c; decide
theorem cond12_y0 (c : Dev nD) (h : c.val % 2 = 0) : ¬ k0_cond12 c = 1#1 := by revert c; decide
theorem cond12_y1 (c : Dev nD) (h : c.val % 2 = 1) : k0_cond12 c = 1#1 := by revert c; decide
theorem cond13_y0 (c : Dev nD) (h : c.val % 2 = 0) : k0_cond13 c = 1#1 := by revert c; decide
theorem cond13_y1 (c : Dev nD) (h : c.val % 2 = 1) : ¬ k0_cond13 c = 1#1 := by revert c; decide
theorem cond14_y0 (c : Dev nD) (h : c.val % 2 = 0) : ¬ k0_cond14 c = 1#1 := by revert c; decide
theorem cond14_y1 (c : Dev nD) (h : c.val % 2 = 1) : k0_cond14 c = 1#1 := by revert c; decide
theorem cond15_y0 (c : Dev nD) (h : c.val % 2 = 0) : k0_cond15 c = 1#1 := by revert c; decide
theorem cond15_y1 (c : Dev nD) (h : c.val % 2 = 1) : ¬ k0_cond15 c = 1#1 := by revert c; decide
theorem cond16_y0 (c : Dev nD) (h : c.val % 2 = 0) : ¬ k0_cond16 c = 1#1 := by revert c; decide
theorem cond16_y1 (c : Dev nD) (h : c.val % 2 = 1) : k0_cond16 c = 1#1 := by revert c; decide
theorem cond17_y0 (c : Dev nD) (h : c.val % 2 = 0) : k0_cond17 c = 1#1 := by revert c; decide
theorem cond17_y1 (c : Dev nD) (h : c.val % 2 = 1) : ¬ k0_cond17 c = 1#1 := by revert c; decide
theorem cond18_y0 (c : Dev nD) (h : c.val % 2 = 0) : ¬ k0_cond18 c = 1#1 := by revert c; decide
theorem cond18_y1 (c : Dev nD) (h : c.val % 2 = 1) : k0_cond18 c = 1#1 := by revert c; decide
theorem cond19_y0 (c : Dev nD) (h : c.val % 2 = 0) : k0_cond19 c = 1#1 := by revert c; decide
theorem cond19_y1 (c : Dev nD) (h : c.val % 2 = 1) : ¬ k0_cond19 c = 1#1 := by revert c; decide
theorem cond20_y0 (c : Dev nD) (h : c.val % 2 = 0) : ¬ k0_cond20 c = 1#1 := by revert c; decide
theorem cond20_y1 (c : Dev nD) (h : c.val % 2 = 1) : k0_cond20 c = 1#1 := by revert c; decide
theorem cond21_y0 (c : Dev nD) (h : c.val % 2 = 0) : k0_cond21 c = 1#1 := by revert c; decide
theorem cond21_y1 (c : Dev nD) (h : c.val % 2 = 1) : ¬ k0_cond21 c = 1#1 := by revert c; decide
theorem cond22_y0 (c : Dev nD) (h : c.val % 2 = 0) : ¬ k0_cond22 c = 1#1 := by revert c; decide
theorem cond22_y1 (c : Dev nD) (h : c.val % 2 = 1) : k0_cond22 c = 1#1 := by revert c; decide
theorem cond23_y0 (c : Dev nD) (h : c.val % 2 = 0) : k0_cond23 c = 1#1 := by revert c; decide
theorem cond23_y1 (c : Dev nD) (h : c.val % 2 = 1) : ¬ k0_cond23 c = 1#1 := by revert c; decide
theorem cond24_y0 (c : Dev nD) (h : c.val % 2 = 0) : ¬ k0_cond24 c = 1#1 := by revert c; decide
theorem cond24_y1 (c : Dev nD) (h : c.val % 2 = 1) : k0_cond24 c = 1#1 := by revert c; decide
theorem cond25_y0 (c : Dev nD) (h : c.val % 2 = 0) : k0_cond25 c = 1#1 := by revert c; decide
theorem cond25_y1 (c : Dev nD) (h : c.val % 2 = 1) : ¬ k0_cond25 c = 1#1 := by revert c; decide
theorem cond26_y0 (c : Dev nD) (h : c.val % 2 = 0) : ¬ k0_cond26 c = 1#1 := by revert c; decide
theorem cond26_y1 (c : Dev nD) (h : c.val % 2 = 1) : k0_cond26 c = 1#1 := by revert c; decide
theorem cond27_y0 (c : Dev nD) (h : c.val % 2 = 0) : k0_cond27 c = 1#1 := by revert c; decide
theorem cond27_y1 (c : Dev nD) (h : c.val % 2 = 1) : ¬ k0_cond27 c = 1#1 := by revert c; decide
theorem cond28_y0 (c : Dev nD) (h : c.val % 2 = 0) : ¬ k0_cond28 c = 1#1 := by revert c; decide
theorem cond28_y1 (c : Dev nD) (h : c.val % 2 = 1) : k0_cond28 c = 1#1 := by revert c; decide
theorem cond29_y0 (c : Dev nD) (h : c.val % 2 = 0) : k0_cond29 c = 1#1 := by revert c; decide
theorem cond29_y1 (c : Dev nD) (h : c.val % 2 = 1) : ¬ k0_cond29 c = 1#1 := by revert c; decide
theorem cond30_y0 (c : Dev nD) (h : c.val % 2 = 0) : ¬ k0_cond30 c = 1#1 := by revert c; decide
theorem cond30_y1 (c : Dev nD) (h : c.val % 2 = 1) : k0_cond30 c = 1#1 := by revert c; decide
theorem cond31_y0 (c : Dev nD) (h : c.val % 2 = 0) : k0_cond31 c = 1#1 := by revert c; decide
theorem cond31_y1 (c : Dev nD) (h : c.val % 2 = 1) : ¬ k0_cond31 c = 1#1 := by revert c; decide
theorem cond32_y0 (c : Dev nD) (h : c.val % 2 = 0) : ¬ k0_cond32 c = 1#1 := by revert c; decide
theorem cond32_y1 (c : Dev nD) (h : c.val % 2 = 1) : k0_cond32 c = 1#1 := by revert c; decide

end Cert.KernelIdeal.A2A

end
-- ==== Proof.KernelIdeal.Steps.lean ====
/-
  The steps of one device's body that touch another device or a cell others pay, each as ONE rule: the premises are
  exactly what the step consumes, the conclusion what it leaves, so that the body lemma applies them in program order.
  The deadlock argument is here too: a device waits on its barrier cell (level 1) while it owes only landings (levels 2
  and 3), and on a landing of the first exchange (level 2) while it owes only forwards (level 3).
-/
import proofs.«900024_g7700000000000025_dist_a2a_v7x_xy2x2_y_m1024_n512_bf16_1_alg».proof.Proof.KernelIdeal.Regions
import proofs.«900024_g7700000000000025_dist_a2a_v7x_xy2x2_y_m1024_n512_bf16_1_alg».proof.Proof.KernelIdeal.Tables

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 65 → ℕ)

/-! ## What is still owed, cell by cell -/

theorem remF_pos {c : Dev nD} {n : ℕ} {g : GSem nD τ sig} {u : Unit} (h : 0 < remF c n g u) : ∃ k, g = dCell (px c) 3 k := by
  induction n with
  | zero => exact absurd h (Nat.lt_irrefl 0)
  | succ n ih =>
    unfold remF at h
    rw [Pi.add_apply, Finsupp.add_apply, tallyAt_apply] at h
    by_cases hg : g = dCell (px c) 3 ⟨(15 - n) % 16, Nat.mod_lt _ (by decide)⟩ ∧ u = ()
    · exact ⟨_, hg.1⟩
    · rw [if_neg hg, Nat.add_zero] at h; exact ih h

theorem remY_pos {c : Dev nD} {n : ℕ} {g : GSem nD τ sig} {u : Unit} (h : 0 < remY c n g u) :
    (∃ k, g = dCell (py c) 1 k) ∨ ∃ k, g = dCell (px c) 3 k := by
  induction n with
  | zero => exact Or.inr (remF_pos h)
  | succ n ih =>
    unfold remY at h
    rw [Pi.add_apply, Finsupp.add_apply, tallyAt_apply] at h
    by_cases hg : g = dCell (py c) 1 ⟨(15 - n) % 16, Nat.mod_lt _ (by decide)⟩ ∧ u = ()
    · exact Or.inl ⟨_, hg.1⟩
    · rw [if_neg hg, Nat.add_zero] at h; exact ih h

theorem lv_dCell (c : Dev nD) (j : Fin 4) (k : Fin 16) (u : Unit) : lv (dCell c j k) u = if j.val < 2 then 2 else 3 := by
  show (if (dsem j k).val < 2 then 0 else if ((dsem j k).val - 2) / 16 < 2 then 2 else 3) = _
  revert j k; decide

/-- At its barrier wait a device owes only landings: cells of level 2 and 3, above its barrier cell's 1. -/
theorem mayWait_bar (c : Dev nD) (n : ℕ) :
    (levAts L lv : sProp 𝕄) ⊢ MayWait (c : Thread nD τ) (.reg barS) () (remY c n) :=
  MayOwe.of_cut (L := L) (lev := lv) 1 (fun p hp => by rw [Finset.mem_singleton.mp hp, L_tc]; exact Finset.mem_singleton_self _)
    (fun g u hg => by
      rcases remY_pos hg with ⟨k, rfl⟩ | ⟨k, rfl⟩ <;> (rw [L_tc]; exact Finset.mem_singleton_self _))
    (fun p hp => by rw [Finset.mem_singleton.mp hp]; exact le_refl _)
    (fun g u hg => by
      rcases remY_pos hg with ⟨k, rfl⟩ | ⟨k, rfl⟩ <;> (rw [lv_dCell]; decide))

/-- At the wait for a landing of the first exchange a device owes only forwards: cells of level 3, above 2. -/
theorem mayWait_land (c : Dev nD) (k : Fin 16) (n : ℕ) :
    (levAts L lv : sProp 𝕄) ⊢ MayWait (c : Thread nD τ) (.dma (dsem 1 k)) () (remF c n) :=
  MayOwe.of_cut (L := L) (lev := lv) 2 (fun p hp => by rw [Finset.mem_singleton.mp hp, L_tc]; exact Finset.mem_singleton_self _)
    (fun g u hg => by obtain ⟨k', rfl⟩ := remF_pos hg; rw [L_tc]; exact Finset.mem_singleton_self _)
    (fun p hp => by rw [Finset.mem_singleton.mp hp]; show lv (dCell c 1 k) () ≤ 2; rw [lv_dCell]; decide)
    (fun g u hg => by obtain ⟨k', rfl⟩ := remF_pos hg; rw [lv_dCell]; decide)

/-! ## Reading the persistent records -/

theorem invs_at (ck : Dev nD × Fin 65) :
    (bigSep Finset.univ fun ck : Dev nD × Fin 65 => (cellInv ER (sched m) (K ck) (kcell ck) : sProp 𝕄)) ⊢ cellInv ER (sched m) (K ck) (kcell ck) :=
  bigSep_elim (Finset.mem_univ ck)
theorem reacheds_at (ck : Dev nD × Fin 65) :
    (bigSep Finset.univ fun ck : Dev nD × Fin 65 => (reached ER (kcell ck) 0 : sProp 𝕄)) ⊢ reached ER (kcell ck) 0 :=
  bigSep_elim (Finset.mem_univ ck)

theorem inv_bar (c : Dev nD) : records m K ⊢ cellInv ER (sched m) (K (c, 0)) (barCell c) := by
  unfold records; iintro ⟨HI, -⟩
  iapply (invs_at m K (c, 0)); iexact HI
theorem inv_dma (c : Dev nD) (j : Fin 4) (k : Fin 16) : records m K ⊢ cellInv ER (sched m) (K (c, ci j k)) (dCell c j k) := by
  rw [← kcell_ci]
  unfold records; iintro ⟨HI, -⟩
  iapply (invs_at m K (c, ci j k)); iexact HI
theorem reached_bar (c : Dev nD) : records m K ⊢ reached ER (barCell c) 0 := by
  unfold records; iintro ⟨-, HR⟩
  iapply (reacheds_at (F := F) (c, 0)); iexact HR
theorem reached_dma (c : Dev nD) (j : Fin 4) (k : Fin 16) : records m K ⊢ reached ER (dCell c j k) 0 := by
  rw [← kcell_ci]
  unfold records; iintro ⟨-, HR⟩
  iapply (reacheds_at (F := F) (c, ci j k)); iexact HR

/-! ## The signals and the barrier wait -/

/-- The first signal, to `py c`'s barrier cell: its duty `false`, with the sixteen pieces of `c`'s result buffer that
    `py c`'s transfers write. -/
theorem step_sig_py (c : Dev nD) (dv : Dev nD) (hdv : dv = py c) (n : ℕ) (hn : n = 1) (W : Waits sig Unit)
    {α : Type} {Q : α → sProp 𝕄} {kont : PUnit → Prog (TpuEff nD τ sig (Elt F) Λ₀ .tc) α} :
    records m K
      ⊢ iprop(owes (c : Thread nD τ) (O₀ c) W -∗ dutyTok ER (barCell (py c)) 0 false -∗ barPayY (py c)
          -∗ (owes (c : Thread nD τ) (O₁ c) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (dv : Thread nD τ) barS n) kont) Q) := by
  subst hdv; subst hn
  iintro #Hrec HO Ht Hp Hk
  ihave #HI := (inv_bar m K (py c)) $$ Hrec
  ihave #Hr := (reached_bar m K (py c)) $$ Hrec
  iapply (Rounds.wp_signal 𝒱₀ ER (sched m) (c : Thread nD τ) none (dst := (py c : Thread nD τ)) (κ := K (py c, 0))
      (d := false) (by rw [duties_bar]; exact Finset.mem_univ _) (amount_bar m (py c) false) () (O₁ c) rfl) $$ [HO Ht Hp]
  · isplitr; · iexact HI
    isplitl [HO]; · iexact HO
    isplitl [Ht]; · iexact Ht
    isplitl [Hp]; · rw [payload_bar_false]; iexact Hp
    iexact Hr
  iexact Hk

/-- The second signal, to `px c`'s barrier cell: its duty `true`, with the sixteen pieces that `px c`'s forwards write. -/
theorem step_sig_px (c : Dev nD) (dv : Dev nD) (hdv : dv = px c) (n : ℕ) (hn : n = 1) (W : Waits sig Unit)
    {α : Type} {Q : α → sProp 𝕄} {kont : PUnit → Prog (TpuEff nD τ sig (Elt F) Λ₀ .tc) α} :
    records m K
      ⊢ iprop(owes (c : Thread nD τ) (O₁ c) W -∗ dutyTok ER (barCell (px c)) 0 true -∗ barPayX (px c)
          -∗ (owes (c : Thread nD τ) (remY c 16) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (dv : Thread nD τ) barS n) kont) Q) := by
  subst hdv; subst hn
  iintro #Hrec HO Ht Hp Hk
  ihave #HI := (inv_bar m K (px c)) $$ Hrec
  ihave #Hr := (reached_bar m K (px c)) $$ Hrec
  iapply (Rounds.wp_signal 𝒱₀ ER (sched m) (c : Thread nD τ) none (dst := (px c : Thread nD τ)) (κ := K (px c, 0))
      (d := true) (by rw [duties_bar]; exact Finset.mem_univ _) (amount_bar m (px c) true) () (remY c 16) rfl) $$ [HO Ht Hp]
  · isplitr; · iexact HI
    isplitl [HO]; · iexact HO
    isplitl [Ht]; · iexact Ht
    isplitl [Hp]; · rw [payload_bar_true]; iexact Hp
    iexact Hr
  iexact Hk

/-- The wait for 2 on its own barrier cell: both neighbours are inside the kernel, and their pieces come with it. -/
theorem step_wait_bar (c : Dev nD) (W : Waits sig Unit)
    {w : TpuEff nD τ sig (Elt F) Λ₀ (c : Thread nD τ).2 PUnit} {k' : ℕ}
    (hw : ∀ Kc : PUnit → sProp 𝕄, wpE (defs₀ (F := F)) 𝒱₀ (c : Thread nD τ) none Set.univ w Kc = waitSpec (c : Thread nD τ) Set.univ (.reg barS) k' Kc)
    (hk' : k' = 2)
    {α : Type} {Q : α → sProp 𝕄} {kont : PUnit → Prog (TpuEff nD τ sig (Elt F) Λ₀ .tc) α} :
    records m K
      ⊢ iprop(cred (tallyAt (barCell c) () 2) -∗ owes (c : Thread nD τ) (remY c 16) W -∗ levAts L lv -∗ atPos ER (barCell c) 0 ∅ 0
          -∗ ((owes (c : Thread nD τ) (remY c 16) (insert (SemLoc.reg barS, ()) W) ∗ atPos ER (barCell c) 1 ∅ 0 ∗ barPayY c ∗ barPayX c)
              -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hk'
  iintro #Hrec Hc HO #Hlev Hat Hk
  ihave #HI := (inv_bar m K c) $$ Hrec
  iapply (Rounds.wp_wait_rest_token 𝒱₀ ER (sched m) (c : Thread nD τ) none (κ := K (c, 0))
      hw (Set.mem_univ _) () (O := remY c 16) (W := W) (R := 0) (m := 0) (T := ∅)
      (by rw [expect_bar])) $$ [Hc HO Hat]
  · isplitr; · iexact HI
    isplitl [Hc]; · iexact Hc
    isplitl [HO]; · iexact HO
    isplitr; · iapply (mayWait_bar c 16); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-! ## The waits on the DMA cells -/

/-- A device that owes nothing may wait on anything. -/
theorem mayWait_zero (c : Dev nD) (s : SemLoc sig) : (levAts L lv : sProp 𝕄) ⊢ MayWait (c : Thread nD τ) s () 0 := by
  rw [MayWait_zero]; iintro -; iempintro

/-- A wait on the DMA cell of class `j`, chunk `k`, for its one duty's credit: the duty's payload comes with it. -/
theorem step_wait_dma (c : Dev nD) (j : Fin 4) (k : Fin 16) (O : CellTallies nD τ sig Unit) (W : Waits sig Unit)
    (s : DmaSem sig) (hs : s = dsem j k)
    (src dst : Memref sig .tc .vmem S32x512 .bf16) {hsrc : src.view.WordExact} {hdst : dst.view.WordExact}
    (hk' : dst.view.dmaCredit = N)
    (hmw : (levAts L lv : sProp 𝕄) ⊢ MayWait (c : Thread nD τ) (.dma (dsem j k)) () O)
    {α : Type} {Q : α → sProp 𝕄} {kont : PUnit → Prog (TpuEff nD τ sig (Elt F) Λ₀ .tc) α} :
    records m K
      ⊢ iprop(cred (tallyAt (dCell c j k) () N) -∗ owes (c : Thread nD τ) O W -∗ levAts L lv
          -∗ atPos ER (dCell c j k) 0 ∅ 0
          -∗ ((owes (c : Thread nD τ) O (insert (SemLoc.dma (dsem j k), ()) W) ∗ atPos ER (dCell c j k) 1 ∅ 0 ∗ dmaPay m c j k)
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 s src dst hsrc hdst) kont) Q) := by
  subst hs
  iintro #Hrec Hc HO #Hlev Hat Hk
  ihave #HI := (inv_dma m K c j k) $$ Hrec
  iapply (Rounds.wp_wait_rest_token 𝒱₀ ER (sched m) (c : Thread nD τ) none (κ := K (c, ci j k))
      (wpE_waitDma2_eq 𝒱₀ (c : Thread nD τ) none Set.univ) (Set.mem_univ _) () (O := O) (W := W) (R := 0) (m := 0) (T := ∅)
      (by rw [Nat.zero_add, expect_dma, hk'])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_dma m c j k)) $$ Hpay
  iapply Hk
  isplitl [HO]; · iexact HO
  isplitl [Hat]; · iexact Hat
  iexact Hp

/-- An own DMA cell after its one round closes: its counter at zero is the device's again. -/
theorem step_close (c : Dev nD) (j : Fin 4) (k : Fin 16) :
    iprop(records m K ∗ atPos ER (dCell c j k) 1 ∅ 0) ⊢ iprop(|={Set.univ}=> semVal (dCell c j k) 0) :=
  (sep_mono_left (inv_dma m K c j k)).trans
    (Rounds.cell_close ER (sched m) (Set.mem_univ (K (c, ci j k))) (fun h => h) (R := 0 + 1) (duties_later m (dCell c j k)))

/-! ## The transfers -/

theorem remY_succ (c : Dev nD) (k : Fin 16) (n : ℕ) (hn : k.val + n = 15) :
    remY c (n + 1) = remY c n + tallyAt (dCell (py c) 1 k) () N := by
  have hk : (⟨(15 - n) % 16, Nat.mod_lt _ (by decide)⟩ : Fin 16) = k := Fin.ext (by show (15 - n) % 16 = k.val; omega)
  show remY c n + tallyAt (dCell (py c) 1 ⟨(15 - n) % 16, Nat.mod_lt _ (by decide)⟩) () N = _
  rw [hk]
theorem remF_succ (c : Dev nD) (k : Fin 16) (n : ℕ) (hn : k.val + n = 15) :
    remF c (n + 1) = remF c n + tallyAt (dCell (px c) 3 k) () N := by
  have hk : (⟨(15 - n) % 16, Nat.mod_lt _ (by decide)⟩ : Fin 16) = k := Fin.ext (by show (15 - n) % 16 = k.val; omega)
  show remF c n + tallyAt (dCell (px c) 3 ⟨(15 - n) % 16, Nat.mod_lt _ (by decide)⟩) () N = _
  rw [hk]

/-- The transfer of staged chunk `k` to `py c`: it pays `c`'s own read cell (class 0) and `py c`'s landing cell (class 1);
    the landing leaves `py c`'s `Gout` on the 32 rows. `n` transfers remain after it. -/
theorem step_send_y (c : Dev nD) (k : Fin 16) (n : ℕ) (hn : k.val + n = 15) (W : Waits sig Unit)
    (dv : Dev nD) (hdv : dv = py c) (s1 s2 : DmaSem sig) (hs1 : s1 = dsem 0 k) (hs2 : s2 = dsem 1 k)
    {hsc : ((yDst c k) : Memref sig (Dev.tc dv : Thread nD τ).2.kind .vmem S32x512 .bf16).view.ref.isScScratch = false}
    {hsrc : (sbM k : Memref sig .tc .vmem S32x512 .bf16).view.WordExact} {hdst : (yDst c k : Memref sig .tc .vmem S32x512 .bf16).view.WordExact}
    {hsem : DmaTarget.Typed .vmem (.dma s2) (.remote (Dev.tc dv : Thread nD τ) (yDst c k : Memref sig .tc .vmem S32x512 .bf16) (.dma s1) hsc)}
    {α : Type} {Q : α → sProp 𝕄} {kont : PUnit → Prog (TpuEff nD τ sig (Elt F) Λ₀ .tc) α}
    (fd : Buf (Elt F) ((yDst c k).view.loc (py c : Thread nD τ))) :
    records m K
      ⊢ iprop(((sbM k).view.loc (c : Thread nD τ) ↦[(sbM k).view.set]{fullShare} SB m c)
          -∗ ((yDst c k).view.loc (py c : Thread nD τ) ↦[(yDst c k).view.set]{fullShare} fd)
          -∗ owes (c : Thread nD τ) (remY c (n + 1)) W
          -∗ dutyTok ER (dCell c 0 k) 0 false -∗ dutyTok ER (dCell (py c) 1 k) 0 false
          -∗ ((cred (tallyAt (dCell c 0 k) () N) ∗ owes (c : Thread nD τ) (remY c n) W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (sbM k) (.remote (Dev.tc dv : Thread nD τ) (yDst c k) (.dma s1) hsc) (.dma s2) hsrc hdst hsem) kont) Q) := by
  subst hdv; subst hs1; subst hs2
  iintro #Hrec Hsrc Hdst HO Ht1 Ht2 Hk
  ihave #HI1 := (inv_dma m K c 0 k) $$ Hrec
  ihave #HI2 := (inv_dma m K (py c) 1 k) $$ Hrec
  ihave #Hr1 := (reached_dma m K c 0 k) $$ Hrec
  ihave #Hr2 := (reached_dma m K (py c) 1 k) $$ Hrec
  iapply (Rounds.wp_send_pointsTo 𝒱₀ ER (sched m) (c : Thread nD τ) none (κ₁ := K (c, ci 0 k)) (κ₂ := K (py c, ci 1 k))
      (r₁ := 0) (r₂ := 0) (d₁ := false) (d₂ := false) (fd := fd)
      (by rw [duties_dma]; exact Finset.mem_singleton_self _) (by rw [duties_dma]; exact Finset.mem_singleton_self _)
      () () N rfl (amount_dma m c 0 k false) (amount_dma m (py c) 1 k false) (remY c n) (remY_succ c k n hn) (W := W)
      (by rw [payload_dma]; exact BI.Entails.refl _)
      (by
        rw [payload_dma]
        have e : dmaPay m (py c) 1 k = ((yDst c k).view.loc (py c : Thread nD τ) ↦[(yDst c k).view.set]{fullShare} Gout m (py c) : sProp 𝕄) :=
          congrArg (fun s : Dev nD => ((yDst s k).view.loc (py c : Thread nD τ) ↦[(yDst s k).view.set]{fullShare} Gout m (py c) : sProp 𝕄)) (py_py c)
        rw [e, pointsTo_congr (land_y_val m c k fd)])) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iexact Hk

/-- The forward of landed chunk `k` to `px c`: it pays `c`'s own read cell (class 2) and `px c`'s landing cell (class 3);
    the landing leaves `px c`'s `Gout` on the 32 rows. `n` forwards remain after it. -/
theorem step_send_x (c : Dev nD) (k : Fin 16) (n : ℕ) (hn : k.val + n = 15) (W : Waits sig Unit)
    (dv : Dev nD) (hdv : dv = px c) (s1 s2 : DmaSem sig) (hs1 : s1 = dsem 2 k) (hs2 : s2 = dsem 3 k)
    {hsc : ((fwdM c k) : Memref sig (Dev.tc dv : Thread nD τ).2.kind .vmem S32x512 .bf16).view.ref.isScScratch = false}
    {hsrc : (fwdM c k : Memref sig .tc .vmem S32x512 .bf16).view.WordExact} {hdst : (fwdM c k : Memref sig .tc .vmem S32x512 .bf16).view.WordExact}
    {hsem : DmaTarget.Typed .vmem (.dma s2) (.remote (Dev.tc dv : Thread nD τ) (fwdM c k : Memref sig .tc .vmem S32x512 .bf16) (.dma s1) hsc)}
    {α : Type} {Q : α → sProp 𝕄} {kont : PUnit → Prog (TpuEff nD τ sig (Elt F) Λ₀ .tc) α}
    (fd : Buf (Elt F) ((fwdM c k).view.loc (px c : Thread nD τ))) :
    records m K
      ⊢ iprop(((fwdM c k).view.loc (c : Thread nD τ) ↦[(fwdM c k).view.set]{fullShare} Gout m c)
          -∗ ((fwdM c k).view.loc (px c : Thread nD τ) ↦[(fwdM c k).view.set]{fullShare} fd)
          -∗ owes (c : Thread nD τ) (remF c (n + 1)) W
          -∗ dutyTok ER (dCell c 2 k) 0 false -∗ dutyTok ER (dCell (px c) 3 k) 0 false
          -∗ ((cred (tallyAt (dCell c 2 k) () N) ∗ owes (c : Thread nD τ) (remF c n) W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma (fwdM c k) (.remote (Dev.tc dv : Thread nD τ) (fwdM c k) (.dma s1) hsc) (.dma s2) hsrc hdst hsem) kont) Q) := by
  subst hdv; subst hs1; subst hs2
  iintro #Hrec Hsrc Hdst HO Ht1 Ht2 Hk
  ihave #HI1 := (inv_dma m K c 2 k) $$ Hrec
  ihave #HI2 := (inv_dma m K (px c) 3 k) $$ Hrec
  ihave #Hr1 := (reached_dma m K c 2 k) $$ Hrec
  ihave #Hr2 := (reached_dma m K (px c) 3 k) $$ Hrec
  iapply (Rounds.wp_send_pointsTo 𝒱₀ ER (sched m) (c : Thread nD τ) none (κ₁ := K (c, ci 2 k)) (κ₂ := K (px c, ci 3 k))
      (r₁ := 0) (r₂ := 0) (d₁ := false) (d₂ := false) (fd := fd)
      (by rw [duties_dma]; exact Finset.mem_singleton_self _) (by rw [duties_dma]; exact Finset.mem_singleton_self _)
      () () N rfl (amount_dma m c 2 k false) (amount_dma m (px c) 3 k false) (remF c n) (remF_succ c k n hn) (W := W)
      (by rw [payload_dma]; exact BI.Entails.refl _)
      (by
        rw [payload_dma]
        have e : dmaPay m (px c) 3 k = ((fwdM c k).view.loc (px c : Thread nD τ) ↦[(fwdM c k).view.set]{fullShare} Gout m (px c) : sProp 𝕄) :=
          congrArg (fun s : Dev nD => ((fwdM s k).view.loc (px c : Thread nD τ) ↦[(fwdM s k).view.set]{fullShare} Gout m (px c) : sProp 𝕄)) (px_px c)
        rw [e, pointsTo_congr (land_x_val m c k fd)])) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iexact Hk

/-- A 32-row piece of the result buffer held at `Gout` does not depend on how its first row is spelt. -/
theorem out_piece_congr (c : Dev nD) (off off' : Fin 2 → Nat) (h : off = off')
    (inb : ∀ a, off a + S32x512.size a ≤ S2048x512.size a) (inb' : ∀ a, off' a + S32x512.size a ≤ S2048x512.size a) :
    (((oM.slice (Rect.unit (s := S2048x512) off S32x512.size inb) (fun _ => rfl) : Memref sig .tc .vmem S32x512 .bf16).view.loc (c : Thread nD τ)
        ↦[(oM.slice (Rect.unit (s := S2048x512) off S32x512.size inb) (fun _ => rfl) : Memref sig .tc .vmem S32x512 .bf16).view.set]{fullShare} Gout m c : sProp 𝕄))
      = ((oM.slice (Rect.unit (s := S2048x512) off' S32x512.size inb') (fun _ => rfl) : Memref sig .tc .vmem S32x512 .bf16).view.loc (c : Thread nD τ)
        ↦[(oM.slice (Rect.unit (s := S2048x512) off' S32x512.size inb') (fun _ => rfl) : Memref sig .tc .vmem S32x512 .bf16).view.set]{fullShare} Gout m c) := by
  subst h; rfl

/-- What `py c`'s transfer of chunk `k` leaves on `c` is what `c`'s forward of chunk `k` reads: the same rows, named from the
    two sides. -/
theorem land_to_fwd (c : Dev nD) (k : Fin 16) :
    (dmaPay m c 1 k : sProp 𝕄) = ((fwdM c k).view.loc (c : Thread nD τ) ↦[(fwdM c k).view.set]{fullShare} Gout m c) :=
  out_piece_congr m c _ _ (off_py_eq c k) _ _

end Cert.KernelIdeal.A2A

end
-- ==== Proof.KernelIdeal.Own.lean ====
/-
  The own half of the result buffer on the devices with `c % 2 = 0` (rows [0, 1024)) and with `c % 2 = 1` (rows [1024, 2048)),
  as the body's two local stores write it: the cast of the device's own column block of its block.
-/
import proofs.«900024_g7700000000000025_dist_a2a_v7x_xy2x2_y_m1024_n512_bf16_1_alg».proof.Proof.KernelIdeal.Regions

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The own half as a memref, on the devices with `c % 2 = 0` and with `c % 2 = 1`. -/
abbrev ownM0 : Memref sig .tc .vmem S1024x512 .bf16 :=
  oM.slice (Rect.unit (s := S2048x512) ![0, 0] S1024x512.size inb_S2048x512_S1024x512_0_0) (fun _ => rfl)
abbrev ownM1 : Memref sig .tc .vmem S1024x512 .bf16 :=
  oM.slice (Rect.unit (s := S2048x512) ![1024, 0] S1024x512.size inb_S2048x512_S1024x512_1024_0) (fun _ => rfl)

theorem rect_unit_congr {s : Shape} (off off' sz : Fin s.rank → Nat) (h : off = off') (inb : ∀ a, off a + sz a ≤ s.size a) (inb' : ∀ a, off' a + sz a ≤ s.size a) :
    Rect.unit (s := s) off sz inb = Rect.unit (s := s) off' sz inb' := by subst h; rfl

theorem ownSet_y0 (c : Dev nD) (hy : c.val % 2 = 0) : ownSet c = (ownM0 : Memref sig .tc .vmem S1024x512 .bf16).view.set := by
  rw [own_set, show (ownM0 : Memref sig .tc .vmem S1024x512 .bf16).view.set = (Rect.unit (s := S2048x512) ![0, 0] S1024x512.size inb_S2048x512_S1024x512_0_0).set from View.set_slice_whole _ _]
  exact congrArg (fun r : Rect S2048x512 => r.set) (rect_unit_congr _ _ _ (by rw [hy]) _ _)
theorem ownSet_y1 (c : Dev nD) (hy : c.val % 2 = 1) : ownSet c = (ownM1 : Memref sig .tc .vmem S1024x512 .bf16).view.set := by
  rw [own_set, show (ownM1 : Memref sig .tc .vmem S1024x512 .bf16).view.set = (Rect.unit (s := S2048x512) ![1024, 0] S1024x512.size inb_S2048x512_S1024x512_1024_0).set from View.set_slice_whole _ _]
  exact congrArg (fun r : Rect S2048x512 => r.set) (rect_unit_congr _ _ _ (by rw [hy]) _ _)

/-- The cast payloads of the own half, at an index. -/
theorem k0_pay33_apply {F : FTy → Type} [FloatOps F] (v : Vec F S1024x512 .f32) (y : S1024x512.Idx) : k0_pay33 v y = cast1 (v y) := by
  unfold k0_pay33
  simp only [shapeCast_self]
  rfl
theorem k0_pay34_apply {F : FTy → Type} [FloatOps F] (v : Vec F S1024x512 .f32) (y : S1024x512.Idx) : k0_pay34 v y = cast1 (v y) := by
  unfold k0_pay34
  simp only [shapeCast_self]
  rfl

/-- `own_val` with the store's rectangle given by its offsets, however they are spelt. -/
theorem own_val_at {F : FTy → Type} [FloatOps F] (m : (ℓ : Loc nD τ sig) → Buf (Elt F) ℓ) (c : Dev nD)
    (g : Buf (Elt F) ((c : Thread nD τ).loc cc0_stg1_0))
    (ro : Fin 2 → Nat) (rinb : ∀ a, ro a + S1024x512.size a ≤ S2048x512.size a) (hro : ro = ![1024 * (c.val % 2), 0])
    (off : Fin 2 → Nat) (inb : ∀ a, off a + S1024x512.size a ≤ S1024x1024.size a) (hoff : off = ![0, 512 * (c.val % 2)])
    (pay : Vec F S1024x512 .f32 → FVec F S1024x512 .bf16) (hpay : ∀ v i, pay v i = cast1 (v i)) :
    ∀ i ∈ ((oM : Memref sig .tc .vmem S2048x512 .bf16).access (Rect.unit (s := S2048x512) ro S1024x512.size rinb) : View sig .tc _ _ _).set,
      (View.write (Elt F) ((oM : Memref sig .tc .vmem S2048x512 .bf16).access (Rect.unit (s := S2048x512) ro S1024x512.size rinb) : View sig .tc _ _ _) g
        (pay ((xM : Memref sig .tc .vmem S1024x1024 .f32).view.readAt (Elt F) (Rect.unit (s := S1024x1024) off S1024x512.size inb).toLoadRect (xstg m c))) Finset.univ) i
        = Gout m c i := by
  subst hro
  exact own_val m c g off inb hoff pay hpay

/-- On a device with `c % 2 = 0`: the cast of columns [0, 512) of its block, stored over anything on rows [0, 1024), is `Gout` there. -/
theorem own_val_y0 (c : Dev nD) (hy : c.val % 2 = 0) (g : Buf (Elt F) ((c : Thread nD τ).loc cc0_stg1_0)) :
    ∀ i ∈ (ownM0 : Memref sig .tc .vmem S1024x512 .bf16).view.set,
      (View.write (Elt F) ((oM : Memref sig .tc .vmem S2048x512 .bf16).access (Rect.unit (s := S2048x512) ![0, 0] S1024x512.size inb_S2048x512_S1024x512_0_0) : View sig .tc _ _ _) g
        (k0_pay33 ((xM : Memref sig .tc .vmem S1024x1024 .f32).view.readAt (Elt F) (Rect.unit (s := S1024x1024) ![0, 0] S1024x512.size inb_S1024x1024_S1024x512_0_0).toLoadRect (xstg m c))) Finset.univ) i
        = Gout m c i :=
  own_val_at m c g ![0, 0] inb_S2048x512_S1024x512_0_0 (by rw [hy]) ![0, 0] inb_S1024x1024_S1024x512_0_0 (by rw [hy]) k0_pay33 k0_pay33_apply

/-- On a device with `c % 2 = 1`: the cast of columns [512, 1024) of its block, stored over anything on rows [1024, 2048), is `Gout` there. -/
theorem own_val_y1 (c : Dev nD) (hy : c.val % 2 = 1) (g : Buf (Elt F) ((c : Thread nD τ).loc cc0_stg1_0)) :
    ∀ i ∈ (ownM1 : Memref sig .tc .vmem S1024x512 .bf16).view.set,
      (View.write (Elt F) ((oM : Memref sig .tc .vmem S2048x512 .bf16).access (Rect.unit (s := S2048x512) ![1024, 0] S1024x512.size inb_S2048x512_S1024x512_1024_0) : View sig .tc _ _ _) g
        (k0_pay34 ((xM : Memref sig .tc .vmem S1024x1024 .f32).view.readAt (Elt F) (Rect.unit (s := S1024x1024) ![0, 512] S1024x512.size inb_S1024x1024_S1024x512_0_512).toLoadRect (xstg m c))) Finset.univ) i
        = Gout m c i :=
  own_val_at m c g ![1024, 0] inb_S2048x512_S1024x512_1024_0 (by rw [hy]) ![0, 512] inb_S1024x1024_S1024x512_0_512 (by rw [hy]) k0_pay34 k0_pay34_apply

/-! ### Axioms -/

/-- info: 'Cert.KernelIdeal.A2A.own_val_y0' depends on axioms: [propext, Classical.choice, Quot.sound] -/
#guard_msgs in #print axioms own_val_y0
/-- info: 'Cert.KernelIdeal.A2A.own_val_y1' depends on axioms: [propext, Classical.choice, Quot.sound] -/
#guard_msgs in #print axioms own_val_y1

end Cert.KernelIdeal.A2A

end
-- ==== Proof.KernelIdeal.Finish.lean ====
/-
  The end of one device's body: every own cell has had its one round, every piece of the two buffers is back, nothing is
  owed. The 64 own cells close, the staging buffer joins back whole at what was staged, the result buffer whole at
  `Gout`, and that is what the pipeline is handed back.
-/
import proofs.«900024_g7700000000000025_dist_a2a_v7x_xy2x2_y_m1024_n512_bf16_1_alg».proof.Proof.KernelIdeal.Steps

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 65 → ℕ)

/-- The 64 own cells close together: the records serve every cell, each closes under its own invariant. -/
theorem close_all (c : Dev nD) :
    iprop(records m K ∗ bigSep Finset.univ fun jk : Fin 4 × Fin 16 => atPos ER (dCell c jk.1 jk.2) 1 ∅ 0)
      ⊢ iprop(|={Set.univ}=> bigSep Finset.univ fun jk : Fin 4 × Fin 16 => semVal (dCell c jk.1 jk.2) 0) := by
  refine (sep_mono_left (BI.bigSep_of_persistent (Finset.univ : Finset (Fin 4 × Fin 16)) (records m K))).trans ?_
  rw [← bigSep_sep']
  exact (bigSep_mono fun jk _ => step_close m K c jk.1 jk.2).trans (bigSep_fupd _ _)

/-- A piece of a buffer named through two equal memrefs is one assertion. -/
theorem piece_congr (c : Dev nD) {X Y : Memref sig .tc .vmem S32x512 .bf16} (h : X = Y)
    (gX : Buf (Elt F) (X.view.loc (c : Thread nD τ))) (gY : Buf (Elt F) (Y.view.loc (c : Thread nD τ))) (hg : HEq gX gY) :
    (X.view.loc (c : Thread nD τ) ↦[X.view.set]{fullShare} gX : sProp 𝕄) = (Y.view.loc (c : Thread nD τ) ↦[Y.view.set]{fullShare} gY) := by
  subst h; rw [eq_of_heq hg]

/-- The sixteen staging chunks, each back at what was staged, are the staging buffer whole. -/
theorem sb_join (c : Dev nD) : (bigSep Finset.univ fun k : Fin 16 => dmaPay m c 0 k) ⊢ sPts c (SB m c) := by
  unfold sPts; rw [sb_split c (SB m c)]; exact Entails.rfl

/-- The own rows, the sixteen chunks landed from the neighbour on the second axis (back from their forward) and the
    sixteen landed from the neighbour on the first axis, all at the one function, are the result buffer whole. -/
theorem out_join (c : Dev nD) :
    iprop((((c : Thread nD τ).loc cc0_stg1_0) ↦[ownSet c]{fullShare} Gout m c)
        ∗ (bigSep Finset.univ fun k : Fin 16 => dmaPay m c 2 k) ∗ (bigSep Finset.univ fun k : Fin 16 => dmaPay m c 3 k))
      ⊢ ((((c : Thread nD τ).loc cc0_stg1_0) ↦{fullShare} Gout m c : sProp 𝕄)) := by
  have e2 (k : Fin 16) : dmaPay m c 2 k
      = ((yDst (py c) k).view.loc (c : Thread nD τ) ↦[(yDst (py c) k).view.set]{fullShare} Gout m c : sProp 𝕄) :=
    (piece_congr c (yDst_py_eq_fwd c k) (Gout m c) (Gout m c) HEq.rfl).symm
  rw [out_split c (Gout m c), bigSep_congr (s := Finset.univ) (fun (k : Fin 16) _ => e2 k)]
  exact Entails.rfl

/-- From what the last wait leaves to what the pipeline is handed back. -/
theorem body_finish (c : Dev nD) (W : Waits sig Unit) :
    iprop(records m K
      ∗ (bigSep Finset.univ fun jk : Fin 4 × Fin 16 => atPos ER (dCell c jk.1 jk.2) 1 ∅ 0)
      ∗ (bigSep Finset.univ fun k : Fin 16 => dmaPay m c 0 k)
      ∗ ((((c : Thread nD τ).loc cc0_stg1_0) ↦[ownSet c]{fullShare} Gout m c))
      ∗ (bigSep Finset.univ fun k : Fin 16 => dmaPay m c 2 k)
      ∗ (bigSep Finset.univ fun k : Fin 16 => dmaPay m c 3 k)
      ∗ owes (c : Thread nD τ) 0 W
      ∗ (((c : Thread nD τ).loc cc0_stg0_0) ↦{fullShare} xstg m c))
      ⊢ iprop(|={Set.univ}=> bodyPost m c) := by
  iintro ⟨#Hrec, Hat, HS, Hown, H2, H3, HO, Hx⟩
  imod (close_all m K c) $$ [Hat] with Hz
  · isplitr; · iexact Hrec
    iexact Hat
  imodintro
  unfold bodyPost Φ₁ stg Dat.owesAt Pipeline.owesWithin
  rw [show (dats m 0 c).owed t₀.succ = 0 from rfl]
  isplitl [HS Hz]
  · isplitl [HS]; · iapply (sb_join m c); iexact HS
    iexact Hz
  isplitl [HO]
  · iexists W
    isplitr; · ipureintro; exact fun x _ => Or.inl (Set.mem_univ x)
    iexact HO
  isplitl [Hx]
  · iexists (xstg m c); isplitr; · (ipureintro; rfl)
    iexact Hx
  iexists (Gout m c); isplitr; · (ipureintro; rfl)
  iapply (out_join m c)
  isplitl [Hown]; · iexact Hown
  isplitl [H2]; · iexact H2
  iexact H3

/-- info: 'Cert.KernelIdeal.A2A.body_finish' depends on axioms: [propext, Classical.choice, Quot.sound] -/
#guard_msgs in #print axioms body_finish

end Cert.KernelIdeal.A2A

end
-- ==== Proof.KernelIdeal.BodyTac.lean ====
/-
  The tactics of one device's body: the steps of one 32-row chunk written once each, the loops that use them for the sixteen
  chunks, the common opening of the body and the run of one case of the second mesh coordinate.
-/
import proofs.«900024_g7700000000000025_dist_a2a_v7x_xy2x2_y_m1024_n512_bf16_1_alg».proof.Proof.KernelIdeal.Steps
import proofs.«900024_g7700000000000025_dist_a2a_v7x_xy2x2_y_m1024_n512_bf16_1_alg».proof.Proof.KernelIdeal.Own
import proofs.«900024_g7700000000000025_dist_a2a_v7x_xy2x2_y_m1024_n512_bf16_1_alg».proof.Proof.KernelIdeal.Finish

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The pieces a device hands its neighbours at the barrier -/

/-- The sixteen chunks of `c`'s result buffer that `py c`'s transfers write, at any contents, are what `c`'s signal hands `py c`. -/
theorem barPayY_intro (c : Dev nD) (g : Buf (Elt F) ((c : Thread nD τ).loc cc0_stg1_0)) :
    (bigSep Finset.univ fun k : Fin 16 => (yDst (py c) k).view.loc (c : Thread nD τ) ↦[(yDst (py c) k).view.set]{fullShare} g : sProp 𝕄)
      ⊢ barPayY (py c) := by
  have e : (barPayY (py c) : sProp 𝕄)
      = (bigSep Finset.univ fun k : Fin 16 => iprop(∃ f, (yDst (py c) k).view.loc (c : Thread nD τ) ↦[(yDst (py c) k).view.set]{fullShare} f)) :=
    congrArg (fun s : Dev nD => (bigSep Finset.univ fun k : Fin 16 =>
      iprop(∃ f, (yDst (py c) k).view.loc (s : Thread nD τ) ↦[(yDst (py c) k).view.set]{fullShare} f) : sProp 𝕄)) (py_py c)
  rw [e]
  exact bigSep_mono fun k _ => exists_intro (Φ := fun f => ((yDst (py c) k).view.loc (c : Thread nD τ) ↦[(yDst (py c) k).view.set]{fullShare} f : sProp 𝕄)) g

/-- The sixteen chunks that `px c`'s forwards write, likewise, are what `c`'s signal hands `px c`. -/
theorem barPayX_intro (c : Dev nD) (g : Buf (Elt F) ((c : Thread nD τ).loc cc0_stg1_0)) :
    (bigSep Finset.univ fun k : Fin 16 => (fwdM (px c) k).view.loc (c : Thread nD τ) ↦[(fwdM (px c) k).view.set]{fullShare} g : sProp 𝕄)
      ⊢ barPayX (px c) := by
  have e : (barPayX (px c) : sProp 𝕄)
      = (bigSep Finset.univ fun k : Fin 16 => iprop(∃ f, (fwdM (px c) k).view.loc (c : Thread nD τ) ↦[(fwdM (px c) k).view.set]{fullShare} f)) :=
    congrArg (fun s : Dev nD => (bigSep Finset.univ fun k : Fin 16 =>
      iprop(∃ f, (fwdM (px c) k).view.loc (s : Thread nD τ) ↦[(fwdM (px c) k).view.set]{fullShare} f) : sProp 𝕄)) (px_px c)
  rw [e]
  exact bigSep_mono fun k _ => exists_intro (Φ := fun f => ((fwdM (px c) k).view.loc (c : Thread nD τ) ↦[(fwdM (px c) k).view.set]{fullShare} f : sProp 𝕄)) g

/-- A device's positions: its barrier cell's and, class by class, its DMA cells'. -/
theorem positions_eq (c : Dev nD) :
    (positions c : sProp 𝕄) = iprop(atPos ER (barCell c) 0 ∅ 0
      ∗ (bigSep Finset.univ fun k : Fin 16 => atPos ER (dCell c 0 k) 0 ∅ 0) ∗ (bigSep Finset.univ fun k : Fin 16 => atPos ER (dCell c 1 k) 0 ∅ 0)
      ∗ (bigSep Finset.univ fun k : Fin 16 => atPos ER (dCell c 2 k) 0 ∅ 0) ∗ (bigSep Finset.univ fun k : Fin 16 => atPos ER (dCell c 3 k) 0 ∅ 0)) := by
  unfold positions
  rw [bigSep_cells, bigSep_jk]
  simp only [kcell_ci]
  rfl

/-- The argument's staging buffer held whole, through the memref's view. -/
theorem xPts_eq (c : Dev nD) (f : Buf (Elt F) ((c : Thread nD τ).loc cc0_stg0_0)) :
    ((xM : Memref sig .tc .vmem S1024x1024 .f32).view.loc (c : Thread nD τ) ↦[(xM : Memref sig .tc .vmem S1024x1024 .f32).view.set]{fullShare} f : sProp 𝕄)
      = (((c : Thread nD τ).loc cc0_stg0_0) ↦{fullShare} f) := by
  rw [View.set_whole]

/-! ## The body

The steps of one 32-row chunk are the same for every chunk; each is written once, as a macro over the chunk's number and the
printed names that belong to it, and used sixteen times. -/

set_option hygiene false in
/-- Chunk `k` of the first exchange: the staging store (on the branch this device takes), the stored chunk read as `SB`, and its
    transfer to `py c`; `n` transfers remain after it. -/
macro "stage_send " k:num n:num cA:ident cB:ident off:ident offInb:ident offEq:ident hcUse:ident devEq:ident
    hs:ident hd:ident fy:ident ts:ident ty:ident hcs:ident : tactic =>
  `(tactic| (
    have hcA := $cA c hy
    have hcB := $cB c hy
    sl_exec
    sl_unfold_run_names
    ihave $hs:ident := (Entails.of_eq (pointsTo_congr (sb_val m c $k f0 ($off c) ($offInb c $hcUse) (by rw [$offEq:ident, hy]; rfl)))) $$ $hs:ident
    iapply (step_send_y m K c $k $n rfl _ _ ($devEq c) _ _ rfl rfl $fy) $$ Hrec $hs:ident $hd:ident HO $ts:ident $ty:ident
    iintro ⟨$hcs:ident, HO⟩))

set_option hygiene false in
/-- Chunk `k` of the second exchange: the wait for `py c`'s transfer of chunk `k` (`n1` forwards are still owed), the landed rows
    read as the forward's source, and their forward to `px c` (`n` remain after it). -/
macro "land_forward " k:num n:num n1:num devEq:ident hcy:ident hay:ident hl:ident hdx:ident fx:ident tf:ident tx:ident hcf:ident : tactic =>
  `(tactic| (
    try sl_exec
    iapply (step_wait_dma m K c 1 $k (remF c $n1) _ _ rfl (sbM $k) (yDst c $k) rfl (mayWait_land c $k $n1))
      $$ Hrec $hcy:ident HO Hlev $hay:ident
    iintro ⟨HO, $hay:ident, $hl:ident⟩
    ihave $hl:ident := (Entails.of_eq (land_to_fwd m c $k)) $$ $hl:ident
    sl_exec
    iapply (step_send_x m K c $k $n rfl _ _ ($devEq c) _ _ rfl rfl $fx) $$ Hrec $hl:ident $hdx:ident HO $tf:ident $tx:ident
    iintro ⟨$hcf:ident, HO⟩))

set_option hygiene false in
/-- A wait on the own DMA cell of class `j`, chunk `k`, with nothing owed: the duty's payload comes back as `hp`. -/
macro "wait_free " j:num k:num src:term:max dst:term:max hc:ident ha:ident hp:ident : tactic =>
  `(tactic| (
    try sl_exec
    iapply (step_wait_dma m K c $j $k 0 _ _ rfl $src $dst rfl (mayWait_zero c _))
      $$ Hrec $hc:ident HO Hlev $ha:ident
    iintro ⟨HO, $ha:ident, $hp:ident⟩))

open Lean Elab Tactic in
set_option hygiene false in
/-- `unpack16 H P`: the sixteen conjuncts of `H`, a conjunction over the chunks, as `P0`, …, `P15`. -/
elab "unpack16 " h:ident pre:ident : tactic => do
  let name (i : Nat) : Ident := mkIdent (Name.mkSimple s!"{pre.getId}{i}")
  let rest (i : Nat) : Ident := mkIdent (Name.mkSimple s!"{pre.getId}_rest{i}")
  evalTactic (← `(tactic| ihave $(rest 0):ident := (Entails.of_eq (bigSep_fin16 _)) $$ $h:ident))
  for i in [0:14] do
    evalTactic (← `(tactic| icases $(rest i):ident with ⟨$(name i):ident, $(rest (i+1)):ident⟩))
  evalTactic (← `(tactic| icases $(rest 14):ident with ⟨$(name 14):ident, $(name 15):ident⟩))

open Lean Elab Tactic in
set_option hygiene false in
/-- The first exchange, chunk by chunk, on the devices with `c % 2 = y`: chunk `k`'s conditions are the printed `k0_cond(2k+1)`,
    `k0_cond(2k+2)`, its load's offsets the printed `k0_off` of the branch taken, its transfer's device chain `k0_dev(3+k)`. -/
elab "first_exchange " y:num : tactic => do
  let yv := y.getNat
  let id (s : String) : Ident := mkIdent (Name.mkSimple s)
  let num (n : Nat) := Syntax.mkNumLit (toString n)
  for k in [0:16] do
    let o := if yv == 0 then (if k == 0 then 1 else 2 * k + 2) else (if k == 0 then 2 else 2 * k + 3)
    let hcUse := if yv == 0 then id "hcA" else id "hcB"
    evalTactic (← `(tactic| stage_send $(num k) $(num (15 - k)) $(id s!"cond{2 * k + 1}_y{yv}") $(id s!"cond{2 * k + 2}_y{yv}")
      $(id s!"k0_off{o}") $(id s!"k0_off{o}_inb") $(id s!"k0_off{o}_eq") $hcUse $(id s!"dev{3 + k}_eq")
      $(id s!"Hs{k}") $(id s!"HdY{k}") $(id s!"fy{k}") $(id s!"HtS{k}") $(id s!"HtY{k}") $(id s!"HcS{k}")))

open Lean Elab Tactic in
set_option hygiene false in
/-- The second exchange, chunk by chunk: chunk `k`'s forward addresses the printed device chain `k0_dev(19+k)`. -/
elab "second_exchange" : tactic => do
  let id (s : String) : Ident := mkIdent (Name.mkSimple s)
  let num (n : Nat) := Syntax.mkNumLit (toString n)
  for k in [0:16] do
    evalTactic (← `(tactic| land_forward $(num k) $(num (15 - k)) $(num (16 - k)) $(id s!"dev{19 + k}_eq")
      $(id s!"HcY{k}") $(id s!"HaY{k}") $(id s!"HL{k}") $(id s!"HdX{k}") $(id s!"fx{k}") $(id s!"HtF{k}") $(id s!"HtX{k}") $(id s!"HcF{k}")))

open Lean Elab Tactic in
set_option hygiene false in
/-- The sixteen waits for `px c`'s forwards. -/
elab "last_landings" : tactic => do
  let id (s : String) : Ident := mkIdent (Name.mkSimple s)
  let num (n : Nat) := Syntax.mkNumLit (toString n)
  for k in [0:16] do
    evalTactic (← `(tactic| wait_free 3 $(num k) (fwdM c $(num k)) (fwdM c $(num k)) $(id s!"HcX{k}") $(id s!"HaX{k}") $(id s!"HR{k}")))

open Lean Elab Tactic in
set_option hygiene false in
/-- The thirty-two waits for the device's own transfers and forwards to have read their sources. -/
elab "reads_done" : tactic => do
  let id (s : String) : Ident := mkIdent (Name.mkSimple s)
  let num (n : Nat) := Syntax.mkNumLit (toString n)
  for k in [0:16] do
    evalTactic (← `(tactic| wait_free 0 $(num k) (yDst c $(num k)) (sbM $(num k)) $(id s!"HcS{k}") $(id s!"HaS{k}") $(id s!"HB{k}")))
    evalTactic (← `(tactic| wait_free 2 $(num k) (fwdM c $(num k)) (fwdM c $(num k)) $(id s!"HcF{k}") $(id s!"HaF{k}") $(id s!"HF{k}")))

open Lean Elab Tactic in
set_option hygiene false in
/-- `pack16 P`: a goal that is a conjunction over the chunks, from the hypotheses `P0`, …, `P15`. -/
elab "pack16 " pre:ident : tactic => do
  let name (i : Nat) : Ident := mkIdent (Name.mkSimple s!"{pre.getId}{i}")
  evalTactic (← `(tactic| iapply (Entails.of_eq (bigSep_fin16 _).symm)))
  for i in [0:15] do
    evalTactic (← `(tactic| isplitl [$(name i):ident]))
    evalTactic (← `(tactic| iexact $(name i):ident))
  evalTactic (← `(tactic| iexact $(name 15):ident))

open Lean Elab Tactic in
set_option hygiene false in
/-- `gather16 H P : T`: the hypotheses `P0`, …, `P15` as ONE hypothesis `H` of the stated conjunction `T` over the chunks. -/
elab "gather16 " h:ident pre:ident " : " T:term : tactic => do
  let name (i : Nat) : Ident := mkIdent (Name.mkSimple s!"{pre.getId}{i}")
  let frames ← (List.range 16).toArray.mapM fun i => `(frameIdent| $(name i):ident)
  evalTactic (← `(tactic| ihave $h:ident : $T $$ [$frames*]))
  evalTactic (← `(tactic| focus (pack16 $pre)))

set_option hygiene false in
/-- The body's opening, common to all devices: what the pipeline hands over taken apart, the result buffer cut into its
    pieces, the two signals with the neighbours' pieces, the barrier wait, and everything indexed by the chunk named chunk
    by chunk. -/
macro "open_body" : tactic =>
  `(tactic| (
    unfold bodyPre Φ₀ start G' creds linear payToks
    iintro ⟨⟨⟨⟨%K, #Hrec, ⟨Hpos, HtBy, HtBx, HtY, HtX, HtS, HtF⟩⟩, ⟨HcB, HcY, HcX⟩, #Hlev⟩, ⟨%f0, Hs⟩⟩, Ho, ⟨%d0, %g0, %hg0, Hx⟩, ⟨%d1, %g1, %hg1, Hout⟩⟩
    have hx : g0 = xstg m c := by rw [hg0]; unfold Dat.before; rw [if_pos (fetch0_0 t₀)]; rfl
    subst hx
    unfold Dat.owesAt Pipeline.owesWithin
    icases Ho with ⟨%W, %hW, HO⟩
    rw [show (dats m 0 c).owed t₀.castSucc = O₀ c from rfl]
    -- the result buffer, piece by piece; the two neighbours' pieces go with the signals
    ihave Hout' := (Entails.of_eq (out_split c g1)) $$ Hout
    icases Hout' with ⟨Hown, HyL, HxL⟩
    ihave HpY := (barPayY_intro c g1) $$ HyL
    ihave HpX := (barPayX_intro c g1) $$ HxL
    ihave Hpos' := (Entails.of_eq (positions_eq c)) $$ Hpos
    icases Hpos' with ⟨HaB, HaS, HaY, HaF, HaX⟩
    sl_unfold [cc0_body]
    sl_exec
    iapply (step_sig_py m K c _ (dev1_eq c) _ rfl W) $$ Hrec HO HtBy HpY
    iintro HO
    sl_exec
    iapply (step_sig_px m K c _ (dev2_eq c) _ rfl W) $$ Hrec HO HtBx HpX
    iintro HO
    sl_exec
    iapply (step_wait_bar m K c W (wpE_semWait_eq 𝒱₀ (c : Thread nD τ) none Set.univ) rfl) $$ Hrec HcB HO Hlev HaB
    iintro ⟨HO, HaB, HpY, HpX⟩
    -- everything indexed by the chunk, chunk by chunk
    unfold sPts
    ihave HsAll := (Entails.of_eq (sb_split c f0)) $$ Hs
    unpack16 HsAll Hs
    unfold barPayY barPayX
    ihave HpYr := (Entails.of_eq (bigSep_fin16 _)) $$ HpY
    icases HpYr with ⟨⟨%fy0, HdY0⟩, ⟨%fy1, HdY1⟩, ⟨%fy2, HdY2⟩, ⟨%fy3, HdY3⟩, ⟨%fy4, HdY4⟩, ⟨%fy5, HdY5⟩, ⟨%fy6, HdY6⟩, ⟨%fy7, HdY7⟩, ⟨%fy8, HdY8⟩, ⟨%fy9, HdY9⟩, ⟨%fy10, HdY10⟩, ⟨%fy11, HdY11⟩, ⟨%fy12, HdY12⟩, ⟨%fy13, HdY13⟩, ⟨%fy14, HdY14⟩, ⟨%fy15, HdY15⟩⟩
    ihave HpXr := (Entails.of_eq (bigSep_fin16 _)) $$ HpX
    icases HpXr with ⟨⟨%fx0, HdX0⟩, ⟨%fx1, HdX1⟩, ⟨%fx2, HdX2⟩, ⟨%fx3, HdX3⟩, ⟨%fx4, HdX4⟩, ⟨%fx5, HdX5⟩, ⟨%fx6, HdX6⟩, ⟨%fx7, HdX7⟩, ⟨%fx8, HdX8⟩, ⟨%fx9, HdX9⟩, ⟨%fx10, HdX10⟩, ⟨%fx11, HdX11⟩, ⟨%fx12, HdX12⟩, ⟨%fx13, HdX13⟩, ⟨%fx14, HdX14⟩, ⟨%fx15, HdX15⟩⟩
    unpack16 HtY HtY
    unpack16 HtX HtX
    unpack16 HtS HtS
    unpack16 HtF HtF
    unpack16 HcY HcY
    unpack16 HcX HcX
    unpack16 HaS HaS
    unpack16 HaY HaY
    unpack16 HaF HaF
    unpack16 HaX HaX
    ihave Hx := (Entails.of_eq (xPts_eq c _).symm) $$ Hx
))

set_option hygiene false in
/-- One case of the second mesh coordinate `y = c % 2`, with the own half's memref and its two lemmas for that case: the first
    exchange, the own half stored, the second exchange, the last landings, the sources read, and the hand-back. -/
macro "run_case " y:num ownM:ident ownSetY:ident ownVal:ident : tactic =>
  `(tactic| (
      rw [$ownSetY:ident c hy]
      ihave Hown := (Entails.of_eq (show ((((c : Thread nD τ).loc cc0_stg1_0) ↦[($ownM : Memref sig .tc .vmem S1024x512 .bf16).view.set]{fullShare} g1 : sProp (MT nD τ sig Unit (Elt F) ℕ UU ℕ)))
          = (($ownM : Memref sig .tc .vmem S1024x512 .bf16).view.loc (c : Thread nD τ) ↦[($ownM : Memref sig .tc .vmem S1024x512 .bf16).view.set]{fullShare} g1) from rfl)) $$ Hown
      first_exchange $y
      sl_exec
      sl_unfold_run_names
      ihave Hown := (Entails.of_eq (pointsTo_congr ($ownVal:ident m c hy g1))) $$ Hown
      rw [show remY c 0 = remF c 16 from rfl]
      second_exchange
      rw [show remF c 0 = (0 : CellTallies nD τ sig Unit) from rfl]
      last_landings
      reads_done
      try sl_exec
      -- everything indexed by the chunk, gathered again
      gather16 HBall HB : (bigSep Finset.univ fun k : Fin 16 => dmaPay m c 0 k)
      gather16 HFall HF : (bigSep Finset.univ fun k : Fin 16 => dmaPay m c 2 k)
      gather16 HRall HR : (bigSep Finset.univ fun k : Fin 16 => dmaPay m c 3 k)
      gather16 HaSall HaS : (bigSep Finset.univ fun k : Fin 16 => atPos ER (dCell c 0 k) 1 ∅ 0)
      gather16 HaYall HaY : (bigSep Finset.univ fun k : Fin 16 => atPos ER (dCell c 1 k) 1 ∅ 0)
      gather16 HaFall HaF : (bigSep Finset.univ fun k : Fin 16 => atPos ER (dCell c 2 k) 1 ∅ 0)
      gather16 HaXall HaX : (bigSep Finset.univ fun k : Fin 16 => atPos ER (dCell c 3 k) 1 ∅ 0)
      ihave Hpos1 : (bigSep Finset.univ fun jk : Fin 4 × Fin 16 => atPos ER (dCell c jk.1 jk.2) 1 ∅ 0) $$ [HaSall HaYall HaFall HaXall]
      · iapply (Entails.of_eq (bigSep_jk _).symm)
        isplitl [HaSall]; · iexact HaSall
        isplitl [HaYall]; · iexact HaYall
        isplitl [HaFall]; · iexact HaFall
        iexact HaXall
      ihave Hx := (Entails.of_eq (xPts_eq c _)) $$ Hx
      ihave Hown := (Entails.of_eq (show ((($ownM : Memref sig .tc .vmem S1024x512 .bf16).view.loc (c : Thread nD τ) ↦[($ownM : Memref sig .tc .vmem S1024x512 .bf16).view.set]{fullShare} Gout m c : sProp (MT nD τ sig Unit (Elt F) ℕ UU ℕ)))
          = (((c : Thread nD τ).loc cc0_stg1_0) ↦[ownSet c]{fullShare} Gout m c) from by rw [$ownSetY:ident c hy])) $$ Hown
      imod (body_finish m K c _) $$ [Hpos1 HBall Hown HFall HRall HO Hx] with Hpost
      · isplitr; · iexact Hrec
        isplitl [Hpos1]; · iexact Hpos1
        isplitl [HBall]; · iexact HBall
        isplitl [Hown]; · iexact Hown
        isplitl [HFall]; · iexact HFall
        isplitl [HRall]; · iexact HRall
        isplitl [HO]; · iexact HO
        iexact Hx
      rw [wp_ret]
      imodintro
      iexact Hpost
))

end Cert.KernelIdeal.A2A

end
-- ==== Proof.KernelIdeal.Body0.lean ====
/-
  One device's body on the devices whose second mesh coordinate `c % 2` is 0: their staging stores take the odd-numbered
  branches and their own half is rows [0, 1024).
-/
import proofs.«900024_g7700000000000025_dist_a2a_v7x_xy2x2_y_m1024_n512_bf16_1_alg».proof.Proof.KernelIdeal.BodyTac

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

set_option maxHeartbeats 64000000 in
set_option maxRecDepth 8000 in
/-- The body of a device with `c % 2 = 0`, from `bodyPre` to `bodyPost`. -/
theorem sound_body_y0 (c : Dev nD) (hy : c.val % 2 = 0) :
    bodyPre m c ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) (fun _ => bodyPost m c) := by
  open_body
  run_case 0 ownM0 ownSet_y0 own_val_y0

end Cert.KernelIdeal.A2A

end
-- ==== Proof.KernelIdeal.Body1.lean ====
/-
  One device's body on the devices whose second mesh coordinate `c % 2` is 1: their staging stores take the even-numbered
  branches and their own half is rows [1024, 2048).
-/
import proofs.«900024_g7700000000000025_dist_a2a_v7x_xy2x2_y_m1024_n512_bf16_1_alg».proof.Proof.KernelIdeal.BodyTac

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

set_option maxHeartbeats 64000000 in
set_option maxRecDepth 8000 in
/-- The body of a device with `c % 2 = 1`, from `bodyPre` to `bodyPost`. -/
theorem sound_body_y1 (c : Dev nD) (hy : c.val % 2 = 1) :
    bodyPre m c ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) (fun _ => bodyPost m c) := by
  open_body
  run_case 1 ownM1 ownSet_y1 own_val_y1

end Cert.KernelIdeal.A2A

end
-- ==== Proof.KernelIdeal.Body.lean ====
/-
  One device's body, at a symbolic device: the two cases of the second mesh coordinate put together, and the body
  lemma handed to the pipeline library as its body obligation.
-/
import proofs.«900024_g7700000000000025_dist_a2a_v7x_xy2x2_y_m1024_n512_bf16_1_alg».proof.Proof.KernelIdeal.Body0
import proofs.«900024_g7700000000000025_dist_a2a_v7x_xy2x2_y_m1024_n512_bf16_1_alg».proof.Proof.KernelIdeal.Body1

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body of device `c`, from `bodyPre` to `bodyPost`. -/
theorem sound_body (c : Dev nD) :
    bodyPre m c ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) (fun _ => bodyPost m c) := by
  rcases Nat.mod_two_eq_zero_or_one c.val with hy | hy
  · exact sound_body_y0 m c hy
  · exact sound_body_y1 m c hy

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
          (Memref.whole cc0_scratch0) (Memref.isWhole_whole _) cc0_scratch1 cc0_scratch2 cc0_scratch3 cc0_scratch4) (fun _ => bodyPost m c)
  exact sound_body m c

/-- info: 'Cert.KernelIdeal.A2A.body_obligation' depends on axioms: [propext, Classical.choice, Quot.sound] -/
#guard_msgs in #print axioms body_obligation

end Cert.KernelIdeal.A2A

end
-- ==== Proof.KernelIdeal.Launch.lean ====
/-
  The launch: from every device's body obligation to the run of @main on the four devices. Every weakly fair
  execution terminates, and each window's array ends at the proof data's final contents.

  The launch element funds the 65 cells of every device and mints, per owner, the tokens of its cells' duties; the
  global step puts every cell's counter, at zero, under its invariant, and deals each token to the device that pays
  the duty: a barrier cell's two tokens to the owner's two mesh neighbours, the tokens of the cells a neighbour's
  copies land on to that neighbour, the tokens of the cells its own copies are read on to the owner itself.
-/
import proofs.«900024_g7700000000000025_dist_a2a_v7x_xy2x2_y_m1024_n512_bf16_1_alg».proof.Proof.KernelIdeal.Body
import proofs.«900024_g7700000000000025_dist_a2a_v7x_xy2x2_y_m1024_n512_bf16_1_alg».proof.Proof.KernelIdeal.Cells
import Mathlib.Algebra.BigOperators.Fin

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

namespace AtLaunch

/-! ## The kernel's own semaphores, the cells, the tokens -/

/-- The kernel's own (scoped) semaphores, as the launch indexes them: the DMA semaphore of each class and chunk. -/
abbrev osem : Fin 4 × Fin 16 → SemLoc sig := fun jk => .dma (dsem jk.1 jk.2)

theorem dsem_inj {j j' : Fin 4} {k k' : Fin 16} (h : dsem j k = dsem j' k') : j = j' ∧ k = k' :=
  ⟨(jOf_dsem j k).symm.trans ((congrArg jOf h).trans (jOf_dsem j' k')), (kOf_dsem j k).symm.trans ((congrArg kOf h).trans (kOf_dsem j' k'))⟩

theorem ownSemFacts : Pipeline.OwnSemFacts cfg0.spec osem where
  isScoped := by decide
  inj := fun a b h => by
    obtain ⟨h1, h2⟩ := dsem_inj (SemLoc.dma.inj h)
    exact Prod.ext h1 h2
  disj := by decide

theorem share_eq (c : Dev nD) (w : Fin cfg0.W) : (dats m 0 c).share w = fullShare := by unfold Dat.share; split <;> rfl

set_option maxRecDepth 8000 in
theorem csem_injective : Function.Injective (csem : Fin 65 → SemLoc sig) := by intro a b; revert a b; decide

theorem kcell_injective : Function.Injective (kcell : Dev nD × Fin 65 → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

/-- Every device's 65 cells. -/
def cellSet : Finset (GSem nD τ sig) := Finset.univ.map ⟨kcell, kcell_injective⟩

theorem dCell_inj {c c' : Dev nD} {j j' : Fin 4} {k k' : Fin 16} (h : dCell c j k = dCell c' j' k') : c = c' ∧ j = j' ∧ k = k' :=
  ⟨congrArg (fun g : GSem nD τ sig => g.1.1) h, dsem_inj (SemLoc.dma.inj (congrArg Prod.snd h))⟩

/-- The duty tokens minted for the cells of a device: both duties of its barrier cell, the one duty of each DMA cell. -/
abbrev tokOf (x : Dev nD × (Bool ⊕ (Fin 4 × Fin 16))) : GSem nD τ sig × ℕ × Bool :=
  match x.2 with
  | .inl d => (barCell x.1, 0, d)
  | .inr jk => (dCell x.1 jk.1 jk.2, 0, false)

theorem tokOf_injective : Function.Injective (tokOf : Dev nD × (Bool ⊕ (Fin 4 × Fin 16)) → GSem nD τ sig × ℕ × Bool) := by
  rintro ⟨c, (d | ⟨j, k⟩)⟩ ⟨c', (d' | ⟨j', k'⟩)⟩ h
  · have h1 : c = c' := congrArg (fun x : GSem nD τ sig × ℕ × Bool => x.1.1.1) h
    have h2 : d = d' := congrArg (fun x : GSem nD τ sig × ℕ × Bool => x.2.2) h
    rw [h1, h2]
  · exact absurd (congrArg (fun x : GSem nD τ sig × ℕ × Bool => x.1.2) h) (fun h' => by cases h')
  · exact absurd (congrArg (fun x : GSem nD τ sig × ℕ × Bool => x.1.2) h) (fun h' => by cases h')
  · obtain ⟨h1, h2, h3⟩ : c = c' ∧ j = j' ∧ k = k' := dCell_inj (congrArg (fun x : GSem nD τ sig × ℕ × Bool => x.1) h)
    rw [h1, h2, h3]

def tokSet : Finset (GSem nD τ sig × ℕ × Bool) := Finset.univ.map ⟨tokOf, tokOf_injective⟩

/-- The launch element: the pipeline library's, and the exchange's cells and tokens. -/
def u₀ : UU :=
  (initOf (Pipeline.cells cfgs cellOf_inj) (Pipeline.launchToks cfgs cellOf_inj), initOf cellSet tokSet)

/-- The duty tokens of device c's own cells, as minted. -/
def toks (c : Dev nD) : sProp 𝕄 :=
  iprop((dutyTok ER (barCell c) 0 false ∗ dutyTok ER (barCell c) 0 true)
    ∗ bigSep Finset.univ fun jk : Fin 4 × Fin 16 => dutyTok ER (dCell c jk.1 jk.2) 0 false)

/-- What the launch element deals device c (the launch theorem's G). -/
def G (c : Dev nD) : sProp 𝕄 :=
  iprop((bigSep Finset.univ fun i : Fin 65 => roundState ER (sched m) (kcell (c, i)) 0)
    ∗ (bigSep Finset.univ fun i : Fin 65 => iprop(atPos ER (kcell (c, i)) 0 ∅ 0 ∗ reached ER (kcell (c, i)) 0)) ∗ toks c)

theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun i : Fin 65 => Φ (kcell (c, i)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by
      unfold toks
      rw [bigSep_univ_sum, bigSep_univ_eq_bigSepL [false, true] (by decide) (by decide), bigSepL_cons_cons, bigSepL_singleton]
      rfl
  iintro HX
  imod (Rounds.fund ER (sched m) cellSet tokSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's counter under its invariant, the tokens dealt to their payers -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 65 => semVal (kcell (c, i)) 0 : sProp 𝕄) := by
  have e : (fun jk : Fin 4 × Fin 16 => (semVal (kcell (c, ci jk.1 jk.2)) 0 : sProp 𝕄)) = fun jk => semVal ((c : Thread nD τ), osem jk) 0 :=
    funext fun jk => by rw [kcell_ci]
  rw [unscopedSems0_eq, bigSep_cells, e]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 65 => iprop(∃ κ : ℕ, cellInv ER (sched m) κ (kcell (c, i))))
          ∗ (bigSep Finset.univ fun i : Fin 65 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Fin 65 => semVal (kcell (c, i)) 0) ∗ bigSep Finset.univ fun i : Fin 65 => roundState ER (sched m) (kcell (c, i)) 0)
      ⊢ (|={Set.univ}=> bigSep Finset.univ fun i : Fin 65 => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 65 → ℕ) (c : Dev nD) : iprop(records m K ∗ linear c) ⊢ G' m c := by
  unfold G'
  iintro H
  iexists K
  iexact H

/-- The two mesh neighbours, as permutations of the devices. -/
def pyE : Dev nD ≃ Dev nD := ⟨py, py, py_py, py_py⟩
def pxE : Dev nD ≃ Dev nD := ⟨px, px, px_px, px_px⟩

theorem deal (e : Dev nD ≃ Dev nD) (Φ : Dev nD → sProp 𝕄) : bigSep Finset.univ Φ ⊢ bigSep Finset.univ fun c => Φ (e c) :=
  Entails.of_eq (bigSep_univ_equiv e Φ)

theorem toks_eq (c : Dev nD) : (toks c : sProp 𝕄) = iprop((dutyTok ER (barCell c) 0 false ∗ dutyTok ER (barCell c) 0 true)
    ∗ (bigSep Finset.univ fun k : Fin 16 => dutyTok ER (dCell c 0 k) 0 false) ∗ (bigSep Finset.univ fun k : Fin 16 => dutyTok ER (dCell c 1 k) 0 false)
    ∗ (bigSep Finset.univ fun k : Fin 16 => dutyTok ER (dCell c 2 k) 0 false) ∗ (bigSep Finset.univ fun k : Fin 16 => dutyTok ER (dCell c 3 k) 0 false)) := by
  unfold toks; rw [bigSep_jk]

/-- The tokens dealt over the mesh: a barrier cell's duty false to the owner's neighbour on the second axis and its duty true
    to the neighbour on the first; the tokens of the cells a neighbour's copies land on to that neighbour; the tokens of
    the cells the owner's own copies are read on stay. -/
theorem toks_around : (bigSep Finset.univ fun c : Dev nD => (toks c : sProp 𝕄)) ⊢ bigSep Finset.univ fun c : Dev nD => payToks c := by
  rw [bigSep_congr (fun c _ => toks_eq c)]
  unfold payToks
  simp only [bigSep_sep']
  iintro ⟨⟨HF, HT⟩, H0, H1, H2, H3⟩
  isplitl [HF]; · iapply (deal pyE fun c => dutyTok ER (barCell c) 0 false); iexact HF
  isplitl [HT]; · iapply (deal pxE fun c => dutyTok ER (barCell c) 0 true); iexact HT
  isplitl [H1]; · iapply (deal pyE fun c => bigSep Finset.univ fun k : Fin 16 => dutyTok ER (dCell c 1 k) 0 false); iexact H1
  isplitl [H3]; · iapply (deal pxE fun c => bigSep Finset.univ fun k : Fin 16 => dutyTok ER (dCell c 3 k) 0 false); iexact H3
  isplitl [H0]; · iexact H0
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Fin 65 => iprop(∃ κ : ℕ, cellInv ER (sched m) κ (kcell (c, i))))
          ∗ (bigSep Finset.univ fun i : Fin 65 => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Fin 65 => iprop(∃ κ : ℕ, cellInv ER (sched m) κ (kcell ck))),
    bigSep_congr (s := Finset.univ) (fun (c : Dev nD) _ => bigSep_sep' Finset.univ (fun i : Fin 65 => (atPos ER (kcell (c, i)) 0 ∅ 0 : sProp 𝕄)) (fun i => reached ER (kcell (c, i)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => (positions c : sProp 𝕄)) payToks).symm).trans
      (bigSep_mono fun c _ => show _ ⊢ linear c from Entails.of_eq (by unfold linear; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem sum_rev16 {A : Type} [AddCommMonoid A] (g : Fin 16 → A) :
    ∑ i ∈ Finset.range 16, g ⟨(15 - i) % 16, Nat.mod_lt _ (by decide)⟩ = ∑ k : Fin 16, g k := by
  rw [Finset.sum_range fun i => g ⟨(15 - i) % 16, Nat.mod_lt _ (by decide)⟩]
  exact Fintype.sum_equiv Fin.revPerm _ _ fun i => congrArg g (Fin.ext (by
    show (15 - i.val) % 16 = (Fin.rev i).val
    rw [Fin.val_rev]; have := i.isLt; omega))

theorem remF_eq (c : Dev nD) (n : ℕ) :
    remF c n = ∑ i ∈ Finset.range n, tallyAt (dCell (px c) 3 ⟨(15 - i) % 16, Nat.mod_lt _ (by decide)⟩) () N := by
  induction n with
  | zero => exact (Finset.sum_range_zero _).symm
  | succ n ih => rw [Finset.sum_range_succ, ← ih]; rfl

theorem remY_eq (c : Dev nD) (n : ℕ) :
    remY c n = remF c 16 + ∑ i ∈ Finset.range n, tallyAt (dCell (py c) 1 ⟨(15 - i) % 16, Nat.mod_lt _ (by decide)⟩) () N := by
  induction n with
  | zero => rw [Finset.sum_range_zero, add_zero]; rfl
  | succ n ih => rw [Finset.sum_range_succ, ← add_assoc, ← ih]; rfl

/-- What a device owes at launch, cell by cell: the credit of a chunk to each of the sixteen cells its forwards land on
    and to each of the sixteen its transfers land on, a unit to each neighbour's barrier cell. -/
theorem O₀_eq : (O₀ : Dev nD → CellTallies nD τ sig Unit) = fun d =>
    (((∑ k : Fin 16, tallyAt (dCell (px d) 3 k) () N) + ∑ k : Fin 16, tallyAt (dCell (py d) 1 k) () N)
      + tallyAt (barCell (px d)) () 1) + tallyAt (barCell (py d)) () 1 := by
  funext d
  unfold O₀ O₁
  rw [remY_eq, remF_eq, sum_rev16 fun k => tallyAt (dCell (px d) 3 k) () N, sum_rev16 fun k => tallyAt (dCell (py d) 1 k) () N]

theorem creds_intro (c : Dev nD) : (Pipeline.launchCred O₀ c : sProp 𝕄) ⊢ creds c := by
  have e2 : (tallyAt (barCell c) () 2 : CellTallies nD τ sig Unit) = tallyAt (barCell c) () 1 + tallyAt (barCell c) () 1 :=
    (tallyAt_add (barCell c) () 1 1).symm
  have hY : (bigSep Finset.univ fun k : Fin 16 => (Pipeline.launchCred (fun d => tallyAt (dCell (py d) 1 k) () N) c : sProp 𝕄))
      ⊢ bigSep Finset.univ fun k : Fin 16 => cred (tallyAt (dCell c 1 k) () N) :=
    bigSep_mono fun k _ => Pipeline.launchCred_tallyAt (.dma (dsem 1 k)) py py py_py py_py () N c
  have hF : (bigSep Finset.univ fun k : Fin 16 => (Pipeline.launchCred (fun d => tallyAt (dCell (px d) 3 k) () N) c : sProp 𝕄))
      ⊢ bigSep Finset.univ fun k : Fin 16 => cred (tallyAt (dCell c 3 k) () N) :=
    bigSep_mono fun k _ => Pipeline.launchCred_tallyAt (.dma (dsem 3 k)) px px px_px px_px () N c
  rw [O₀_eq, Pipeline.launchCred_add, Pipeline.launchCred_add, Pipeline.launchCred_add, Pipeline.launchCred_sum, Pipeline.launchCred_sum]
  unfold creds
  rw [e2]
  iintro ⟨⟨⟨H3, H1⟩, HX⟩, HY⟩
  isplitl [HX HY]
  · iapply (cred_add _ _).2
    isplitl [HX]
    · iapply (Pipeline.launchCred_tallyAt (.reg barS) px px px_px px_px () 1 c); iexact HX
    · iapply (Pipeline.launchCred_tallyAt (.reg barS) py py py_py py_py () 1 c); iexact HY
  isplitl [H1]
  · iapply hY; iexact H1
  · iapply hF; iexact H3

/-! ## The pipeline's staging waits: below everything owed at launch -/

theorem O₀_pos {c : Dev nD} {g : GSem nD τ sig} {u : Unit} (h : 0 < O₀ c g u) :
    (∃ k, g = dCell (px c) 3 k) ∨ (∃ k, g = dCell (py c) 1 k) ∨ g = barCell (px c) ∨ g = barCell (py c) := by
  rw [congrFun O₀_eq c] at h
  rcases Pipeline.add_pos_cases h with h | h
  · rcases Pipeline.add_pos_cases h with h | h
    · rcases Pipeline.add_pos_cases h with h | h
      · obtain ⟨k, -, hk⟩ := Pipeline.sum_pos_exists h
        exact .inl ⟨k, (Pipeline.tallyAt_pos hk).1⟩
      · obtain ⟨k, -, hk⟩ := Pipeline.sum_pos_exists h
        exact .inr (.inl ⟨k, (Pipeline.tallyAt_pos hk).1⟩)
    · exact .inr (.inr (.inl (Pipeline.tallyAt_pos h).1))
  · exact .inr (.inr (.inr (Pipeline.tallyAt_pos h).1))

theorem lv_dCell (c : Dev nD) (j : Fin 4) (k : Fin 16) : 2 ≤ lv (dCell c j k) () := by
  have := two_le_dsem j k
  show 2 ≤ (if (dsem j k).val < 2 then 0 else if ((dsem j k).val - 2) / 16 < 2 then 2 else 3)
  rw [if_neg (by omega)]
  split <;> omega

/-- Every cell a device owes at launch is a TensorCore's, at level 1 or above. -/
theorem O₀_lv {c : Dev nD} {g : GSem nD τ sig} {u : Unit} (h : 0 < O₀ c g u) : u ∈ L g ∧ 0 < lv g u := by
  cases u
  rcases O₀_pos h with ⟨k, rfl⟩ | ⟨k, rfl⟩ | rfl | rfl
  · exact ⟨by rw [L_tc]; exact Finset.mem_singleton_self _, lt_of_lt_of_le (by decide) (lv_dCell _ _ _)⟩
  · exact ⟨by rw [L_tc]; exact Finset.mem_singleton_self _, lt_of_lt_of_le (by decide) (lv_dCell _ _ _)⟩
  · exact ⟨by rw [L_tc]; exact Finset.mem_singleton_self _, Nat.one_pos⟩
  · exact ⟨by rw [L_tc]; exact Finset.mem_singleton_self _, Nat.one_pos⟩

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => (O₀_lv hg).1)
      (fun p hp => by rw [Finset.mem_singleton.mp hp]; show (if q.val < 2 then 0 else _) ≤ 0; rw [if_pos hq])
      (fun g u hg => (O₀_lv hg).2)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sPts
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁ sPts Pipeline.ownSems0
  iintro ⟨Hr, Hz⟩
  isplitr; · iempintro
  isplitl [Hz]; · iexact Hz
  iexists (SB m c); iexact Hr

end AtLaunch

set_option maxRecDepth 8000 in
/-- At the compiled mesh of four devices, from any memory with zero counters: every weakly fair execution of @main
    terminates, nothing faulting, and every final state has each window's array at the proof data's final contents. -/
theorem run_main : θ_run defs (onTc (τ := τ) (main (F := F))) (⟨m, fun _ => 0, ρ⟩ : MemSt nD τ sig (Elt F))
    (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ AtLaunch.ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := AtLaunch.share_eq m)
    (hdistinct := winFacts0.arr_inj)
    (O₀ := O₀) (howed₀ := fun _ => rfl) (howedN := fun _ => rfl)
    (L := L) (lv := lv) (hL := L_of_ne) (hwaits := AtLaunch.waits m)
    (G := AtLaunch.G m) (G' := G' m) (u₀ := AtLaunch.u₀)
    (hu₀ := by
      unfold AtLaunch.u₀
      iintro Hu
      ihave H := (ownU_pair _ _) $$ Hu
      icases H with ⟨HP, HX⟩
      imod (AtLaunch.fund_cells m) $$ HX with HG
      imodintro
      isplitl [HP] <;> iassumption)
    (hglob := AtLaunch.glob m)
    (hA := fun _ _ => rfl) (hpf := fun _ k => k.elim0)
    (X := start m) (Y := fun _ => iprop(emp)) (Z := fun _ => iprop(emp))
    (hX := AtLaunch.start_intro m ρ) (hin := AtLaunch.phi0_intro m) (hout := AtLaunch.phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.A2A.run_main' depends on axioms: [propext, Classical.choice, Quot.sound] -/
#guard_msgs in #print axioms run_main

end Cert.KernelIdeal.A2A

end
-- ==== Proof.KernelIdeal.Run.lean ====
/-
  The run read at the arrays: the argument array unchanged, the result array at `Gout`.
-/
import proofs.«900024_g7700000000000025_dist_a2a_v7x_xy2x2_y_m1024_n512_bf16_1_alg».proof.Proof.KernelIdeal.Launch

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The staged argument block is the argument array itself: the window is the whole array. -/
theorem xstg_eq (c : Dev nD) : xstg m c = X m c := by
  have hz : (fun a => (win0_0.index (0 : Fin 1)) a * main_arg0.ty.shape.size a) = fun _ => 0 := funext fun a => Nat.zero_mul _
  exact Memref.read_access_unit_zero (Elt F) main_arg0 hz (fun a => by rw [congrFun hz a, Nat.zero_add]) (m ((c : Thread nD τ).loc main_arg0))

/-- The argument array after the run holds what it held. -/
theorem final_x (c : Dev nD) : (dats m 0 c).arrAt (0 : Fin 2) cfg0.N = m ((c : Thread nD τ).loc main_arg0) :=
  (dats m 0 c).arrAt_in (0 : Fin 2) rfl _

/-- The result array after the run: the result buffer's contents, written back whole. -/
theorem final_out (c : Dev nD) : (dats m 0 c).arrAt (1 : Fin 2) cfg0.N = Gout m c := by
  -- the one grid point writes the result buffer back, and its block is the whole array
  have hz : (fun a => (win0_1.index t₀) a * main_v1.ty.shape.size a) = fun _ => 0 := funext fun a => Nat.zero_mul _
  rw [show cfg0.N = (t₀ : Fin cfg0.N).val + 1 from rfl, (dats m 0 c).arrAt_succ (1 : Fin 2) t₀, Gen.flush0_1 t₀, if_pos rfl]
  exact Memref.write_access_unit_zero_univ (Elt F) main_v1 hz (fun a => by rw [congrFun hz a, Nat.zero_add]) _ (Gout m c)

/-- The run with both arrays named: what each frame and the value claim are read off. -/
theorem run : θ_run defs (onTc (τ := τ) (main (F := F))) (⟨m, fun _ => 0, ρ⟩ : MemSt nD τ sig (Elt F)) (fun r => ∀ c : Dev nD,
    r.2.mem ((c.tc : Thread nD τ).loc main_v1) = Gout m c
    ∧ r.2.mem ((c.tc : Thread nD τ).loc main_arg0) = m ((c.tc : Thread nD τ).loc main_arg0)) :=
  (θ_run defs _ _).mono
    (fun _ h c => ⟨(h c (1 : Fin 2)).trans (final_out m c), (h c (0 : Fin 2)).trans (final_x m c)⟩)
    (run_main m ρ)

/-- info: 'Cert.KernelIdeal.A2A.run' depends on axioms: [propext, Classical.choice, Quot.sound] -/
#guard_msgs in #print axioms run

end Cert.KernelIdeal.A2A

end
-- ==== Proof.Value.lean ====
/-
  The value of the exchange at the ideal instance.

  The reference converts the whole 2048 x 1024 array element by element; over the extended reals a change of float
  format is the identity, so its result is the array itself. Device `c` of the 2 x 2 mesh sits at (c / 2, c % 2),
  starts with the row block `c % 2` of the array (1024 rows) and must end with the column block `c % 2` of the
  result (512 columns). Row `r` of its result buffer is read off the block of the device `srcDev c r`, whose second
  mesh coordinate is always `r / 1024`: that device's row `r % 1024` is row `r` of the whole array, and column
  `512 (c % 2) + j` of it is column `j` of the column block `c % 2`.
-/
import proofs.«900024_g7700000000000025_dist_a2a_v7x_xy2x2_y_m1024_n512_bf16_1_alg».proof.Proof.KernelIdeal.Spec
import proofs.«900024_g7700000000000025_dist_a2a_v7x_xy2x2_y_m1024_n512_bf16_1_alg».proof.Proof.Gen.ReferenceIdeal
import proofs.«900024_g7700000000000025_dist_a2a_v7x_xy2x2_y_m1024_n512_bf16_1_alg».proof.Proof.Gen.ReferenceIdeal.Run
import Idealize.ShloMosaic.Lib.Layout
import Idealize.ShloMosaic.PureOps.Ideal

noncomputable section

namespace Cert.Proof.Value

open Idealize.ShloMosaic Idealize.ShloMosaic.TcCoe Idealize.SL.Sem
open Cert.KernelIdeal.A2A

/-! ## The mesh coordinates of a block -/

/-- Cut along the second mesh axis alone, device `s` holds block `s % 2`. -/
theorem lin_y (s : Nat) : Layout.meshLin [2, 2] s [1] = s % 2 := by
  show s / 1 % 2 * 1 + 0 = s % 2
  omega

/-- Not cut: the one block. -/
theorem lin_none (s : Nat) : Layout.meshLin [2, 2] s [] = 0 := rfl

/-- The device a row of the result is read from has second mesh coordinate `r / 1024`: it holds the row block of
    the whole array that row `r` lies in. -/
theorem srcDev_mod (c : Dev Cert.KernelIdeal.nD) (r : Nat) (hr : r < 2048) : (srcDev c r).val % 2 = r / 1024 := by
  have hc := dev_lt c
  unfold srcDev
  split
  · omega
  · split
    · rw [py_val]; omega
    · rw [px_val, py_val]; omega

/-! ## The reference -/

/-- The reference's result of a whole argument array: the array converted element by element. -/
abbrev refOut (A : FVec Ideal Cert.ReferenceIdeal.S2048x1024 .f32) : FVec Ideal Cert.ReferenceIdeal.S2048x1024 .bf16 :=
  truncf .bf16 A Cert.ReferenceIdeal.Gen.bitsLt_bf16_f32

/-- Over the extended reals the conversion changes no element. -/
theorem refOut_apply (A : FVec Ideal Cert.ReferenceIdeal.S2048x1024 .f32) (i : Cert.ReferenceIdeal.S2048x1024.Idx) :
    refOut A i = A i := rfl

/-- The reference's run on its one device: the result array ends at the converted argument array, the argument array
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v0)
          = refOut (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ')

/-- The reference's frame: it runs, and its argument array ends unchanged on every device. -/
theorem ref_frame (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run Cert.ReferenceIdeal.defs _ _).mono (fun _ h c => (h c).2) (Cert.ReferenceIdeal.Value.run (F := Ideal) m' ρ')

/-! ## The exchange's result is the reference's, block by block -/

/-- If every device starts with its row block of the whole array `A`, what the exchange leaves on device `c` is the
    column block `c % 2` of the reference's result of `A`. -/
theorem gout_block
    (m : (ℓ : Loc Cert.KernelIdeal.nD Cert.KernelIdeal.τ Cert.KernelIdeal.sig) → Buf (Elt Ideal) ℓ)
    (A : FVec Ideal Cert.ReferenceIdeal.S2048x1024 .f32)
    (hA : ∀ c : Dev Cert.KernelIdeal.nD,
      m ((c.tc : Thread Cert.KernelIdeal.nD Cert.KernelIdeal.τ).loc Cert.KernelIdeal.main_arg0)
        = Layout.blockN ⟨2, ![1024, 1024]⟩ ⟨2, ![2048, 1024]⟩ (Layout.meshBlock [2, 2] ![[1], []] c) A)
    (c : Dev Cert.KernelIdeal.nD) :
    Gout (F := Ideal) m c
      = Layout.blockN ⟨2, ![2048, 512]⟩ ⟨2, ![2048, 1024]⟩ (Layout.meshBlock [2, 2] ![[], [1]] c) (refOut A) := by
  funext i
  have hr : (i 0).val < 2048 := (i 0).isLt
  have hj : (i 1).val < 512 := (i 1).isLt
  -- the conversions are the identity: both sides are elements of `A`
  show m (((srcDev c (i 0).val).tc : Thread Cert.KernelIdeal.nD Cert.KernelIdeal.τ).loc Cert.KernelIdeal.main_arg0)
      (ixX ((i 0).val % 1024) (512 * (c.val % 2) + (i 1).val) (Nat.mod_lt _ (by decide)) (by omega)) = A _
  rw [hA (srcDev c (i 0).val), Layout.blockN_apply]
  congr 1
  funext b
  apply Fin.ext
  match b with
  | ⟨0, _⟩ =>
    show Layout.meshLin [2, 2] (srcDev c (i 0).val).val [1] * 1024 + (i 0).val % 1024
      = Layout.meshLin [2, 2] c.val [] * 2048 + (i 0).val
    rw [lin_y, lin_none, srcDev_mod c _ hr]; omega
  | ⟨1, _⟩ =>
    show Layout.meshLin [2, 2] (srcDev c (i 0).val).val [] * 1024 + (512 * (c.val % 2) + (i 1).val)
      = Layout.meshLin [2, 2] c.val [1] * 512 + (i 1).val
    rw [lin_none, lin_y]; omega

/-- info: 'Cert.Proof.Value.gout_block' depends on axioms: [propext, Classical.choice, Quot.sound] -/
#guard_msgs in #print axioms gout_block

end Cert.Proof.Value

end
-- ==== Proof.lean ====
/-
  The certificate's claim, assembled.

  The kernel is an all-to-all on a 2 x 2 mesh: every device starts with a row block of a 2048 x 1024 array and ends
  with a column block of it, each element converted to the narrow float format. One run theorem, proved once for any
  float instance, says that on every device the argument array ends unchanged and the result array ends at a named
  function of the devices' argument arrays. Read at the word-level instance and at the ideal instance with the values
  dropped, it is the two kernel frames. The reference is one conversion of the whole array on one device; its run is
  read off its one operation. The idealized kernel is the kernel's own text read at the ideal instance, so nothing is
  to be preserved. At the ideal instance a conversion is the identity, and the named function is, index by index, the
  column block of the whole array: that is the value claim.
-/
import proofs.«900024_g7700000000000025_dist_a2a_v7x_xy2x2_y_m1024_n512_bf16_1_alg».proof.Defs
import proofs.«900024_g7700000000000025_dist_a2a_v7x_xy2x2_y_m1024_n512_bf16_1_alg».proof.Proof.Gen.Kernel
import proofs.«900024_g7700000000000025_dist_a2a_v7x_xy2x2_y_m1024_n512_bf16_1_alg».proof.Proof.Gen.KernelIdeal
import proofs.«900024_g7700000000000025_dist_a2a_v7x_xy2x2_y_m1024_n512_bf16_1_alg».proof.Proof.Gen.ReferenceIdeal
import proofs.«900024_g7700000000000025_dist_a2a_v7x_xy2x2_y_m1024_n512_bf16_1_alg».proof.Proof.Gen.Pre_finite_inputs_Kernel
import proofs.«900024_g7700000000000025_dist_a2a_v7x_xy2x2_y_m1024_n512_bf16_1_alg».proof.Proof.Gen.Pre_finite_inputs_ReferenceIdeal
import proofs.«900024_g7700000000000025_dist_a2a_v7x_xy2x2_y_m1024_n512_bf16_1_alg».proof.Proof.Kernel.Run
import proofs.«900024_g7700000000000025_dist_a2a_v7x_xy2x2_y_m1024_n512_bf16_1_alg».proof.Proof.KernelIdeal.Run
import proofs.«900024_g7700000000000025_dist_a2a_v7x_xy2x2_y_m1024_n512_bf16_1_alg».proof.Proof.Value
import Idealize.ShloMosaic.Adequacy
import Idealize.ShloMosaic.Init

noncomputable section

namespace Cert.Proof

open Idealize.ShloMosaic Idealize.SL.Sem

/-- The kernel as printed runs and leaves its argument array as it was: the run at the word-level instance, the
    result's value dropped. -/
theorem frame_p : Cert.frame_Kernel := fun m g _ =>
  (θ_run Cert.Kernel.defs _ _).mono (fun _ h c => (h c).2) (Cert.Kernel.A2A.run (F := Bits) m g)

/-- The same of the idealized kernel: the run at the ideal instance. -/
theorem frame_pi : Cert.frame_KernelIdeal := fun m g _ =>
  (θ_run Cert.KernelIdeal.defs _ _).mono (fun _ h c => (h c).2) (Cert.KernelIdeal.A2A.run (F := Ideal) m g)

/-- The reference runs and leaves its argument array as it was. -/
theorem frame_ri : Cert.frame_ReferenceIdeal := fun m g _ => Value.ref_frame m g

/-- The ideal pass rewrote nothing. -/
theorem preserves : Cert.preserves_Kernel_KernelIdeal := trivial

/-- At the ideal instance, from devices that hold their row blocks of the reference's argument array: the reference's
    result is the converted array, and every device's result buffer ends at its column block of it. -/
theorem algebraic : Cert.algebraic_KernelIdeal_ReferenceIdeal := by
  intro m g m' g' _ hagree
  refine ⟨Value.refOut (m' (((0 : Dev Cert.ReferenceIdeal.nD).tc : Thread Cert.ReferenceIdeal.nD Cert.ReferenceIdeal.τ).loc Cert.ReferenceIdeal.main_arg0)),
    ?_, Value.ref_run m' g'⟩
  exact (θ_run Cert.KernelIdeal.defs _ _).mono
    (fun _ h c => ⟨(h c).1.trans (Value.gout_block m _ hagree c), (h c).2⟩)
    (Cert.KernelIdeal.A2A.run (F := Ideal) m g)

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p, frame_pi, frame_ri, preserves, algebraic⟩

/-- info: 'Cert.Proof.claim' depends on axioms: [propext, Classical.choice, Quot.sound] -/
#guard_msgs in #print axioms claim

end Cert.Proof

end
